-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩
abbrev S1x800000 : Shape := ⟨2, ![1, 800000]⟩
abbrev S800000 : Shape := ⟨1, ![800000]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : IVec S1x800000 32 := (extractStridedSlice S1x800000 ![0, 0] · slices_S2x800000_S1x800000_0_0) main_arg1
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg1
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg1 : IVec S2x800000 32) (main_arg8 : FVec F S128 .f32) (main_arg9 : FVec F S128x512 .f32) (main_arg10 : FVec F S512 .f32) (main_arg11 : FVec F S512 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x512 .f32 := Host.absf main_arg9
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_v48 main_v49 main_v50

def fn_part1 {F : FTy → Type} [FloatOps F] (main_arg1 : IVec S2x800000 32) (main_arg5 : FVec F S128x128 .f32) (main_arg6 : FVec F S128x128 .f32) (main_arg7 : FVec F S128 .f32) (main_arg8 : FVec F S128 .f32) (main_arg9 : FVec F S128x512 .f32) (main_arg10 : FVec F S512 .f32) (main_arg11 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x512 .f32) (main_arg1 : IVec S2x800000 32) (main_arg2 : FVec F S512x128 .f32) (main_arg3 : FVec F S128 .f32) (main_arg4 : FVec F S128 .f32) (main_arg5 : FVec F S128x128 .f32) (main_arg6 : FVec F S128x128 .f32) (main_arg7 : FVec F S128 .f32) (main_arg8 : FVec F S128 .f32) (main_arg9 : FVec F S128x512 .f32) (main_arg10 : FVec F S512 .f32) (main_arg11 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S1x128 : Shape := ⟨2, ![1, 128]⟩
abbrev S1x512 : Shape := ⟨2, ![1, 512]⟩
abbrev S50000x128 : Shape := ⟨2, ![50000, 128]⟩
abbrev S25x1x128 : Shape := ⟨3, ![25, 1, 128]⟩
abbrev S2000x512 : Shape := ⟨2, ![2000, 512]⟩
abbrev S2000x128 : Shape := ⟨2, ![2000, 128]⟩
abbrev S1x1x128 : Shape := ⟨3, ![1, 1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S25x1x512 : Shape := ⟨3, ![25, 1, 512]⟩
abbrev S1x1x512 : Shape := ⟨3, ![1, 1, 512]⟩

abbrev nBuf : Space → Nat
  | .hbm => 100
  | .vmem => 54
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x512, .f32⟩
  | .hbm, ⟨10, _⟩ => ⟨S512, .f32⟩
  | .hbm, ⟨11, _⟩ => ⟨S512, .f32⟩
  | .hbm, ⟨12, _⟩ => ⟨S512x128, .bf16⟩
  | .hbm, ⟨13, _⟩ => ⟨S128x128, .bf16⟩
  | .hbm, ⟨14, _⟩ => ⟨S128x128, .bf16⟩
  | .hbm, ⟨15, _⟩ => ⟨S128x512, .bf16⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x512, .f32⟩
  | .hbm, ⟨21, _⟩ => ⟨S1x512, .f32⟩
  | .hbm, ⟨22, _⟩ => ⟨S50000x128, .f32⟩
  | .hbm, ⟨23, _⟩ => ⟨S25x1x128, .f32⟩
  | .hbm, ⟨24, _⟩ => ⟨S25x1x128, .f32⟩
  | .hbm, ⟨25, _⟩ => ⟨S_, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S1x800000, .i32⟩
  | .hbm, ⟨40, _⟩ => ⟨S800000, .i32⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x128, .f32⟩
  | .hbm, ⟨62, _⟩ => ⟨S800000x128, .i1⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S25x1x128, .f32⟩
  | .hbm, ⟨71, _⟩ => ⟨S25x1x128, .f32⟩
  | .hbm, ⟨72, _⟩ => ⟨S_, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S50000x512, .f32⟩
  | .hbm, ⟨85, _⟩ => ⟨S25x1x512, .f32⟩
  | .hbm, ⟨86, _⟩ => ⟨S25x1x512, .f32⟩
  | .hbm, ⟨87, _⟩ => ⟨S_, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S_, .f32⟩
  | .hbm, ⟨93, _⟩ => ⟨S1x512, .f32⟩
  | .hbm, ⟨94, _⟩ => ⟨S_, .f32⟩
  | .hbm, ⟨95, _⟩ => ⟨S1x512, .f32⟩
  | .hbm, ⟨96, _⟩ => ⟨S1x512, .f32⟩
  | .hbm, ⟨97, _⟩ => ⟨S1x512, .f32⟩
  | .hbm, ⟨98, _⟩ => ⟨S1x512, .f32⟩
  | .hbm, ⟨99, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S2000x128, .f32⟩
  | .local _ .vmem, ⟨4, _⟩ => ⟨S2000x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .bf16⟩
  | .local _ .vmem, ⟨16, _⟩ => ⟨S128x128, .bf16⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S128x512, .bf16⟩
  | .local _ .vmem, ⟨38, _⟩ => ⟨S2000x512, .f32⟩
  | .local _ .vmem, ⟨39, _⟩ => ⟨S2000x512, .f32⟩
  | .local _ .vmem, ⟨40, _⟩ => ⟨S1x1x512, .f32⟩
  | .local _ .vmem, ⟨41, _⟩ => ⟨S1x1x512, .f32⟩
  | .local _ .vmem, ⟨42, _⟩ => ⟨S1x1x512, .f32⟩
  | .local _ .vmem, ⟨43, _⟩ => ⟨S1x1x512, .f32⟩
  | .local _ .vmem, ⟨44, _⟩ => ⟨S2000x512, .f32⟩
  | .local _ .vmem, ⟨45, _⟩ => ⟨S2000x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S2000x512, .f32⟩
  | .local _ .vmem, ⟨51, _⟩ => ⟨S2000x512, .f32⟩
  | .local _ .vmem, ⟨52, _⟩ => ⟨S2000x512, .f32⟩
  | .local _ .vmem, ⟨53, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_cst : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v24 : Ref sig .tc := ⟨.hbm, 65, rfl⟩
abbrev main_cst_3 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28_0 : Ref sig .tc := ⟨.hbm, 70, rfl⟩
abbrev main_v28_1 : Ref sig .tc := ⟨.hbm, 71, rfl⟩
abbrev main_cst_4 : Ref sig .tc := ⟨.hbm, 72, rfl⟩
abbrev main_v29 : Ref sig .tc := ⟨.hbm, 73, rfl⟩
abbrev main_cst_5 : Ref sig .tc := ⟨.hbm, 74, rfl⟩
abbrev main_v30 : Ref sig .tc := ⟨.hbm, 75, rfl⟩
abbrev main_v31 : Ref sig .tc := ⟨.hbm, 76, rfl⟩
abbrev main_cst_6 : Ref sig .tc := ⟨.hbm, 77, rfl⟩
abbrev main_v32 : Ref sig .tc := ⟨.hbm, 78, rfl⟩
abbrev main_cst_7 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37_0 : Ref sig .tc := ⟨.hbm, 84, rfl⟩
abbrev main_v37_1 : Ref sig .tc := ⟨.hbm, 85, rfl⟩
abbrev main_v37_2 : Ref sig .tc := ⟨.hbm, 86, rfl⟩
abbrev main_cst_8 : Ref sig .tc := ⟨.hbm, 87, rfl⟩
abbrev main_v38 : Ref sig .tc := ⟨.hbm, 88, rfl⟩
abbrev main_cst_9 : Ref sig .tc := ⟨.hbm, 89, rfl⟩
abbrev main_v39 : Ref sig .tc := ⟨.hbm, 90, rfl⟩
abbrev main_v40 : Ref sig .tc := ⟨.hbm, 91, rfl⟩
abbrev main_cst_10 : Ref sig .tc := ⟨.hbm, 92, rfl⟩
abbrev main_v41 : Ref sig .tc := ⟨.hbm, 93, rfl⟩
abbrev main_cst_11 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc4_sem6_0 : DmaSem sig := 52
abbrev cc4_sem6_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bitsLt_bf16_f32 : FTy.bits .bf16 < FTy.bits .f32
  shapeCasts_S128_S1x128 : S128.ShapeCasts S1x128
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S25x1x128_S1x128_d0 : S25x1x128.ReducesTo [0] S1x128
  h_S_ : 0 < S_.numel
  bcast_S_S1x128 : S_.BroadcastsInDim S1x128 (![] : Fin 0 → Fin S1x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  reduces_S2000x512_S512 : S2000x512.Reduces [0] S512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  reducesTo_S25x1x512_S1x512_d0 : S25x1x512.ReducesTo [0] S1x512
  bcast_S_S1x512 : S_.BroadcastsInDim S1x512 (![] : Fin 0 → Fin S1x512.rank)
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S25x1x128.size a
  hwx0_3 : ∀ i : grid0.Coords, EltTy.bits .f32 = 32 ∨ (Rect.block (s := S25x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S25x1x128.size a
  hwx0_4 : ∀ i : grid0.Coords, EltTy.bits .f32 = 32 ∨ (Rect.block (s := S25x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S25x1x128.size a
  hwx2_2 : ∀ i : grid2.Coords, EltTy.bits .f32 = 32 ∨ (Rect.block (s := S25x1x128) S1x1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S25x1x128.size a
  hwx2_3 : ∀ i : grid2.Coords, EltTy.bits .f32 = 32 ∨ (Rect.block (s := S25x1x128) S1x1x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x512.size a ≤ S128x512.size a
  hwx3_6 : ∀ i : grid3.Coords, EltTy.bits .bf16 = 32 ∨ (Rect.block (s := S128x512) S128x512.size (cc3_transform_6 i) (hinb3_6 i)).WholeWords (EltTy.packing .bf16)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x512.size a ≤ S50000x512.size a
  hwx3_7 : ∀ i : grid3.Coords, EltTy.bits .f32 = 32 ∨ (Rect.block (s := S50000x512) S2000x512.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x512.size a ≤ S25x1x512.size a
  hwx3_8 : ∀ i : grid3.Coords, EltTy.bits .f32 = 32 ∨ (Rect.block (s := S25x1x512) S1x1x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1x512.size a ≤ S25x1x512.size a
  hwx3_9 : ∀ i : grid3.Coords, EltTy.bits .f32 = 32 ∨ (Rect.block (s := S25x1x512) S1x1x512.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x512.size a ≤ S50000x512.size a
  hwx4_5 : ∀ i : grid4.Coords, EltTy.bits .f32 = 32 ∨ (Rect.block (s := S50000x512) S2000x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x512.size a ≤ S50000x512.size a
  hwx4_6 : ∀ i : grid4.Coords, EltTy.bits .f32 = 32 ∨ (Rect.block (s := S50000x512) S2000x512.size (cc4_transform_6 i) (hinb4_6 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S2000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v19_1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28_0) S1x1x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28_1) S1x1x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19_1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v3) S128x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v37_0) S2000x512.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v37_1) S1x1x512.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v37_2) S1x1x512.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v37_0) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg0) S2000x512.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v46) S2000x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S50000x128 : Shape := ⟨2, ![50000, 128]⟩
abbrev S_ : Shape := ⟨0, ![]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x512 : Shape := ⟨2, ![1, 512]⟩

abbrev nBuf : Space → Nat
  | .hbm => 176
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128, .f32⟩
  | 5 => ⟨S128x128, .f32⟩
  | 6 => ⟨S128x128, .f32⟩
  | 7 => ⟨S128, .f32⟩
  | 8 => ⟨S128, .f32⟩
  | 9 => ⟨S128x512, .f32⟩
  | 10 => ⟨S512, .f32⟩
  | 11 => ⟨S512, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S128, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S1x800000, .i32⟩
  | 61 => ⟨S800000, .i32⟩
  | 62 => ⟨S1x800000, .i32⟩
  | 63 => ⟨S800000, .i32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x512, .f32⟩
  | _ => ⟨S50000x512, .f32⟩

abbrev hbmTy0_1 (i : Nat) : BufTy := match i % 128 with
  | 0 => ⟨S_, .f32⟩
  | 1 => ⟨S512, .f32⟩
  | 2 => ⟨S_, .f32⟩
  | 3 => ⟨S512, .f32⟩
  | 4 => ⟨S512, .f32⟩
  | 5 => ⟨S_, .i32⟩
  | 6 => ⟨S_, .f32⟩
  | 7 => ⟨S512, .f32⟩
  | 8 => ⟨S1x512, .f32⟩
  | 9 => ⟨S_, .f32⟩
  | 10 => ⟨S1x512, .f32⟩
  | 11 => ⟨S1x512, .f32⟩
  | 12 => ⟨S50000x512, .f32⟩
  | 13 => ⟨S50000x512, .f32⟩
  | 14 => ⟨S50000x512, .f32⟩
  | 15 => ⟨S_, .f32⟩
  | 16 => ⟨S_, .f32⟩
  | 17 => ⟨S_, .f32⟩
  | 18 => ⟨S_, .f32⟩
  | 19 => ⟨S512, .f32⟩
  | 20 => ⟨S512, .f32⟩
  | 21 => ⟨S512, .f32⟩
  | 22 => ⟨S_, .f32⟩
  | 23 => ⟨S_, .i1⟩
  | 24 => ⟨S_, .f32⟩
  | 25 => ⟨S_, .f32⟩
  | 26 => ⟨S512, .f32⟩
  | 27 => ⟨S512, .f32⟩
  | 28 => ⟨S1x512, .f32⟩
  | 29 => ⟨S50000x512, .f32⟩
  | 30 => ⟨S50000x512, .f32⟩
  | 31 => ⟨S_, .f32⟩
  | 32 => ⟨S512, .f32⟩
  | 33 => ⟨S512, .f32⟩
  | 34 => ⟨S512, .f32⟩
  | 35 => ⟨S1x512, .f32⟩
  | 36 => ⟨S50000x512, .f32⟩
  | 37 => ⟨S50000x512, .f32⟩
  | 38 => ⟨S1x512, .f32⟩
  | 39 => ⟨S50000x512, .f32⟩
  | 40 => ⟨S50000x512, .f32⟩
  | 41 => ⟨S1x512, .f32⟩
  | 42 => ⟨S50000x512, .f32⟩
  | 43 => ⟨S50000x512, .f32⟩
  | 44 => ⟨S50000x512, .f32⟩
  | 45 => ⟨S_, .f32⟩
  | 46 => ⟨S50000x512, .f32⟩
  | 47 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_call1_cst : Ref sig .tc := ⟨.hbm, 57, rfl⟩
abbrev main_call1_v0 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_2 : Ref sig .tc := ⟨.hbm, 65, rfl⟩
abbrev main_v26 : Ref sig .tc := ⟨.hbm, 66, rfl⟩
abbrev main_v27 : Ref sig .tc := ⟨.hbm, 67, rfl⟩
abbrev main_c_3 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_4 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_5 : Ref sig .tc := ⟨.hbm, 80, rfl⟩
abbrev main_v38 : Ref sig .tc := ⟨.hbm, 81, rfl⟩
abbrev main_cst_6 : Ref sig .tc := ⟨.hbm, 82, rfl⟩
abbrev main_v39 : Ref sig .tc := ⟨.hbm, 83, rfl⟩
abbrev main_v40 : Ref sig .tc := ⟨.hbm, 84, rfl⟩
abbrev main_c_7 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_8 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_call3_cst : Ref sig .tc := ⟨.hbm, 124, rfl⟩
abbrev main_call3_v0 : Ref sig .tc := ⟨.hbm, 125, rfl⟩
abbrev main_v57 : Ref sig .tc := ⟨.hbm, 126, rfl⟩
abbrev main_v58 : Ref sig .tc := ⟨.hbm, 127, rfl⟩
abbrev main_cst_9 : Ref sig .tc := ⟨.hbm, 128, rfl⟩
abbrev main_v59 : Ref sig .tc := ⟨.hbm, 129, rfl⟩
abbrev main_cst_10 : Ref sig .tc := ⟨.hbm, 130, rfl⟩
abbrev main_v60 : Ref sig .tc := ⟨.hbm, 131, rfl⟩
abbrev main_v61 : Ref sig .tc := ⟨.hbm, 132, rfl⟩
abbrev main_c_11 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_cst_1 : Ref sig .tc := ⟨.hbm, 144, rfl⟩
abbrev main_call4_v8 : Ref sig .tc := ⟨.hbm, 145, rfl⟩
abbrev main_call4_cst_2 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_cst_3 : Ref sig .tc := ⟨.hbm, 150, rfl⟩
abbrev main_call4_v12 : Ref sig .tc := ⟨.hbm, 151, rfl⟩
abbrev main_call4_cst_4 : Ref sig .tc := ⟨.hbm, 152, rfl⟩
abbrev main_call4_call0_v0 : Ref sig .tc := ⟨.hbm, 153, rfl⟩
abbrev main_call4_call0_v1 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_cst_12 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_call5_cst : Ref sig .tc := ⟨.hbm, 173, rfl⟩
abbrev main_call5_v0 : Ref sig .tc := ⟨.hbm, 174, rfl⟩
abbrev main_v79 : Ref sig .tc := ⟨.hbm, 175, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S50000x512_S512_d0 : S50000x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x512_S512x128_S50000x128_1_0_0_1_n_n_wf : DotDims.WF S50000x512 S512x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.Spec.lean ====
/-
  The mathematics of the block, as functions on matrices of extended reals.

  A matrix is a function of a row and a column; a vector a function of a column. The block is three
  stages of "normalise the columns over the 50000 rows, scale, shift, clip at zero, multiply by a weight matrix",
  with an aggregation over the graph's edges (an operator `E` on 50000 × 128 matrices, kept abstract here) added
  before the second normalisation and the input added before the last clip.

  Two spellings of the column statistics are defined. The direct one: the mean is the column's sum over the
  count, the variance the mean of the squared deviations from it. The tiled one: the rows are cut in 25 tiles of
  2000, the column's sum is the sum of the tiles' sums, and the variance is the mean of the squares minus the
  square of the mean. `outR` is the block over the direct statistics and `outK` the block over the tiled ones.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals, by row and column. -/
abbrev M (n p : Nat) := Fin n → Fin p → EReal
/-- A vector of extended reals. -/
abbrev Vc (p : Nat) := Fin p → EReal

/-- A rank-2 array read by row and column. -/
abbrev cur2 {n p : Nat} (a : (⟨2, ![n, p]⟩ : Shape).Idx → EReal) : M n p := fun i j => a (ix2 i j)
/-- A rank-1 array read by its coordinate. -/
abbrev cur1 {p : Nat} (a : (⟨1, ![p]⟩ : Shape).Idx → EReal) : Vc p := fun j => a (ix1 j)
/-- A row vector stored as a 1 × p array. -/
abbrev curRow {p : Nat} (a : (⟨2, ![1, p]⟩ : Shape).Idx → EReal) : Vc p := fun j => a (ix2 0 j)

/-- The ε of the normalisation: the single-precision number nearest 1e-5. -/
def eps : EReal := Ideal.ofBits .f32 0x3727C5AC#32
/-- The number of rows, 50000, as its single-precision pattern. -/
def cnt : EReal := Ideal.ofBits .f32 0x47435000#32

/-- Row `q` of tile `t` is row 2000 · t + q. -/
def row (t : Fin 25) (q : Fin 2000) : Fin 50000 := ⟨2000 * t.val + q.val, by omega⟩

/-- The matrix product. -/
def mm {n k p : Nat} (a : M n k) (b : M k p) : M n p := fun i j => ∑ l : Fin k, a i l * b l j

/-- The entrywise square. -/
def sq {n p : Nat} (y : M n p) : M n p := fun i j => y i j * y i j

/-- The sum of a column over the 2000 rows of tile `t`. -/
def tileSum {p : Nat} (y : M 50000 p) (t : Fin 25) : Vc p := fun j => ∑ q : Fin 2000, y (row t q) j

/-- The column means, directly: the column's sum over the count. -/
def meanR {p : Nat} (y : M 50000 p) : Vc p := fun j => Ideal.div (∑ i : Fin 50000, y i j) cnt
/-- The column variances, directly: the mean of the squared deviations from the mean. -/
def varR {p : Nat} (y : M 50000 p) : Vc p :=
  fun j => Ideal.div (∑ i : Fin 50000, (y i j - meanR y j) * (y i j - meanR y j)) cnt

/-- The column means from the 25 tiles' sums. -/
def meanK {p : Nat} (y : M 50000 p) : Vc p := fun j => Ideal.div (∑ t : Fin 25, tileSum y t j) cnt
/-- The column variances from the tiles' sums of squares: the mean of the squares minus the square of the mean. -/
def varK {p : Nat} (y : M 50000 p) : Vc p :=
  fun j => Ideal.div (∑ t : Fin 25, tileSum (sq y) t j) cnt - meanK y j * meanK y j

/-- Normalise, scale and shift: `(y − μ) · (σ² + ε)^(-1/2) · γ + β`, column by column. -/
def bn {n p : Nat} (y : M n p) (mu var g b : Vc p) : M n p :=
  fun i j => (y i j - mu j) * Ideal.rsqrt (var j + eps) * g j + b j

/-- Clip at zero from below. -/
def relu {n p : Nat} (y : M n p) : M n p := fun i j => max (y i j) 0

/-- The sum of two matrices. -/
def add {n p : Nat} (y z : M n p) : M n p := fun i j => y i j + z i j

/-- The block over the DIRECT column statistics, with the edge aggregation `E`. -/
def outR (E : M 50000 128 → M 50000 128) (x : M 50000 512) (w1 : M 512 128) (g1 b1 : Vc 128)
    (ws wn : M 128 128) (g2 b2 : Vc 128) (w3 : M 128 512) (g3 b3 : Vc 512) : M 50000 512 :=
  let y1 := mm x w1
  let h := relu (bn y1 (meanR y1) (varR y1) g1 b1)
  let y2 := add (mm h ws) (E (mm h wn))
  let h2 := relu (bn y2 (meanR y2) (varR y2) g2 b2)
  let y3 := mm h2 w3
  relu (add (bn y3 (meanR y3) (varR y3) g3 b3) x)

/-- The block over the TILED column statistics, with the edge aggregation `E`. -/
def outK (E : M 50000 128 → M 50000 128) (x : M 50000 512) (w1 : M 512 128) (g1 b1 : Vc 128)
    (ws wn : M 128 128) (g2 b2 : Vc 128) (w3 : M 128 512) (g3 b3 : Vc 512) : M 50000 512 :=
  let y1 := mm x w1
  let h := relu (bn y1 (meanK y1) (varK y1) g1 b1)
  let y2 := add (mm h ws) (E (mm h wn))
  let h2 := relu (bn y2 (meanK y2) (varK y2) g2 b2)
  let y3 := mm h2 w3
  relu (add (bn y3 (meanK y3) (varK y3) g3 b3) x)

end Cert.Spec

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.LibAndReduce.lean ====
/-
  An and-reduce of an array of one-bit words that are all 1.

  General facts, independent of any program: a left fold by `and` that starts at 1 and meets only 1s ends at 1; so a
  `stablehlo.reduce` by `and` from the constant 1, over whichever axes, of an array whose every entry is 1 is 1 at
  every index of its result. (The library has the other direction: a reduce that came out 1 met only 1s.) This is what
  a range test `all(lo <= idx <= hi)` along an axis comes to when every index is known to be in range, for instance
  the test a take in fill mode makes before it chooses between the gathered row and its fill.
-/
import Idealize.ShloMosaic.PureOps.Reduce
import Idealize.ShloMosaic.Lib.ReduceAll

namespace Cert.LibAndReduce

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An and-reduce, from initial values that are 1, of an array whose every entry is 1 is 1 at every index of the
    result, whatever the shapes and the reduced axes. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

end Cert.LibAndReduce
-- ==== Proof.Edge.lean ====
/-
  The aggregation over the graph's edges, as both programs spell it on the host.

  The edge list is a 2 × 800000 array of 32-bit words: row 0 the source node of each edge, row 1 its destination.
  A source word is first wrapped (a negative word has 50000 added). The message of edge `e` is the row of the
  50000 × 128 matrix named by its wrapped source; the result adds each message into the row named by the edge's
  destination, over a matrix of zeros.

  The two spellings differ in one place. The plain one (`msgR`) gathers the rows. The guarded one (`msgK`)
  also tests each wrapped source against the range 0 … 49999 and replaces the message of an edge that fails the
  test by a fill value. Where every source word lies in 0 … 49999 the wrap does nothing, the test passes on every
  edge, and the two spellings agree (`msgK_eq_msgR`). A gathered entry is an entry of the matrix, and a sum of
  reals over zeros is real, so the aggregation of a real matrix is real (`ER_real`).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate
import proofs.«421418_j84782654423196_3_alg».proof.Proof.Spec
import proofs.«421418_j84782654423196_3_alg».proof.Proof.LibReal
import proofs.«421418_j84782654423196_3_alg».proof.Proof.LibAndReduce

noncomputable section

open scoped BigOperators

namespace Cert.Edge

open Idealize.ShloMosaic Idealize.ShloMosaic.ValueIdx Cert.Spec Cert.LibReal

abbrev S_ : Shape := ⟨0, ![]⟩
abbrev S1 : Shape := ⟨1, ![1]⟩
abbrev S1x1 : Shape := ⟨2, ![1, 1]⟩
abbrev S2x800000 : Shape := ⟨2, ![2, 800000]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x128 : Shape := ⟨2, ![50000, 128]⟩

/-- The side conditions over these shapes that the host lines cite. -/
structure Sh : Prop where
  h_S_ : 0 < S_.numel
  sl0 : S2x800000.Slices ![0, 0] S1x800000
  sl1 : S2x800000.Slices ![1, 0] S1x800000
  sc : S1x800000.ShapeCasts S800000
  b_S_S800000 : S_.BroadcastsInDim S800000 (![] : Fin 0 → Fin S800000.rank)
  b_S800000_S800000x1 : S800000.BroadcastsInDim S800000x1 (![0] : Fin 1 → Fin S800000x1.rank)
  b_S_S800000x1 : S_.BroadcastsInDim S800000x1 (![] : Fin 0 → Fin S800000x1.rank)
  b_S1_S1x1 : S1.BroadcastsInDim S1x1 (![1] : Fin 1 → Fin S1x1.rank)
  b_S1x1_S800000x1 : S1x1.BroadcastsInDim S800000x1 (![0, 1] : Fin 2 → Fin S800000x1.rank)
  r_S800000x1_S800000 : S800000x1.ReducesTo [1] S800000
  b_S800000_S800000x128 : S800000.BroadcastsInDim S800000x128 (![0] : Fin 1 → Fin S800000x128.rank)
  b_S_S800000x128 : S_.BroadcastsInDim S800000x128 (![] : Fin 0 → Fin S800000x128.rank)
  b_S_S50000x128 : S_.BroadcastsInDim S50000x128 (![] : Fin 0 → Fin S50000x128.rank)

variable (sh : Sh) (dg : GatherDims S50000x128 S800000x1 S800000x128) (ds : ScatterDims S50000x128 S800000x1 S800000x128)

/-- Row 0 of the edge list: the source words. -/
def src (ei : IVec S2x800000 32) : IVec S800000 32 :=
  fun i => shapeCast S800000 (extractStridedSlice S1x800000 ![0, 0] ei sh.sl0) sh.sc i
/-- Row 1 of the edge list: the destination words. -/
def dst (ei : IVec S2x800000 32) : IVec S800000 32 :=
  fun i => shapeCast S800000 (extractStridedSlice S1x800000 ![1, 0] ei sh.sl1) sh.sc i

/-- A source word wrapped: a negative word has 50000 added. -/
def wrap (s : IVec S800000 32) : IVec S800000 32 :=
  select (cmpi .slt s (broadcastInDim S800000 ![] sh.b_S_S800000 (constantI S_ 32 0#32)))
    (addi s (broadcastInDim S800000 ![] sh.b_S_S800000 (constantI S_ 32 50000#32))) s

/-- The wrapped sources as a column of start indices. -/
def idxCol (s : IVec S800000 32) : IVec S800000x1 32 :=
  broadcastInDim S800000x1 ![0] sh.b_S800000_S800000x1 (wrap sh s)

/-- The messages, plainly: each edge's row of the matrix. -/
def msgR (hn : FVec Ideal S50000x128 .f32) (s : IVec S800000 32) : FVec Ideal S800000x128 .f32 :=
  Host.gather dg hn (idxCol sh s)

/-- The range test of the guarded spelling: 1 on an edge whose wrapped source lies in 0 … 49999. -/
def inRange (s : IVec S800000 32) : IVec S800000 1 :=
  Host.reduce IntOp.andi
    (andi (cmpi .sge (idxCol sh s) (broadcastInDim S800000x1 ![] sh.b_S_S800000x1 (constantI S_ 32 0#32)))
      (cmpi .sle (idxCol sh s) (broadcastInDim S800000x1 ![0, 1] sh.b_S1x1_S800000x1
        (broadcastInDim S1x1 ![1] sh.b_S1_S1x1 (constantI S1 32 49999#32)))))
    (constantI S_ 1 1#1) sh.r_S800000x1_S800000 sh.h_S_

/-- The messages, guarded: the row where the range test passes, the fill value elsewhere. -/
def msgK (hn : FVec Ideal S50000x128 .f32) (s : IVec S800000 32) : FVec Ideal S800000x128 .f32 :=
  select (broadcastInDim S800000x128 ![0] sh.b_S800000_S800000x128 (inRange sh s)) (Host.gather dg hn (idxCol sh s))
    (broadcastInDim S800000x128 ![] sh.b_S_S800000x128 (constant (F := Ideal) S_ .f32 0x7FC00000#32))

/-- The messages added into their destination rows, over zeros. -/
def agg (msg : FVec Ideal S800000x128 .f32) (d : IVec S800000 32) : FVec Ideal S50000x128 .f32 :=
  Host.scatterAdd ds (broadcastInDim S50000x128 ![] sh.b_S_S50000x128 (constant (F := Ideal) S_ .f32 0x00000000#32))
    (broadcastInDim S800000x1 ![0] sh.b_S800000_S800000x1 d) msg

/-- A matrix as the 50000 × 128 array it is stored in. -/
abbrev arr2 {n p : Nat} (f : M n p) : (⟨2, ![n, p]⟩ : Shape).Idx → EReal := fun idx => f (idx 0) (idx 1)

theorem arr2_apply {n p : Nat} (f : M n p) (i : Fin n) (j : Fin p) : arr2 f (ix2 i j) = f i j := rfl

/-- The edge aggregation of the reference, as an operator on matrices. -/
def ER (ei : IVec S2x800000 32) (hn : M 50000 128) : M 50000 128 :=
  cur2 (agg sh ds (msgR sh dg (arr2 hn) (src sh ei)) (dst sh ei))
/-- The edge aggregation of the kernel's program, as an operator on matrices. -/
def EK (ei : IVec S2x800000 32) (hn : M 50000 128) : M 50000 128 :=
  cur2 (agg sh ds (msgK sh dg (arr2 hn) (src sh ei)) (dst sh ei))

/-! ## Words in range -/

/-- A word that reads non-negative is not below zero, so the wrap keeps it. -/
theorem word_wrap (v : BitVec 32) (h0 : 0 ≤ v.toInt) :
    Scalar.select (IntOp.cmpi .slt v 0#32) (IntOp.addi v 50000#32) v = v := by
  have hz : (0#32 : BitVec 32).toInt = 0 := by decide
  have hc : IntOp.cmpi .slt v 0#32 = 0#1 := by
    unfold IntOp.cmpi
    show BitVec.ofBool (v.slt 0#32) = 0#1
    have hf : v.slt 0#32 = false := by
      simp only [BitVec.slt, hz, decide_eq_false_iff_not, not_lt]; exact h0
    rw [hf]; rfl
  rw [hc]; exact select_zero _ _

/-- A word that reads in 0 … 49999 passes both bounds of the range test. -/
theorem word_inRange (v : BitVec 32) (h0 : 0 ≤ v.toInt) (h1 : v.toInt < 50000) :
    IntOp.andi (IntOp.cmpi .sge v 0#32) (IntOp.cmpi .sle v 49999#32) = 1#1 := by
  have hz : (0#32 : BitVec 32).toInt = 0 := by decide
  have hm : (49999#32 : BitVec 32).toInt = 49999 := by decide
  have hge : IntOp.cmpi .sge v 0#32 = 1#1 := by
    unfold IntOp.cmpi
    show BitVec.ofBool ((0#32 : BitVec 32).sle v) = 1#1
    have ht : (0#32 : BitVec 32).sle v = true := by
      simp only [BitVec.sle, hz, decide_eq_true_eq]; exact h0
    rw [ht]; rfl
  have hle : IntOp.cmpi .sle v 49999#32 = 1#1 := by
    unfold IntOp.cmpi
    show BitVec.ofBool (v.sle 49999#32) = 1#1
    have ht : v.sle 49999#32 = true := by
      simp only [BitVec.sle, hm, decide_eq_true_eq]; omega
    rw [ht]; rfl
  rw [hge, hle]; rfl

/-! ## The guarded messages where every source is in range -/

/-- Where every source word reads non-negative the wrap is the identity. -/
theorem wrap_eq (s : IVec S800000 32)
    (hs : ∀ e : Fin 800000, 0 ≤ (s (ix1 e)).toInt ∧ (s (ix1 e)).toInt < 50000) : wrap sh s = s := by
  funext j
  obtain ⟨e, rfl⟩ : ∃ e : Fin 800000, j = ix1 e := ⟨j 0, eq_ix1 j⟩
  show Scalar.select (IntOp.cmpi .slt (s (ix1 e)) 0#32) (IntOp.addi (s (ix1 e)) 50000#32) (s (ix1 e)) = s (ix1 e)
  exact word_wrap _ (hs e).1

/-- The column of start indices reads, at row `p`, the source word of edge `p`. -/
theorem idxCol_apply (s : IVec S800000 32)
    (hs : ∀ e : Fin 800000, 0 ≤ (s (ix1 e)).toInt ∧ (s (ix1 e)).toInt < 50000) (p : Fin 800000) (q : Fin 1) :
    idxCol sh s (ix2 p q) = s (ix1 p) := by
  unfold idxCol
  rw [wrap_eq sh s hs]
  refine broadcastInDim_apply _ sh.b_S800000_S800000x1 s (ix2 p q) (ix1 p) (fun a => ?_)
  match a with
  | ⟨0, _⟩ =>
    show p.val = if (800000 : Nat) = 1 then 0 else p.val
    rw [if_neg (by decide)]

/-- Both bounds hold at every entry of the column, so the conjunction of the two tests is 1 everywhere. -/
theorem mask_one (s : IVec S800000 32)
    (hs : ∀ e : Fin 800000, 0 ≤ (s (ix1 e)).toInt ∧ (s (ix1 e)).toInt < 50000) (j : S800000x1.Idx) :
    andi (cmpi .sge (idxCol sh s) (broadcastInDim S800000x1 ![] sh.b_S_S800000x1 (constantI S_ 32 0#32)))
      (cmpi .sle (idxCol sh s) (broadcastInDim S800000x1 ![0, 1] sh.b_S1x1_S800000x1
        (broadcastInDim S1x1 ![1] sh.b_S1_S1x1 (constantI S1 32 49999#32)))) j = 1#1 := by
  obtain ⟨p, q, rfl⟩ : ∃ (p : Fin 800000) (q : Fin 1), j = ix2 p q := ⟨j 0, j 1, eq_ix2 j⟩
  show IntOp.andi (IntOp.cmpi .sge (idxCol sh s (ix2 p q)) 0#32) (IntOp.cmpi .sle (idxCol sh s (ix2 p q)) 49999#32) = 1#1
  rw [idxCol_apply sh s hs p q]
  exact word_inRange _ (hs p).1 (hs p).2

/-- The range test passes on every edge: an and-reduce from 1 of an array of 1s. -/
theorem inRange_one (s : IVec S800000 32)
    (hs : ∀ e : Fin 800000, 0 ≤ (s (ix1 e)).toInt ∧ (s (ix1 e)).toInt < 50000) (j : S800000.Idx) :
    inRange sh s j = 1#1 := by
  unfold inRange
  exact Cert.LibAndReduce.reduce_andi_one _ _ sh.r_S800000x1_S800000 sh.h_S_ (mask_one sh s hs) (fun _ => rfl) j

/-- Where every source word is in 0 … 49999 (read signed), the guarded messages are the plain ones. -/
theorem msgK_eq_msgR (hn : FVec Ideal S50000x128 .f32) (s : IVec S800000 32)
    (hs : ∀ e : Fin 800000, 0 ≤ (s (ix1 e)).toInt ∧ (s (ix1 e)).toInt < 50000) :
    msgK sh dg hn s = msgR sh dg hn s := by
  funext j
  unfold msgK msgR
  rw [select_apply]
  have hb : broadcastInDim S800000x128 ![0] sh.b_S800000_S800000x128 (inRange sh s) j = 1#1 := by
    unfold broadcastInDim
    exact inRange_one sh s hs _
  rw [hb]
  exact select_one _ _

/-- Row 0 of the edge list read at edge `e`: the slice at offset (0, 0) and the reshape keep the row-major position. -/
theorem src_apply (ei : IVec S2x800000 32) (e : Fin 800000) : src sh ei (ix1 e) = ei (ix2 0 e) := by
  unfold src
  refine (shapeCast_apply _ sh.sc (ix1 e) (ix2 (0 : Fin 1) e) ?_).trans ?_
  · rw [Shape.rowMajor_val_two, Shape.rowMajor_val_one]
    show (0 : Nat) * 800000 + e.val = e.val
    omega
  · refine extractStridedSlice_apply _ ei sh.sl0 (ix2 (0 : Fin 1) e) (ix2 (0 : Fin 2) e) (fun a => ?_)
    match a with
    | ⟨0, _⟩ => show (0 : Nat) = 0 + 0; rfl
    | ⟨1, _⟩ => show e.val = 0 + e.val; omega

/-- Under the same range condition on row 0 of the edge list the two operators are one. -/
theorem EK_eq_ER (ei : IVec S2x800000 32)
    (hs : ∀ e : Fin 800000, 0 ≤ (ei (ix2 0 e)).toInt ∧ (ei (ix2 0 e)).toInt < 50000) :
    EK sh dg ds ei = ER sh dg ds ei := by
  funext hn
  unfold EK ER
  rw [msgK_eq_msgR sh dg (arr2 hn) (src sh ei) (fun e => by rw [src_apply]; exact hs e)]

/-! ## Reals are closed under the sums the aggregation takes -/

theorem isReal_zero : IsReal 0 := ⟨0, EReal.coe_zero.symm⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_sum {ι : Type} (t : Finset ι) (f : ι → EReal) (h : ∀ i ∈ t, IsReal (f i)) : IsReal (∑ i ∈ t, f i) :=
  Finset.sum_induction f IsReal (fun _ _ => isReal_add) isReal_zero h

/-- An accumulating scatter of real updates into a real operand is real at every entry: the entry plus a finite sum
    of the updates that land on it, at any shapes and dimension numbers. -/
theorem isReal_scatterAdd {s si su : Shape} {w : Nat} (d : ScatterDims s si su) (x : FVec Ideal s .f32)
    (idx : IVec si w) (upd : FVec Ideal su .f32) (hx : ∀ i, IsReal (x i)) (hu : ∀ k, IsReal (upd k)) (i : s.Idx) :
    IsReal (Host.scatterAdd d x idx upd i) := by
  unfold Host.scatterAdd
  rw [Ideal.hostScatterAdd_def]
  unfold Ideal.hostScatterAdd
  exact isReal_add (hx i) (isReal_sum _ _ (fun k _ => hu k))

/-- The splat of the zero pattern is the real 0 at every entry, at any shape. -/
theorem isReal_zeros {t : Shape} (h : S_.BroadcastsInDim t (![] : Fin 0 → Fin t.rank)) (i : t.Idx) :
    IsReal (broadcastInDim t ![] h (constant (F := Ideal) S_ .f32 0x00000000#32) i) := by
  unfold broadcastInDim
  rw [constant_apply, Ideal.ofBits_zero_f32]
  exact isReal_zero

/-- A gathered entry of a real matrix is an entry of the matrix, so real, whatever the start indices. -/
theorem msgR_real (hn : M 50000 128) (h : ∀ i j, IsReal (hn i j)) (s : IVec S800000 32) (k : S800000x128.Idx) :
    IsReal (msgR sh dg (arr2 hn) s k) := by
  unfold msgR Host.gather
  exact h _ _

/-- The plain aggregation of a real matrix is real. -/
theorem ER_real (ei : IVec S2x800000 32) (hn : M 50000 128) (h : ∀ i j, IsReal (hn i j)) :
    ∀ i j, IsReal (ER sh dg ds ei hn i j) := by
  intro i j
  unfold ER agg
  exact isReal_scatterAdd ds _ _ _ (isReal_zeros sh.b_S_S50000x128) (msgR_real sh dg hn h (src sh ei)) (ix2 i j)

/-! ## At the programs' own dimension numbers -/

/-- The side conditions hold (each is decided from the shapes). -/
theorem sh0 : Sh :=
  ⟨by decide, by decide, by decide, by decide, by decide, by decide, by decide, by decide, by decide, by decide,
    by decide, by decide, by decide⟩

/-- The row gather's dimension numbers: operand [50000, 128], a column of 800000 start indices, result [800000, 128]. -/
def dg0 : GatherDims S50000x128 S800000x1 S800000x128 where
  offsetDims := [1]
  collapsedSliceDims := [0]
  operandBatchingDims := []
  startIndicesBatchingDims := []
  startIndexMap := [0]
  indexVectorDim := 1
  sliceSizes := ![1, 128]
  wf := by decide

/-- The row scatter's dimension numbers: updates [800000, 128] into rows of [50000, 128]. -/
def ds0 : ScatterDims S50000x128 S800000x1 S800000x128 where
  updateWindowDims := [1]
  insertedWindowDims := [0]
  scatterDimsToOperandDims := [0]
  indexVectorDim := 1
  wf := by decide

/-- The reference's edge aggregation. -/
def ER0 (ei : IVec S2x800000 32) : M 50000 128 → M 50000 128 := ER sh0 dg0 ds0 ei
/-- The kernel program's edge aggregation. -/
def EK0 (ei : IVec S2x800000 32) : M 50000 128 → M 50000 128 := EK sh0 dg0 ds0 ei

theorem EK0_eq_ER0 (ei : IVec S2x800000 32)
    (hs : ∀ e : Fin 800000, 0 ≤ (ei (ix2 0 e)).toInt ∧ (ei (ix2 0 e)).toInt < 50000) : EK0 ei = ER0 ei :=
  EK_eq_ER sh0 dg0 ds0 ei hs

theorem ER0_real (ei : IVec S2x800000 32) (hn : M 50000 128) (h : ∀ i j, IsReal (hn i j)) :
    ∀ i j, IsReal (ER0 ei hn i j) := ER_real sh0 dg0 ds0 ei hn h

end Cert.Edge

end
-- ==== Proof.KVals.lean ====
/-
  The values the idealized kernel's program computes, stage by stage, as matrices over the launch memory:
  the first product, the first normalised and clipped activation, its two products, the edge aggregation, the
  second pre-activation and activation, the third product, and the result. Their composition is the block over the
  tiled column statistics (`Spec.outK`).
-/
import proofs.«421418_j84782654423196_3_alg».proof.Proof.Gen.KernelIdeal
import proofs.«421418_j84782654423196_3_alg».proof.Proof.Spec
import proofs.«421418_j84782654423196_3_alg».proof.Proof.Edge

noncomputable section

open scoped BigOperators

namespace Cert.KernelIdeal.KVals

open Idealize.ShloMosaic Idealize.ShloMosaic.ValueIdx Idealize.SL.Sem
open Cert.KernelIdeal Cert.Spec

variable (m : (ℓ : Loc nD τ sig) → Buf (Elt Ideal) ℓ) (c : Dev nD)

/-- The input features. -/
def x : M 50000 512 := cur2 (m ((c.tc : Thread nD τ).loc main_arg0))
/-- The edge list. -/
def ei : IVec S2x800000 32 := m ((c.tc : Thread nD τ).loc main_arg1)
def w1 : M 512 128 := cur2 (m ((c.tc : Thread nD τ).loc main_arg2))
def g1 : Vc 128 := cur1 (m ((c.tc : Thread nD τ).loc main_arg3))
def b1 : Vc 128 := cur1 (m ((c.tc : Thread nD τ).loc main_arg4))
def ws : M 128 128 := cur2 (m ((c.tc : Thread nD τ).loc main_arg5))
def wn : M 128 128 := cur2 (m ((c.tc : Thread nD τ).loc main_arg6))
def g2 : Vc 128 := cur1 (m ((c.tc : Thread nD τ).loc main_arg7))
def b2 : Vc 128 := cur1 (m ((c.tc : Thread nD τ).loc main_arg8))
def w3 : M 128 512 := cur2 (m ((c.tc : Thread nD τ).loc main_arg9))
def g3 : Vc 512 := cur1 (m ((c.tc : Thread nD τ).loc main_arg10))
def b3 : Vc 512 := cur1 (m ((c.tc : Thread nD τ).loc main_arg11))

/-- The edge aggregation, in the guarded spelling. -/
def E : M 50000 128 → M 50000 128 := Cert.Edge.EK0 (ei m c)

/-- The first product. -/
def y1 : M 50000 128 := mm (x m c) (w1 m c)
/-- The first activation. -/
def h1 : M 50000 128 := relu (bn (y1 m c) (meanK (y1 m c)) (varK (y1 m c)) (g1 m c) (b1 m c))
/-- The neighbour transform of the first activation. -/
def hn : M 50000 128 := mm (h1 m c) (wn m c)
/-- The root transform of the first activation. -/
def hr : M 50000 128 := mm (h1 m c) (ws m c)
/-- The aggregated neighbour messages. -/
def ag : M 50000 128 := E m c (hn m c)
/-- The second pre-activation. -/
def y2 : M 50000 128 := add (hr m c) (ag m c)
/-- The second activation. -/
def h2 : M 50000 128 := relu (bn (y2 m c) (meanK (y2 m c)) (varK (y2 m c)) (g2 m c) (b2 m c))
/-- The third product. -/
def y3 : M 50000 512 := mm (h2 m c) (w3 m c)
/-- The result. -/
def out : M 50000 512 := relu (add (bn (y3 m c) (meanK (y3 m c)) (varK (y3 m c)) (g3 m c) (b3 m c)) (x m c))

theorem out_eq : out m c = outK (E m c) (x m c) (w1 m c) (g1 m c) (b1 m c) (ws m c) (wn m c) (g2 m c) (b2 m c) (w3 m c) (g3 m c) (b3 m c) := rfl

end Cert.KernelIdeal.KVals

end
-- ==== Proof.KStats.lean ====
/-
  The column statistics as the host computes them from the 25 tiles' partial sums: the sum of the partials over the
  count is the mean, and the sum of the partial sums of squares over the count, minus the square of that mean, is the
  variance — the tiled spellings `Spec.meanK` and `Spec.varK`.
-/
import proofs.«421418_j84782654423196_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.KStats

open Idealize.ShloMosaic Idealize.ShloMosaic.ValueIdx Cert.Spec

abbrev S_ : Shape := ⟨0, ![]⟩

variable {p : Nat} (hr : (⟨3, ![25, 1, p]⟩ : Shape).ReducesTo [0] ⟨2, ![1, p]⟩) (hu : 0 < S_.numel)
  (hb : S_.BroadcastsInDim ⟨2, ![1, p]⟩ (![] : Fin 0 → Fin (⟨2, ![1, p]⟩ : Shape).rank))

/-- The host's mean row from an array of partial sums. -/
def hostMean (P : FVec Ideal ⟨3, ![25, 1, p]⟩ .f32) : FVec Ideal ⟨2, ![1, p]⟩ .f32 :=
  Host.divf (Host.reduceAdd P (constant (F := Ideal) S_ .f32 0x00000000#32) hr hu)
    (broadcastInDim ⟨2, ![1, p]⟩ ![] hb (constant (F := Ideal) S_ .f32 0x47435000#32))

/-- The host's variance row from the two arrays of partial sums. -/
def hostVar (P Q : FVec Ideal ⟨3, ![25, 1, p]⟩ .f32) : FVec Ideal ⟨2, ![1, p]⟩ .f32 :=
  subf (hostMean hr hu hb Q) (mulf (hostMean hr hu hb P) (hostMean hr hu hb P))

/-- The index of the partials over column j whose tile coordinate is t is (t, 0, j). -/
theorem lift_row (h : (⟨3, ![25, 1, p]⟩ : Shape).Reduces [0] ⟨2, ![1, p]⟩) (t : Fin 25) (j : Fin p) :
    h.lift (ix2 0 j) t = ix3 t 0 j := by
  funext c
  apply Fin.ext
  match c with
  | ⟨0, _⟩ => rfl
  | ⟨1, _⟩ => rfl
  | ⟨2, _⟩ => rfl

/-- The host's mean row at column j: the sum over the 25 tiles of the partials, over the count. -/
theorem hostMean_sum (P : FVec Ideal ⟨3, ![25, 1, p]⟩ .f32) (j : Fin p) :
    hostMean hr hu hb P (ix2 0 j) = Ideal.div (∑ t : Fin 25, P (ix3 t 0 j)) cnt := by
  have h : (⟨3, ![25, 1, p]⟩ : Shape).Reduces [0] ⟨2, ![1, p]⟩ := ⟨hr.1, Nat.zero_lt_two, hr.2⟩
  unfold hostMean cnt
  rw [hostDivf_apply, hostReduceAdd_apply, Ideal.hostReduceAdd_single hr h, broadcastInDim_scalar_apply,
    constant_apply, constant_apply, Ideal.ofBits_zero_f32, zero_add]
  exact congrArg (fun s => Ideal.div s _) (Finset.sum_congr rfl fun t _ => congrArg P (lift_row h t j))

/-- Where the partials are a matrix's tile sums, the host's mean row is the tiled mean. -/
theorem hostMean_apply (P : FVec Ideal ⟨3, ![25, 1, p]⟩ .f32) (y : M 50000 p)
    (hP : ∀ (t : Fin 25) (j : Fin p), P (ix3 t 0 j) = tileSum y t j) (j : Fin p) :
    hostMean hr hu hb P (ix2 0 j) = meanK y j := by
  rw [hostMean_sum]
  unfold meanK
  exact congrArg (fun s => Ideal.div s _) (Finset.sum_congr rfl fun t _ => hP t j)

/-- Where the partials are a matrix's tile sums and the tile sums of its squares, the host's variance row is the
    tiled variance. -/
theorem hostVar_apply (P Q : FVec Ideal ⟨3, ![25, 1, p]⟩ .f32) (y : M 50000 p)
    (hP : ∀ (t : Fin 25) (j : Fin p), P (ix3 t 0 j) = tileSum y t j)
    (hQ : ∀ (t : Fin 25) (j : Fin p), Q (ix3 t 0 j) = tileSum (sq y) t j) (j : Fin p) :
    hostVar hr hu hb P Q (ix2 0 j) = varK y j := by
  unfold hostVar varK
  rw [subf_apply, mulf_apply, hostMean_apply hr hu hb P y hP, hostMean_apply hr hu hb Q (sq y) hQ]
  rfl

end Cert.KStats

end
-- ==== Proof.Region0.lean ====
/-
  The first pallas_call over the whole arrays. Its grid has 25 points; point t reads rows 2000·t … 2000·t + 1999 of the
  features and the whole weight matrix, writes those rows of their product, and writes into row t of two 25 × 1 × 128
  arrays the column sums of that tile of the product and of its squares.
-/
import proofs.«421418_j84782654423196_3_alg».proof.Proof.Gen.KernelIdeal.Frame
import proofs.«421418_j84782654423196_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

/-! ## The product's dimension numbers, axis by axis -/

private theorem lhs_mm_0 (j : S2000x128.Idx) (k : dot_S2000x512_S512x128_S2000x128_1_0_0_1_n_n.contr.Idx) :
    (dot_S2000x512_S512x128_S2000x128_1_0_0_1_n_n.lhsIdx j k 0 : ℕ) = j 0 := by
  simp [DotDims.lhsIdx, dot_S2000x512_S512x128_S2000x128_1_0_0_1_n_n]; rfl
private theorem lhs_mm_1 (j : S2000x128.Idx) (k : dot_S2000x512_S512x128_S2000x128_1_0_0_1_n_n.contr.Idx) :
    (dot_S2000x512_S512x128_S2000x128_1_0_0_1_n_n.lhsIdx j k 1 : ℕ) = k ⟨0, by decide⟩ := by
  simp [DotDims.lhsIdx, dot_S2000x512_S512x128_S2000x128_1_0_0_1_n_n]; rfl
private theorem rhs_mm_0 (j : S2000x128.Idx) (k : dot_S2000x512_S512x128_S2000x128_1_0_0_1_n_n.contr.Idx) :
    (dot_S2000x512_S512x128_S2000x128_1_0_0_1_n_n.rhsIdx j k 0 : ℕ) = k ⟨0, by decide⟩ := by
  simp [DotDims.rhsIdx, dot_S2000x512_S512x128_S2000x128_1_0_0_1_n_n]; rfl
private theorem rhs_mm_1 (j : S2000x128.Idx) (k : dot_S2000x512_S512x128_S2000x128_1_0_0_1_n_n.contr.Idx) :
    (dot_S2000x512_S512x128_S2000x128_1_0_0_1_n_n.rhsIdx j k 1 : ℕ) = j 1 := by
  simp [DotDims.rhsIdx, dot_S2000x512_S512x128_S2000x128_1_0_0_1_n_n]; rfl

/-- The tile's product at (p, q): row p of the features' tile times column q of the weights. -/
theorem pay1_apply (x0 : Vec Ideal S2000x512 .f32) (x1 : Vec Ideal S512x128 .bf16) (p : Fin 2000) (q : Fin 128) :
    k0_pay1 (F := Ideal) x0 x1 (ix2 p q) = ∑ l : Fin 512, x0 (ix2 p l) * x1 (ix2 l q) := by
  unfold k0_pay1
  rw [shapeCast_self]
  refine (Ideal.matmul_constant_zero_apply (φ₁ := .bf16) (φ₂ := .bf16) dot_S2000x512_S512x128_S2000x128_1_0_0_1_n_n none
    (truncf .bf16 x0 bitsLt_bf16_f32) x1 (ix2 p q)).trans ?_
  rw [← Equiv.sum_comp (contrEquiv1 dot_S2000x512_S512x128_S2000x128_1_0_0_1_n_n 512 rfl rfl).symm]
  refine Finset.sum_congr rfl fun l _ => ?_
  have c2 := contrEquiv1_symm_val dot_S2000x512_S512x128_S2000x128_1_0_0_1_n_n 512 rfl rfl l
  have l2 : dot_S2000x512_S512x128_S2000x128_1_0_0_1_n_n.lhsIdx (ix2 p q)
      ((contrEquiv1 dot_S2000x512_S512x128_S2000x128_1_0_0_1_n_n 512 rfl rfl).symm l) = ix2 p l := by
    funext ax; apply Fin.ext
    match ax with
    | ⟨0, _⟩ => exact lhs_mm_0 _ _
    | ⟨1, _⟩ => exact (lhs_mm_1 _ _).trans c2
  have r2 : dot_S2000x512_S512x128_S2000x128_1_0_0_1_n_n.rhsIdx (ix2 p q)
      ((contrEquiv1 dot_S2000x512_S512x128_S2000x128_1_0_0_1_n_n 512 rfl rfl).symm l) = ix2 l q := by
    funext ax; apply Fin.ext
    match ax with
    | ⟨0, _⟩ => exact (rhs_mm_0 _ _).trans c2
    | ⟨1, _⟩ => exact rhs_mm_1 _ _
  rw [l2, r2]
  rfl

/-- The column sums of the tile's product, stored as a 1 × 1 × 128 block. -/
theorem pay2_apply (x0 : Vec Ideal S2000x512 .f32) (x1 : Vec Ideal S512x128 .bf16) (a b : Fin 1) (q : Fin 128) :
    k0_pay2 (F := Ideal) x0 x1 (ix3 a b q) = ∑ p : Fin 2000, k0_pay1 (F := Ideal) x0 x1 (ix2 p q) := by
  unfold k0_pay2
  refine (shapeCast_addUnit_apply (n := 2) ![1, 128] _ _ _).trans ?_
  refine (shapeCast_addUnit_apply (n := 1) ![128] _ _ _).trans ?_
  refine (Ideal.multiReduction_add_single (φ := .f32) _ _ _ _ _ _).trans ?_
  refine Finset.sum_congr rfl fun p _ => ?_
  refine congrArg (k0_pay1 (F := Ideal) x0 x1) ?_
  funext ax; apply Fin.ext
  match ax with
  | ⟨0, _⟩ => rfl
  | ⟨1, _⟩ => rfl

/-- The column sums of the squares of the tile's product, stored as a 1 × 1 × 128 block. -/
theorem pay3_apply (x0 : Vec Ideal S2000x512 .f32) (x1 : Vec Ideal S512x128 .bf16) (a b : Fin 1) (q : Fin 128) :
    k0_pay3 (F := Ideal) x0 x1 (ix3 a b q)
      = ∑ p : Fin 2000, k0_pay1 (F := Ideal) x0 x1 (ix2 p q) * k0_pay1 (F := Ideal) x0 x1 (ix2 p q) := by
  unfold k0_pay3
  refine (shapeCast_addUnit_apply (n := 2) ![1, 128] _ _ _).trans ?_
  refine (shapeCast_addUnit_apply (n := 1) ![128] _ _ _).trans ?_
  refine (Ideal.multiReduction_add_single (φ := .f32) _ _ _ _ _ _).trans ?_
  refine Finset.sum_congr rfl fun p _ => ?_
  refine (mulf_apply _ _ _).trans ?_
  refine congrArg (fun z => k0_pay1 (F := Ideal) x0 x1 z * k0_pay1 (F := Ideal) x0 x1 z) ?_
  funext ax; apply Fin.ext
  match ax with
  | ⟨0, _⟩ => rfl
  | ⟨1, _⟩ => rfl

variable (V : (c : Dev nD) → (b : Ref sig .tc) → Buf (Elt Ideal) ((c : Thread nD τ).loc b))

private theorem hz2 : (![0, 0] : Fin 2 → Nat) = fun _ => 0 := funext fun a => by fin_cases a <;> rfl
private theorem hz3 : (![0, 0, 0] : Fin 3 → Nat) = fun _ => 0 := funext fun a => by fin_cases a <;> rfl

/-- The windows' block indices at grid point t: the row windows move with t, the weights stay. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The features' block at point t is rows 2000·t … 2000·t + 1999 of the features. -/
theorem iblk0_0_apply (c : Dev nD) (t : Fin cfg0.N) (x : S2000x512.Idx) (k : S50000x512.Idx)
    (hk0 : (k 0).val = 2000 * t.val + (x 0).val) (hk1 : (k 1).val = (x 1).val) :
    (iblk0 (F := Ideal) V c 0 t : Vec Ideal S2000x512 .f32) x = (V c main_arg0 : S50000x512.Idx → EReal) k := by
  obtain ⟨e00, e01, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e00, hk0]; omega
  | ⟨1, _⟩ => show win0_0.index t 1 * 512 + 1 * (x 1).val = (k 1).val; rw [e01, hk1]; omega

/-- The weights' block at every point is the whole weight matrix. -/
theorem iblk0_1_apply (c : Dev nD) (t : Fin cfg0.N) (x : S512x128.Idx) :
    (iblk0 (F := Ideal) V c 1 t : Vec Ideal S512x128 .bf16) x = (V c main_v0 : S512x128.Idx → EReal) x := by
  obtain ⟨-, -, e10, e11, -⟩ := idx_facts t
  unfold iblk0
  rw [View.read_apply]
  show V c main_v0 _ = V c main_v0 _
  congr 1
  funext a
  apply Fin.ext
  match a with
  | ⟨0, _⟩ => show win0_1.index t 0 * 512 + 1 * (x 0).val = (x 0).val; rw [e10]; omega
  | ⟨1, _⟩ => show win0_1.index t 1 * 128 + 1 * (x 1).val = (x 1).val; rw [e11]; omega

/-- The tile's product at point t is rows 2000·t … of the whole product. -/
theorem tile_eq (c : Dev nD) (t : Fin cfg0.N) (p : Fin 2000) (q : Fin 128) (r : Fin 50000) (hr : r.val = 2000 * t.val + p.val) :
    k0_pay1 (F := Ideal) (iblk0 (F := Ideal) V c 0 t) (iblk0 (F := Ideal) V c 1 t) (ix2 p q)
      = mm (cur2 (V c main_arg0)) (cur2 (V c main_v0)) r q := by
  refine (pay1_apply (iblk0 (F := Ideal) V c 0 t) (iblk0 (F := Ideal) V c 1 t) p q).trans ?_
  unfold mm
  refine Finset.sum_congr rfl fun l _ => ?_
  exact congrArg₂ (fun a b : EReal => a * b) (iblk0_0_apply V c t (ix2 p l) (ix2 r l) hr rfl) (iblk0_1_apply V c t (ix2 l q))

/-! ## The three output arrays as functions of the region's entry contents -/

/-- The product array. -/
def G2 (a0 : S50000x512.Idx → EReal) (a1 : S512x128.Idx → EReal) : S50000x128.Idx → EReal :=
  fun i => mm (cur2 a0) (cur2 a1) (i 0) (i 1)
/-- The tiles' column sums of the product. -/
def G3 (a0 : S50000x512.Idx → EReal) (a1 : S512x128.Idx → EReal) : S25x1x128.Idx → EReal :=
  fun i => tileSum (mm (cur2 a0) (cur2 a1)) (i 0) (i 2)
/-- The tiles' column sums of the product's squares. -/
def G4 (a0 : S50000x512.Idx → EReal) (a1 : S512x128.Idx → EReal) : S25x1x128.Idx → EReal :=
  fun i => tileSum (sq (mm (cur2 a0) (cur2 a1))) (i 0) (i 2)

/-- What point t writes back to the product array is block t of the product. -/
theorem flushed2_eq (c : Dev nD) (t : Fin cfg0.N) :
    (dat0 (F := Ideal) V c).flushed 2 t = ((cfg0.win 2).blk t).view.read (Elt Ideal) (G2 (V c main_arg0) (V c main_v0)) := by
  show (cfg0.win 2).cut (grid0.coords t) ((dat0 (F := Ideal) V c).after 2 t) = _
  rw [after0_2]
  unfold out0_2
  rw [View.canon_unit_zero hz2]
  simp only [View.ld_unit_zero (S := S2000x512) hz2, View.ld_unit_zero (S := S512x128) hz2]
  obtain ⟨-, -, -, -, e20, e21, -⟩ := idx_facts t
  funext j
  have hj0 : (j 0).val < 2000 := (j 0).isLt
  have hj1 : (j 1).val < 128 := (j 1).isLt
  have ht : t.val < 25 := t.isLt
  show k0_pay1 (F := Ideal) (iblk0 (F := Ideal) V c 0 t) (iblk0 (F := Ideal) V c 1 t) ((cfg0.win 2).xinj (grid0.coords t) j)
     = G2 (V c main_arg0) (V c main_v0) (((cfg0.win 2).blk t).view.emb j)
  have hx : (cfg0.win 2).xinj (grid0.coords t) j = ix2 (⟨(j 0).val, hj0⟩ : Fin 2000) (⟨(j 1).val, hj1⟩ : Fin 128) := by
    funext a; match a with | ⟨0, _⟩ => rfl | ⟨1, _⟩ => rfl
  rw [hx]
  refine (tile_eq V c t _ _ ⟨2000 * t.val + (j 0).val, by omega⟩ rfl).trans ?_
  unfold G2
  refine congrArg₂ (mm (cur2 (V c main_arg0)) (cur2 (V c main_v0))) (Fin.ext ?_) (Fin.ext ?_)
  · show 2000 * t.val + (j 0).val = win0_2.index t 0 * 2000 + 1 * (j 0).val; rw [e20]; omega
  · show (j 1).val = win0_2.index t 1 * 128 + 1 * (j 1).val; rw [e21]; omega

/-- What point t writes back to the sums array is row t of the tiles' column sums. -/
theorem flushed3_eq (c : Dev nD) (t : Fin cfg0.N) :
    (dat0 (F := Ideal) V c).flushed 3 t = ((cfg0.win 3).blk t).view.read (Elt Ideal) (G3 (V c main_arg0) (V c main_v0)) := by
  show (cfg0.win 3).cut (grid0.coords t) ((dat0 (F := Ideal) V c).after 3 t) = _
  rw [after0_3]
  unfold out0_3
  rw [View.canon_unit_zero hz3]
  simp only [View.ld_unit_zero (S := S2000x512) hz2, View.ld_unit_zero (S := S512x128) hz2]
  obtain ⟨-, -, -, -, -, -, e0, e1, e2, -⟩ := idx_facts t
  funext j
  have hj0 : (j 0).val < 1 := (j 0).isLt
  have hj1 : (j 1).val < 1 := (j 1).isLt
  have hj2 : (j 2).val < 128 := (j 2).isLt
  have ht : t.val < 25 := t.isLt
  show k0_pay2 (F := Ideal) (iblk0 (F := Ideal) V c 0 t) (iblk0 (F := Ideal) V c 1 t) ((cfg0.win 3).xinj (grid0.coords t) j)
     = G3 (V c main_arg0) (V c main_v0) (((cfg0.win 3).blk t).view.emb j)
  have hx : (cfg0.win 3).xinj (grid0.coords t) j
      = ix3 (⟨(j 0).val, hj0⟩ : Fin 1) (⟨(j 1).val, hj1⟩ : Fin 1) (⟨(j 2).val, hj2⟩ : Fin 128) := by
    funext a; match a with | ⟨0, _⟩ => rfl | ⟨1, _⟩ => rfl | ⟨2, _⟩ => rfl
  rw [hx]
  refine (pay2_apply (iblk0 (F := Ideal) V c 0 t) (iblk0 (F := Ideal) V c 1 t) _ _ _).trans ?_
  have h0 : (⟨t.val, ht⟩ : Fin 25) = ((cfg0.win 3).blk t).view.emb j 0 :=
    Fin.ext (by show t.val = win0_3.index t 0 * 1 + 1 * (j 0).val; rw [e0]; omega)
  have h2 : (⟨(j 2).val, hj2⟩ : Fin 128) = ((cfg0.win 3).blk t).view.emb j 2 :=
    Fin.ext (by show (j 2).val = win0_3.index t 2 * 128 + 1 * (j 2).val; rw [e2]; omega)
  unfold G3
  rw [← h0, ← h2]
  unfold tileSum
  refine Finset.sum_congr rfl fun p _ => ?_
  exact tile_eq V c t p _ (row ⟨t.val, ht⟩ p) rfl

/-- What point t writes back to the sums-of-squares array is row t of the tiles' column sums of the squares. -/
theorem flushed4_eq (c : Dev nD) (t : Fin cfg0.N) :
    (dat0 (F := Ideal) V c).flushed 4 t = ((cfg0.win 4).blk t).view.read (Elt Ideal) (G4 (V c main_arg0) (V c main_v0)) := by
  show (cfg0.win 4).cut (grid0.coords t) ((dat0 (F := Ideal) V c).after 4 t) = _
  rw [after0_4]
  unfold out0_4
  rw [View.canon_unit_zero hz3]
  simp only [View.ld_unit_zero (S := S2000x512) hz2, View.ld_unit_zero (S := S512x128) hz2]
  obtain ⟨-, -, -, -, -, -, -, -, -, e0, e1, e2⟩ := idx_facts t
  funext j
  have hj0 : (j 0).val < 1 := (j 0).isLt
  have hj1 : (j 1).val < 1 := (j 1).isLt
  have hj2 : (j 2).val < 128 := (j 2).isLt
  have ht : t.val < 25 := t.isLt
  show k0_pay3 (F := Ideal) (iblk0 (F := Ideal) V c 0 t) (iblk0 (F := Ideal) V c 1 t) ((cfg0.win 4).xinj (grid0.coords t) j)
     = G4 (V c main_arg0) (V c main_v0) (((cfg0.win 4).blk t).view.emb j)
  have hx : (cfg0.win 4).xinj (grid0.coords t) j
      = ix3 (⟨(j 0).val, hj0⟩ : Fin 1) (⟨(j 1).val, hj1⟩ : Fin 1) (⟨(j 2).val, hj2⟩ : Fin 128) := by
    funext a; match a with | ⟨0, _⟩ => rfl | ⟨1, _⟩ => rfl | ⟨2, _⟩ => rfl
  rw [hx]
  refine (pay3_apply (iblk0 (F := Ideal) V c 0 t) (iblk0 (F := Ideal) V c 1 t) _ _ _).trans ?_
  have h0 : (⟨t.val, ht⟩ : Fin 25) = ((cfg0.win 4).blk t).view.emb j 0 :=
    Fin.ext (by show t.val = win0_4.index t 0 * 1 + 1 * (j 0).val; rw [e0]; omega)
  have h2 : (⟨(j 2).val, hj2⟩ : Fin 128) = ((cfg0.win 4).blk t).view.emb j 2 :=
    Fin.ext (by show (j 2).val = win0_4.index t 2 * 128 + 1 * (j 2).val; rw [e2]; omega)
  unfold G4
  rw [← h0, ← h2]
  unfold tileSum
  refine Finset.sum_congr rfl fun p _ => ?_
  unfold Spec.sq
  rw [tile_eq V c t p _ (row ⟨t.val, ht⟩ p) rfl]

/-! ## The blocks cover the arrays -/

private theorem mem_blk2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v10_0).slice (win0_2.rect t)).set ↔ _
  rw [View.set_slice_whole, Rect.mem_set_unit]
  exact Iff.rfl
private theorem mem_blk3 (t : Fin cfg0.N) (i : S25x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v10_1).slice (win0_3.rect t)).set ↔ _
  rw [View.set_slice_whole, Rect.mem_set_unit]
  exact Iff.rfl
private theorem mem_blk4 (t : Fin cfg0.N) (i : S25x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v10_2).slice (win0_4.rect t)).set ↔ _
  rw [View.set_slice_whole, Rect.mem_set_unit]
  exact Iff.rfl

/-- Row r of the product is in the block of point r / 2000. -/
private theorem cover2 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := by show _ < 25; omega
  obtain ⟨-, -, -, -, e0, e1, -⟩ := idx_facts ⟨(i 0).val / 2000, hN⟩
  refine ⟨⟨(i 0).val / 2000, hN⟩, flush0_2 _, ?_⟩
  rw [mem_blk2]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, hN⟩ (1 : Fin 2) * 128 ≤ (i 1).val ∧ (i 1).val < win0_2.index ⟨(i 0).val / 2000, hN⟩ (1 : Fin 2) * 128 + 128
    rw [e1]; omega

/-- Row t of a 25 × 1 × 128 array is the block of point t. -/
private theorem cover3 (i : S25x1x128.Idx) : ∃ t : Fin cfg0.N, (cfg0.win 3).flush t = true ∧ i ∈ ((cfg0.win 3).blk t).view.set := by
  have hi0 : (i 0).val < 25 := (i 0).isLt
  have hi1 : (i 1).val < 1 := (i 1).isLt
  have hi2 : (i 2).val < 128 := (i 2).isLt
  have hN : (i 0).val < cfg0.N := by show _ < 25; omega
  obtain ⟨-, -, -, -, -, -, e0, e1, e2, -⟩ := idx_facts ⟨(i 0).val, hN⟩
  refine ⟨⟨(i 0).val, hN⟩, flush0_3 _, ?_⟩
  rw [mem_blk3]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e0]; show (i 0).val * 1 ≤ (i 0).val ∧ (i 0).val < (i 0).val * 1 + 1; omega
  | ⟨1, _⟩ =>
    show win0_3.index ⟨(i 0).val, hN⟩ (1 : Fin 3) * 1 ≤ (i 1).val ∧ (i 1).val < win0_3.index ⟨(i 0).val, hN⟩ (1 : Fin 3) * 1 + 1
    rw [e1]; omega
  | ⟨2, _⟩ =>
    show win0_3.index ⟨(i 0).val, hN⟩ (2 : Fin 3) * 128 ≤ (i 2).val ∧ (i 2).val < win0_3.index ⟨(i 0).val, hN⟩ (2 : Fin 3) * 128 + 128
    rw [e2]; omega

private theorem cover4 (i : S25x1x128.Idx) : ∃ t : Fin cfg0.N, (cfg0.win 4).flush t = true ∧ i ∈ ((cfg0.win 4).blk t).view.set := by
  have hi0 : (i 0).val < 25 := (i 0).isLt
  have hi1 : (i 1).val < 1 := (i 1).isLt
  have hi2 : (i 2).val < 128 := (i 2).isLt
  have hN : (i 0).val < cfg0.N := by show _ < 25; omega
  obtain ⟨-, -, -, -, -, -, -, -, -, e0, e1, e2⟩ := idx_facts ⟨(i 0).val, hN⟩
  refine ⟨⟨(i 0).val, hN⟩, flush0_4 _, ?_⟩
  rw [mem_blk4]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [e0]; show (i 0).val * 1 ≤ (i 0).val ∧ (i 0).val < (i 0).val * 1 + 1; omega
  | ⟨1, _⟩ =>
    show win0_4.index ⟨(i 0).val, hN⟩ (1 : Fin 3) * 1 ≤ (i 1).val ∧ (i 1).val < win0_4.index ⟨(i 0).val, hN⟩ (1 : Fin 3) * 1 + 1
    rw [e1]; omega
  | ⟨2, _⟩ =>
    show win0_4.index ⟨(i 0).val, hN⟩ (2 : Fin 3) * 128 ≤ (i 2).val ∧ (i 2).val < win0_4.index ⟨(i 0).val, hN⟩ (2 : Fin 3) * 128 + 128
    rw [e2]; omega

/-! ## The arrays after the region -/

theorem final2 (c : Dev nD) : (dat0 (F := Ideal) V c).arrAt 2 cfg0.N = G2 (V c main_arg0) (V c main_v0) :=
  (dat0 (F := Ideal) V c).arrAt_eq_of_cover 2 (G2 (V c main_arg0) (V c main_v0)) (fun t _ => flushed2_eq V c t) cover2
theorem final3 (c : Dev nD) : (dat0 (F := Ideal) V c).arrAt 3 cfg0.N = G3 (V c main_arg0) (V c main_v0) :=
  (dat0 (F := Ideal) V c).arrAt_eq_of_cover 3 (G3 (V c main_arg0) (V c main_v0)) (fun t _ => flushed3_eq V c t) cover3
theorem final4 (c : Dev nD) : (dat0 (F := Ideal) V c).arrAt 4 cfg0.N = G4 (V c main_arg0) (V c main_v0) :=
  (dat0 (F := Ideal) V c).arrAt_eq_of_cover 4 (G4 (V c main_arg0) (V c main_v0)) (fun t _ => flushed4_eq V c t) cover4

/-- The product array after the region: entry (i, j) is row i of the features times column j of the weights. -/
theorem y_apply (c : Dev nD) (i : Fin 50000) (j : Fin 128) :
    (dat0 (F := Ideal) V c).arrAt 2 cfg0.N (ix2 i j) = mm (cur2 (V c main_arg0)) (cur2 (V c main_v0)) i j := by
  rw [final2]; rfl

/-- The tile sums of the product. -/
theorem psum_apply (c : Dev nD) (t : Fin 25) (j : Fin 128) :
    (dat0 (F := Ideal) V c).arrAt 3 cfg0.N (ix3 t 0 j) = tileSum (mm (cur2 (V c main_arg0)) (cur2 (V c main_v0))) t j := by
  rw [final3]; rfl

/-- The tile sums of the product's squares. -/
theorem psumsq_apply (c : Dev nD) (t : Fin 25) (j : Fin 128) :
    (dat0 (F := Ideal) V c).arrAt 4 cfg0.N (ix3 t 0 j) = tileSum (sq (mm (cur2 (V c main_arg0)) (cur2 (V c main_v0)))) t j := by
  rw [final4]; rfl

end Cert.KernelIdeal.Region0
end
-- ==== Proof.Region1.lean ====
/-
  The second pallas_call over the whole arrays: point t normalises, scales, shifts and clips rows 2000·t … 2000·t + 1999 of
  the first product with the given row vectors of means, variances, scales and shifts, and writes those rows of the
  activation's products with the two square weight matrices.
-/
import proofs.«421418_j84782654423196_3_alg».proof.Proof.Gen.KernelIdeal.Frame
import proofs.«421418_j84782654423196_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- A row vector broadcast down the 2000 rows reads its column. -/
theorem bcastRow_apply (x : FVec Ideal S1x128 .f32) (p : Fin 2000) (q : Fin 128) :
    broadcastTo S2000x128 x broadcasts_S1x128_S2000x128 (ix2 p q) = x (ix2 0 q) := by
  refine broadcastTo_apply x _ (ix2 p q) (ix2 0 q) fun a => ?_
  match a with
  | ⟨0, _⟩ => rfl
  | ⟨1, _⟩ => rfl

/-- The clipped normalised block at row p, column q: the entry minus the column's mean, times the inverse root of
    the column's variance plus ε, times the column's scale, plus its shift, clipped at zero (the narrowing is the
    identity on the extended reals). -/
theorem pay1_apply (x0 : Vec Ideal S2000x128 .f32) (xv xm xg xb : Vec Ideal S1x128 .f32) (p : Fin 2000) (q : Fin 128) :
    k1_pay1 (F := Ideal) x0 xv xm xg xb (ix2 p q)
      = max ((x0 (ix2 p q) - xm (ix2 0 q)) * Ideal.rsqrt (xv (ix2 0 q) + eps) * xg (ix2 0 q) + xb (ix2 0 q)) 0 := by
  unfold k1_pay1
  simp only [shapeCast_self]
  rw [truncf_apply, maximumf_apply, addf_apply, mulf_apply, mulf_apply, subf_apply, bcastRow_apply, bcastRow_apply, bcastRow_apply, bcastRow_apply]
  show max (_ * Ideal.rsqrt (xv (ix2 0 q) + Ideal.ofBits .f32 0x3727C5AC#32) * _ + _) (Ideal.ofBits .f32 0x00000000#32) = _
  rw [Ideal.ofBits_zero_f32]
  rfl

/-! The product's operand indices: the left operand is read at (row, contraction), the right at (contraction, column). -/

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a square matrix into a zero accumulator, at row p and column q: the sum over the 128 contraction
    coordinates of the products. -/
theorem mm_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ l : Fin 128, a (ix2 p l) * b (ix2 l q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The first product's block at row p, column q. -/
theorem pay2_apply (x0 : Vec Ideal S2000x128 .f32) (xv xm xg xb : Vec Ideal S1x128 .f32) (x5 : Vec Ideal S128x128 .bf16) (p : Fin 2000) (q : Fin 128) :
    k1_pay2 (F := Ideal) x0 xv xm xg xb x5 (ix2 p q)
      = ∑ l : Fin 128, k1_pay1 (F := Ideal) x0 xv xm xg xb (ix2 p l) * x5 (ix2 l q) := by
  unfold k1_pay2
  simp only [shapeCast_self]
  exact mm_apply _ _ p q

/-- The second product's block at row p, column q. -/
theorem pay3_apply (x0 : Vec Ideal S2000x128 .f32) (xv xm xg xb : Vec Ideal S1x128 .f32) (x6 : Vec Ideal S128x128 .bf16) (p : Fin 2000) (q : Fin 128) :
    k1_pay3 (F := Ideal) x0 xv xm xg xb x6 (ix2 p q)
      = ∑ l : Fin 128, k1_pay1 (F := Ideal) x0 xv xm xg xb (ix2 p l) * x6 (ix2 l q) := by
  unfold k1_pay3
  simp only [shapeCast_self]
  exact mm_apply _ _ p q

theorem hz : (![0, 0] : Fin 2 → Nat) = fun _ => 0 := funext fun a => by fin_cases a <;> rfl

/-- The grid has 25 points. -/
theorem N_eq : cfg1.N = 25 := by decide +kernel

/-- The windows' block indices over the grid: the row-blocked windows (the input block and the two outputs) are at block
    (t, 0) at point t; the row vectors and the square matrices are whole, at block (0, 0). -/
theorem idx_facts : ∀ t : Fin cfg1.N,
    win1_0.index t (0 : Fin 2) = t.val ∧ win1_0.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The input block at point t is rows 2000·t … 2000·t + 1999 of the first product. -/
theorem iblk0_apply (c : Dev nD) (t : Fin cfg1.N) (x : S2000x128.Idx) (k : S50000x128.Idx)
    (hk0 : (k 0).val = 2000 * t.val + (x 0).val) (hk1 : (k 1).val = (x 1).val) :
    (iblk1 (F := Ideal) V c 0 t : Vec Ideal S2000x128 .f32) x = (V c main_v10_0 : S50000x128.Idx → EReal) k := by
  obtain ⟨e0, e1, -⟩ := idx_facts t
  unfold iblk1
  rw [View.read_apply]
  show V c main_v10_0 _ = V c main_v10_0 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The activation the region computes from its input arrays (never stored). -/
abbrev act (c : Dev nD) : M 50000 128 :=
  relu (bn (cur2 (V c main_v10_0)) (curRow (V c main_v13)) (curRow (V c main_v18)) (curRow (V c main_v4)) (curRow (V c main_v5)))

/-- The scale row is whole in its window: its block at any point is the array. -/
theorem iblk1_apply (c : Dev nD) (t : Fin cfg1.N) (x : S1x128.Idx) :
    (iblk1 (F := Ideal) V c 1 t : S1x128.Idx → EReal) x = (V c main_v4 : S1x128.Idx → EReal) x := by
  have e := idx_facts t
  have e0 : win1_1.index t (0 : Fin 2) = 0 := by tauto
  have e1 : win1_1.index t (1 : Fin 2) = 0 := by tauto
  unfold iblk1
  rw [View.read_apply]
  show V c main_v4 _ = V c main_v4 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- The shift row is whole in its window: its block at any point is the array. -/
theorem iblk2_apply (c : Dev nD) (t : Fin cfg1.N) (x : S1x128.Idx) :
    (iblk1 (F := Ideal) V c 2 t : S1x128.Idx → EReal) x = (V c main_v5 : S1x128.Idx → EReal) x := by
  have e := idx_facts t
  have e0 : win1_2.index t (0 : Fin 2) = 0 := by tauto
  have e1 : win1_2.index t (1 : Fin 2) = 0 := by tauto
  unfold iblk1
  rw [View.read_apply]
  show V c main_v5 _ = V c main_v5 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The mean row is whole in its window: its block at any point is the array. -/
theorem iblk3_apply (c : Dev nD) (t : Fin cfg1.N) (x : S1x128.Idx) :
    (iblk1 (F := Ideal) V c 3 t : S1x128.Idx → EReal) x = (V c main_v13 : S1x128.Idx → EReal) x := by
  have e := idx_facts t
  have e0 : win1_3.index t (0 : Fin 2) = 0 := by tauto
  have e1 : win1_3.index t (1 : Fin 2) = 0 := by tauto
  unfold iblk1
  rw [View.read_apply]
  show V c main_v13 _ = V c main_v13 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The variance row is whole in its window: its block at any point is the array. -/
theorem iblk4_apply (c : Dev nD) (t : Fin cfg1.N) (x : S1x128.Idx) :
    (iblk1 (F := Ideal) V c 4 t : S1x128.Idx → EReal) x = (V c main_v18 : S1x128.Idx → EReal) x := by
  have e := idx_facts t
  have e0 : win1_4.index t (0 : Fin 2) = 0 := by tauto
  have e1 : win1_4.index t (1 : Fin 2) = 0 := by tauto
  unfold iblk1
  rw [View.read_apply]
  show V c main_v18 _ = V c main_v18 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The first square matrix is whole in its window: its block at any point is the array. -/
theorem iblk5_apply (c : Dev nD) (t : Fin cfg1.N) (x : S128x128.Idx) :
    (iblk1 (F := Ideal) V c 5 t : S128x128.Idx → EReal) x = (V c main_v1 : S128x128.Idx → EReal) x := by
  have e := idx_facts t
  have e0 : win1_5.index t (0 : Fin 2) = 0 := by tauto
  have e1 : win1_5.index t (1 : Fin 2) = 0 := by tauto
  unfold iblk1
  rw [View.read_apply]
  show V c main_v1 _ = V c main_v1 _
  congr 1
  funext a
  apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- The second square matrix is whole in its window: its block at any point is the array. -/
theorem iblk6_apply (c : Dev nD) (t : Fin cfg1.N) (x : S128x128.Idx) :
    (iblk1 (F := Ideal) V c 6 t : S128x128.Idx → EReal) x = (V c main_v2 : S128x128.Idx → EReal) x := by
  have e := idx_facts t
  have e0 : win1_6.index t (0 : Fin 2) = 0 := by tauto
  have e1 : win1_6.index t (1 : Fin 2) = 0 := by tauto
  unfold iblk1
  rw [View.read_apply]
  show V c main_v2 _ = V c main_v2 _
  congr 1
  funext a
  apply Fin.ext
  match a with
  | ⟨0, _⟩ => show win1_6.index t (0 : Fin 2) * 128 + 1 * (x 0).val = (x 0).val; rw [e0]; omega
  | ⟨1, _⟩ => show win1_6.index t (1 : Fin 2) * 128 + 1 * (x 1).val = (x 1).val; rw [e1]; omega

/-- What the body leaves in the first output's buffer, at row p and column q, from the windows' blocks. -/
theorem out7_apply (x0 : Vec Ideal S2000x128 .f32) (x1 x2 x3 x4 : Vec Ideal S1x128 .f32) (x5 x6 : Vec Ideal S128x128 .bf16)
    (p : Fin 2000) (q : Fin 128) :
    out1_7 (F := Ideal) x0 x1 x2 x3 x4 x5 x6 (ix2 p q)
      = ∑ l : Fin 128, max ((x0 (ix2 p l) - x3 (ix2 0 l)) * Ideal.rsqrt (x4 (ix2 0 l) + eps) * x1 (ix2 0 l) + x2 (ix2 0 l)) 0 * x5 (ix2 l q) := by
  unfold out1_7
  rw [View.canon_unit_zero hz]
  simp only [View.ld_unit_zero (S := S2000x128) hz, View.ld_unit_zero (S := S1x128) hz, View.ld_unit_zero (S := S128x128) hz]
  rw [pay2_apply]
  refine Finset.sum_congr rfl fun l _ => ?_
  rw [pay1_apply]

/-- The first product over the whole arrays, entry by entry: the activation times the first square matrix. -/
def outN (c : Dev nD) : S50000x128.Idx → EReal :=
  fun k => mm (act V c) (cur2 (V c main_v1)) ⟨(k 0).val, idx2_lt0 k⟩ ⟨(k 1).val, idx2_lt1 k⟩

/-- Read at an index whose coordinates are i and q: the sum over the 128 columns of the activation's row i times the matrix's column q. -/
theorem outN_apply (c : Dev nD) (k : S50000x128.Idx) (i : Fin 50000) (q : Fin 128) (h0 : (k 0).val = i.val) (h1 : (k 1).val = q.val) :
    outN V c k = ∑ l : Fin 128, act V c i l * (V c main_v1 : S128x128.Idx → EReal) (ix2 l q) := by
  obtain rfl : (⟨(k 0).val, idx2_lt0 k⟩ : Fin 50000) = i := Fin.ext h0
  obtain rfl : (⟨(k 1).val, idx2_lt1 k⟩ : Fin 128) = q := Fin.ext h1
  rfl

/-- What point t writes back to the first output is block t of the whole product: block row p is array row 2000·t + p, and
    the row vectors and the matrix are read whole. -/
theorem flushed7_eq (c : Dev nD) (t : Fin cfg1.N) :
    (dat1 (F := Ideal) V c).flushed 7 t = ((cfg1.win 7).blk t).view.read (Elt Ideal) (outN V c) := by
  show (cfg1.win 7).cut (grid1.coords t) ((dat1 V c).after 7 t) = _
  rw [after1_7]
  refine funext fun (j : S2000x128.Idx) => ?_
  obtain ⟨p, q, rfl⟩ : ∃ (p : Fin 2000) (q : Fin 128), j = ix2 p q := ⟨j 0, j 1, eq_ix2 j⟩
  have ht : t.val < 25 := lt_of_lt_of_eq t.isLt N_eq
  have e := idx_facts t
  have e2 : win1_7.index t (0 : Fin 2) = t.val := by tauto
  have e3 : win1_7.index t (1 : Fin 2) = 0 := by tauto
  refine (out7_apply _ _ _ _ _ _ _ p q).trans ?_
  rw [View.read_apply]
  refine Eq.trans ?_ (outN_apply V c (((cfg1.win 7).blk t).view.emb (ix2 p q)) ⟨2000 * t.val + p.val, by omega⟩ q ?_ ?_).symm
  · refine Finset.sum_congr rfl fun l _ => ?_
    rw [iblk0_apply V c t (ix2 p l) (ix2 ⟨2000 * t.val + p.val, by omega⟩ l) rfl rfl, iblk1_apply, iblk2_apply, iblk3_apply, iblk4_apply, iblk5_apply]
    rfl
  · show win1_7.index t (0 : Fin 2) * 2000 + 1 * p.val = 2000 * t.val + p.val
    rw [e2]; omega
  · show win1_7.index t (1 : Fin 2) * 128 + 1 * q.val = q.val
    rw [e3]; omega

/-- An index of the first output array is in point t's block iff each coordinate is in the block's range on its axis. -/
theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v19_0).slice (win1_7.rect t)).set ↔ _
  rw [View.set_slice_whole, Rect.mem_set_unit]
  exact Iff.rfl

/-- Every row r of the first output is in the block of point r / 2000, which is written back. -/
theorem cover7 (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  obtain ⟨t, et⟩ : ∃ t : Fin cfg1.N, t.val = (i 0).val / 2000 := ⟨⟨(i 0).val / 2000, by rw [N_eq]; omega⟩, rfl⟩
  have e := idx_facts t
  have e2 : win1_7.index t (0 : Fin 2) = t.val := by tauto
  have e3 : win1_7.index t (1 : Fin 2) = 0 := by tauto
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; rw [e2, et]; omega
  | ⟨1, _⟩ => show win1_7.index t (1 : Fin 2) * 128 ≤ (i 1).val ∧ (i 1).val < win1_7.index t (1 : Fin 2) * 128 + 128; rw [e3]; omega

/-- So the first output array ends holding the whole product: its 25 blocks tile it. -/
theorem final7 (c : Dev nD) : (dat1 (F := Ideal) V c).arrAt 7 cfg1.N = outN V c :=
  (dat1 (F := Ideal) V c).arrAt_eq_of_cover 7 (outN V c) (fun t _ => flushed7_eq V c t) cover7

/-- What the body leaves in the second output's buffer, at row p and column q, from the windows' blocks. -/
theorem out8_apply (x0 : Vec Ideal S2000x128 .f32) (x1 x2 x3 x4 : Vec Ideal S1x128 .f32) (x5 x6 : Vec Ideal S128x128 .bf16)
    (p : Fin 2000) (q : Fin 128) :
    out1_8 (F := Ideal) x0 x1 x2 x3 x4 x5 x6 (ix2 p q)
      = ∑ l : Fin 128, max ((x0 (ix2 p l) - x3 (ix2 0 l)) * Ideal.rsqrt (x4 (ix2 0 l) + eps) * x1 (ix2 0 l) + x2 (ix2 0 l)) 0 * x6 (ix2 l q) := by
  unfold out1_8
  rw [View.canon_unit_zero hz]
  simp only [View.ld_unit_zero (S := S2000x128) hz, View.ld_unit_zero (S := S1x128) hz, View.ld_unit_zero (S := S128x128) hz]
  rw [pay3_apply]
  refine Finset.sum_congr rfl fun l _ => ?_
  rw [pay1_apply]

/-- The second product over the whole arrays, entry by entry: the activation times the second square matrix. -/
def outR (c : Dev nD) : S50000x128.Idx → EReal :=
  fun k => mm (act V c) (cur2 (V c main_v2)) ⟨(k 0).val, idx2_lt0 k⟩ ⟨(k 1).val, idx2_lt1 k⟩

/-- Read at an index whose coordinates are i and q: the sum over the 128 columns of the activation's row i times the matrix's column q. -/
theorem outR_apply (c : Dev nD) (k : S50000x128.Idx) (i : Fin 50000) (q : Fin 128) (h0 : (k 0).val = i.val) (h1 : (k 1).val = q.val) :
    outR V c k = ∑ l : Fin 128, act V c i l * (V c main_v2 : S128x128.Idx → EReal) (ix2 l q) := by
  obtain rfl : (⟨(k 0).val, idx2_lt0 k⟩ : Fin 50000) = i := Fin.ext h0
  obtain rfl : (⟨(k 1).val, idx2_lt1 k⟩ : Fin 128) = q := Fin.ext h1
  rfl

/-- What point t writes back to the second output is block t of the whole product: block row p is array row 2000·t + p, and
    the row vectors and the matrix are read whole. -/
theorem flushed8_eq (c : Dev nD) (t : Fin cfg1.N) :
    (dat1 (F := Ideal) V c).flushed 8 t = ((cfg1.win 8).blk t).view.read (Elt Ideal) (outR V c) := by
  show (cfg1.win 8).cut (grid1.coords t) ((dat1 V c).after 8 t) = _
  rw [after1_8]
  refine funext fun (j : S2000x128.Idx) => ?_
  obtain ⟨p, q, rfl⟩ : ∃ (p : Fin 2000) (q : Fin 128), j = ix2 p q := ⟨j 0, j 1, eq_ix2 j⟩
  have ht : t.val < 25 := lt_of_lt_of_eq t.isLt N_eq
  have e := idx_facts t
  have e2 : win1_8.index t (0 : Fin 2) = t.val := by tauto
  have e3 : win1_8.index t (1 : Fin 2) = 0 := by tauto
  refine (out8_apply _ _ _ _ _ _ _ p q).trans ?_
  rw [View.read_apply]
  refine Eq.trans ?_ (outR_apply V c (((cfg1.win 8).blk t).view.emb (ix2 p q)) ⟨2000 * t.val + p.val, by omega⟩ q ?_ ?_).symm
  · refine Finset.sum_congr rfl fun l _ => ?_
    rw [iblk0_apply V c t (ix2 p l) (ix2 ⟨2000 * t.val + p.val, by omega⟩ l) rfl rfl, iblk1_apply, iblk2_apply, iblk3_apply, iblk4_apply, iblk6_apply]
    rfl
  · show win1_8.index t (0 : Fin 2) * 2000 + 1 * p.val = 2000 * t.val + p.val
    rw [e2]; omega
  · show win1_8.index t (1 : Fin 2) * 128 + 1 * q.val = q.val
    rw [e3]; omega

/-- An index of the second output array is in point t's block iff each coordinate is in the block's range on its axis. -/
theorem mem_blk8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v19_1).slice (win1_8.rect t)).set ↔ _
  rw [View.set_slice_whole, Rect.mem_set_unit]
  exact Iff.rfl

/-- Every row r of the second output is in the block of point r / 2000, which is written back. -/
theorem cover8 (i : S50000x128.Idx) :
    ∃ t : Fin cfg1.N, (cfg1.win 8).flush t = true ∧ i ∈ ((cfg1.win 8).blk t).view.set := by
  have hi0 : (i 0).val < 50000 := idx2_lt0 i
  have hi1 : (i 1).val < 128 := idx2_lt1 i
  obtain ⟨t, et⟩ : ∃ t : Fin cfg1.N, t.val = (i 0).val / 2000 := ⟨⟨(i 0).val / 2000, by rw [N_eq]; omega⟩, rfl⟩
  have e := idx_facts t
  have e2 : win1_8.index t (0 : Fin 2) = t.val := by tauto
  have e3 : win1_8.index t (1 : Fin 2) = 0 := by tauto
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; rw [e2, et]; omega
  | ⟨1, _⟩ => show win1_8.index t (1 : Fin 2) * 128 ≤ (i 1).val ∧ (i 1).val < win1_8.index t (1 : Fin 2) * 128 + 128; rw [e3]; omega

/-- So the second output array ends holding the whole product: its 25 blocks tile it. -/
theorem final8 (c : Dev nD) : (dat1 (F := Ideal) V c).arrAt 8 cfg1.N = outR V c :=
  (dat1 (F := Ideal) V c).arrAt_eq_of_cover 8 (outR V c) (fun t _ => flushed8_eq V c t) cover8

/-- The neighbour transform: the activation times the first square matrix. -/
theorem hn_apply (c : Dev nD) (i : Fin 50000) (j : Fin 128) :
    (dat1 (F := Ideal) V c).arrAt 7 cfg1.N (ix2 i j) = mm (act V c) (cur2 (V c main_v1)) i j :=
  congrFun (final7 V c) (ix2 i j)

/-- The root transform: the activation times the second square matrix. -/
theorem hroot_apply (c : Dev nD) (i : Fin 50000) (j : Fin 128) :
    (dat1 (F := Ideal) V c).arrAt 8 cfg1.N (ix2 i j) = mm (act V c) (cur2 (V c main_v2)) i j :=
  congrFun (final8 V c) (ix2 i j)

end Cert.KernelIdeal.Region1
end
-- ==== Proof.KChainA.lean ====
/-
  The contents of the two 50000 × 128 outputs of the second pallas_call at the boundary after it: the neighbour and root
  transforms of the first activation, as matrices over the launch memory.
-/
import proofs.«421418_j84782654423196_3_alg».proof.Proof.Gen.KernelIdeal.Frame
import proofs.«421418_j84782654423196_3_alg».proof.Proof.Spec
import proofs.«421418_j84782654423196_3_alg».proof.Proof.Edge
import proofs.«421418_j84782654423196_3_alg».proof.Proof.KVals
import proofs.«421418_j84782654423196_3_alg».proof.Proof.KStats
import proofs.«421418_j84782654423196_3_alg».proof.Proof.Region0
import proofs.«421418_j84782654423196_3_alg».proof.Proof.Region1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KernelIdeal.KVals

variable (m : (ℓ : Loc nD τ sig) → Buf (Elt Ideal) ℓ) (ρ : Dev nD → PrngReg) (c : Dev nD)

/-! # The walk from the launch to the boundary after the second region, buffer by buffer -/

namespace A

/-- A host stretch leaves a buffer it does not write. -/
local macro "host_skip" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first host stretch -/

theorem w1_arg0 : W1 (F := Ideal) m ρ c (Proc.devRef .tc main_arg0) = m ((c.tc : Thread nD τ).loc main_arg0) := by
  refine Eq.trans (b := W0 (F := Ideal) m ρ c (Proc.devRef .tc main_arg0)) ?_ rfl
  host_skip hostOps0

theorem w1_v0 : W1 (F := Ideal) m ρ c (Proc.devRef .tc main_v0)
    = (truncf .bf16 (m ((c.tc : Thread nD τ).loc main_arg2) : FVec Ideal S512x128 .f32) bitsLt_bf16_f32 : FVec Ideal S512x128 .bf16) := by
  show StableHlo.after hostOps0 (W0 (F := Ideal) m ρ c) (Proc.devRef .tc main_v0) = _
  simp only [hostOps0]; after_results

theorem w1_v1 : W1 (F := Ideal) m ρ c (Proc.devRef .tc main_v1)
    = (truncf .bf16 (m ((c.tc : Thread nD τ).loc main_arg6) : FVec Ideal S128x128 .f32) bitsLt_bf16_f32 : FVec Ideal S128x128 .bf16) := by
  show StableHlo.after hostOps0 (W0 (F := Ideal) m ρ c) (Proc.devRef .tc main_v1) = _
  simp only [hostOps0]; after_results

theorem w1_v2 : W1 (F := Ideal) m ρ c (Proc.devRef .tc main_v2)
    = (truncf .bf16 (m ((c.tc : Thread nD τ).loc main_arg5) : FVec Ideal S128x128 .f32) bitsLt_bf16_f32 : FVec Ideal S128x128 .bf16) := by
  show StableHlo.after hostOps0 (W0 (F := Ideal) m ρ c) (Proc.devRef .tc main_v2) = _
  simp only [hostOps0]; after_results

theorem w1_v4 : W1 (F := Ideal) m ρ c (Proc.devRef .tc main_v4)
    = (shapeCast S1x128 (m ((c.tc : Thread nD τ).loc main_arg3) : FVec Ideal S128 .f32) shapeCasts_S128_S1x128 : FVec Ideal S1x128 .f32) := by
  show StableHlo.after hostOps0 (W0 (F := Ideal) m ρ c) (Proc.devRef .tc main_v4) = _
  simp only [hostOps0]; after_results
  rfl

theorem w1_v5 : W1 (F := Ideal) m ρ c (Proc.devRef .tc main_v5)
    = (shapeCast S1x128 (m ((c.tc : Thread nD τ).loc main_arg4) : FVec Ideal S128 .f32) shapeCasts_S128_S1x128 : FVec Ideal S1x128 .f32) := by
  show StableHlo.after hostOps0 (W0 (F := Ideal) m ρ c) (Proc.devRef .tc main_v5) = _
  simp only [hostOps0]; after_results
  rfl

/-- The features at the first region's entry. -/
theorem v1_x : cur2 (V1 (F := Ideal) m ρ c main_arg0) = x m c := by
  funext i j; exact congrFun (w1_arg0 m ρ c) (ix2 i j)

/-- The first weight matrix at the first region's entry. -/
theorem v1_w1 : cur2 (V1 (F := Ideal) m ρ c main_v0) = w1 m c := by
  funext i j; exact congrFun (w1_v0 m ρ c) (ix2 i j)

/-! ## The first region -/

theorem w2_y (i : Fin 50000) (j : Fin 128) :
    W2 (F := Ideal) m ρ c (Proc.devRef .tc main_v10_0) (ix2 i j) = y1 m c i j := by
  refine (congrFun (W2_arr (F := Ideal) m ρ c 2) (ix2 i j)).trans ((Region0.y_apply (V1 m ρ) c i j).trans ?_)
  rw [v1_x, v1_w1]; rfl

theorem w2_psum (t : Fin 25) (j : Fin 128) :
    W2 (F := Ideal) m ρ c (Proc.devRef .tc main_v10_1) (ix3 t 0 j) = tileSum (y1 m c) t j := by
  refine (congrFun (W2_arr (F := Ideal) m ρ c 3) (ix3 t 0 j)).trans ((Region0.psum_apply (V1 m ρ) c t j).trans ?_)
  rw [v1_x, v1_w1]; rfl

theorem w2_psumsq (t : Fin 25) (j : Fin 128) :
    W2 (F := Ideal) m ρ c (Proc.devRef .tc main_v10_2) (ix3 t 0 j) = tileSum (sq (y1 m c)) t j := by
  refine (congrFun (W2_arr (F := Ideal) m ρ c 4) (ix3 t 0 j)).trans ((Region0.psumsq_apply (V1 m ρ) c t j).trans ?_)
  rw [v1_x, v1_w1]; rfl

/-! ## The second host stretch -/

theorem w3_mean_eq : W3 (F := Ideal) m ρ c (Proc.devRef .tc main_v13)
    = KStats.hostMean reducesTo_S25x1x128_S1x128_d0 h_S_ bcast_S_S1x128
        (W2 (F := Ideal) m ρ c (Proc.devRef .tc main_v10_1) : FVec Ideal S25x1x128 .f32) := by
  show StableHlo.after hostOps1 (W2 (F := Ideal) m ρ c) (Proc.devRef .tc main_v13) = _
  generalize W2 (F := Ideal) m ρ c = V
  simp only [hostOps1]; after_results
  rfl

theorem w3_var_eq : W3 (F := Ideal) m ρ c (Proc.devRef .tc main_v18)
    = KStats.hostVar reducesTo_S25x1x128_S1x128_d0 h_S_ bcast_S_S1x128
        (W2 (F := Ideal) m ρ c (Proc.devRef .tc main_v10_1) : FVec Ideal S25x1x128 .f32)
        (W2 (F := Ideal) m ρ c (Proc.devRef .tc main_v10_2) : FVec Ideal S25x1x128 .f32) := by
  show StableHlo.after hostOps1 (W2 (F := Ideal) m ρ c) (Proc.devRef .tc main_v18) = _
  generalize W2 (F := Ideal) m ρ c = V
  simp only [hostOps1]; after_results
  rfl

/-- The first product, unchanged by the second host stretch. -/
theorem v3_y : cur2 (V3 (F := Ideal) m ρ c main_v10_0) = y1 m c := by
  funext i j
  refine Eq.trans (congrFun (?_ : W3 (F := Ideal) m ρ c (Proc.devRef .tc main_v10_0)
    = W2 (F := Ideal) m ρ c (Proc.devRef .tc main_v10_0)) (ix2 i j)) (w2_y m ρ c i j)
  host_skip hostOps1

/-- The mean row the second region is given: the tiled mean of the first product. -/
theorem v3_mean : curRow (V3 (F := Ideal) m ρ c main_v13) = meanK (y1 m c) := by
  funext j
  refine (congrFun (w3_mean_eq m ρ c) (ix2 0 j)).trans ?_
  exact KStats.hostMean_apply _ _ _ _ (y1 m c) (w2_psum m ρ c) j

/-- The variance row the second region is given: the tiled variance of the first product. -/
theorem v3_var : curRow (V3 (F := Ideal) m ρ c main_v18) = varK (y1 m c) := by
  funext j
  refine (congrFun (w3_var_eq m ρ c) (ix2 0 j)).trans ?_
  exact KStats.hostVar_apply _ _ _ _ _ (y1 m c) (w2_psum m ρ c) (w2_psumsq m ρ c) j

/-- A buffer the first host stretch fills and neither the first region nor the second host stretch touches. -/
theorem w3_v4 : W3 (F := Ideal) m ρ c (Proc.devRef .tc main_v4) = W1 (F := Ideal) m ρ c (Proc.devRef .tc main_v4) := by
  refine Eq.trans (b := W2 (F := Ideal) m ρ c (Proc.devRef .tc main_v4)) ?_ (W2_of_ne m ρ c main_v4 (by decide))
  host_skip hostOps1
theorem w3_v5 : W3 (F := Ideal) m ρ c (Proc.devRef .tc main_v5) = W1 (F := Ideal) m ρ c (Proc.devRef .tc main_v5) := by
  refine Eq.trans (b := W2 (F := Ideal) m ρ c (Proc.devRef .tc main_v5)) ?_ (W2_of_ne m ρ c main_v5 (by decide))
  host_skip hostOps1
theorem w3_v1 : W3 (F := Ideal) m ρ c (Proc.devRef .tc main_v1) = W1 (F := Ideal) m ρ c (Proc.devRef .tc main_v1) := by
  refine Eq.trans (b := W2 (F := Ideal) m ρ c (Proc.devRef .tc main_v1)) ?_ (W2_of_ne m ρ c main_v1 (by decide))
  host_skip hostOps1
theorem w3_v2 : W3 (F := Ideal) m ρ c (Proc.devRef .tc main_v2) = W1 (F := Ideal) m ρ c (Proc.devRef .tc main_v2) := by
  refine Eq.trans (b := W2 (F := Ideal) m ρ c (Proc.devRef .tc main_v2)) ?_ (W2_of_ne m ρ c main_v2 (by decide))
  host_skip hostOps1

/-- The scale row: the [1, 128] cast of the scale vector reads it entry by entry. -/
theorem v3_g : curRow (V3 (F := Ideal) m ρ c main_v4) = g1 m c := by
  funext j
  refine (congrFun ((w3_v4 m ρ c).trans (w1_v4 m ρ c)) (ix2 0 j)).trans ?_
  exact shapeCast_a_1a_apply _ _ 0 j

/-- The shift row likewise. -/
theorem v3_b : curRow (V3 (F := Ideal) m ρ c main_v5) = b1 m c := by
  funext j
  refine (congrFun ((w3_v5 m ρ c).trans (w1_v5 m ρ c)) (ix2 0 j)).trans ?_
  exact shapeCast_a_1a_apply _ _ 0 j

/-- The neighbour weights the second region is given. -/
theorem v3_wn : cur2 (V3 (F := Ideal) m ρ c main_v1) = wn m c := by
  funext i j; exact congrFun ((w3_v1 m ρ c).trans (w1_v1 m ρ c)) (ix2 i j)

/-- The root weights the second region is given. -/
theorem v3_ws : cur2 (V3 (F := Ideal) m ρ c main_v2) = ws m c := by
  funext i j; exact congrFun ((w3_v2 m ρ c).trans (w1_v2 m ρ c)) (ix2 i j)

/-- The activation the second region computes is the first activation. -/
theorem act_eq : Region1.act (V3 (F := Ideal) m ρ) c = h1 m c := by
  show relu (bn (cur2 (V3 (F := Ideal) m ρ c main_v10_0)) (curRow (V3 (F := Ideal) m ρ c main_v13))
    (curRow (V3 (F := Ideal) m ρ c main_v18)) (curRow (V3 (F := Ideal) m ρ c main_v4))
    (curRow (V3 (F := Ideal) m ρ c main_v5))) = _
  rw [v3_y, v3_mean, v3_var, v3_g, v3_b]; rfl

end A

/-- After the second region the neighbour-transform array holds `hn`. -/
theorem w4_hn (i : Fin 50000) (j : Fin 128) :
    W4 (F := Ideal) m ρ c (Proc.devRef .tc main_v19_0) (ix2 i j) = hn m c i j := by
  refine (congrFun (W4_arr (F := Ideal) m ρ c 7) (ix2 i j)).trans ((Region1.hn_apply (V3 m ρ) c i j).trans ?_)
  rw [A.act_eq, A.v3_wn]; rfl

/-- After the second region the root-transform array holds `hr`. -/
theorem w4_hr (i : Fin 50000) (j : Fin 128) :
    W4 (F := Ideal) m ρ c (Proc.devRef .tc main_v19_1) (ix2 i j) = hr m c i j := by
  refine (congrFun (W4_arr (F := Ideal) m ρ c 8) (ix2 i j)).trans ((Region1.hroot_apply (V3 m ρ) c i j).trans ?_)
  rw [A.act_eq, A.v3_ws]; rfl

end Cert.KernelIdeal.Chain
end
-- ==== Proof.Region2.lean ====
/-
  The third pallas_call over the whole arrays: point t adds rows 2000·t … 2000·t + 1999 of its two input matrices and writes
  into row t of two 25 × 1 × 128 arrays the column sums of that tile of the sum and of its squares.
-/
import proofs.«421418_j84782654423196_3_alg».proof.Proof.Gen.KernelIdeal.Frame
import proofs.«421418_j84782654423196_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The offset of a whole-block access, rank 2. -/
theorem hz : (![0, 0] : Fin 2 → Nat) = fun _ => 0 := funext fun a => by
  match a with | ⟨0, _⟩ => rfl | ⟨1, _⟩ => rfl
/-- The offset of a whole-block access, rank 3. -/
theorem hz3 : (![0, 0, 0] : Fin 3 → Nat) = fun _ => 0 := funext fun a => by
  match a with | ⟨0, _⟩ => rfl | ⟨1, _⟩ => rfl | ⟨2, _⟩ => rfl

/-- A vector of 128 recast as 1 × 128 and then 1 × 1 × 128 reads its coordinate. -/
theorem cast3_apply (v : FVec Ideal S128 .f32) (a : Fin 1) (b : Fin 1) (q : Fin 128) :
    shapeCast S1x1x128 (shapeCast S1x128 v shapeCasts_S128_S1x128) shapeCasts_S1x128_S1x1x128 (ix3 a b q) = v (ix1 q) := by
  refine (shapeCast_addUnit_apply ![1, 128] _ _ _).trans ?_
  refine (shapeCast_addUnit_apply ![128] _ _ _).trans ?_
  refine congrArg v (funext fun d => ?_)
  match d with | ⟨0, _⟩ => rfl

/-- The sum over the 2000 rows of a 2000 × 128 block, at column q. -/
theorem colsum_apply (x : FVec Ideal S2000x128 .f32) (q : Fin 128) :
    multiReduction (F := Ideal) .add [0] S128 x 0x00000000#32 reduces_S2000x128_S128 (.inl rfl) rfl (ix1 q) = ∑ k : Fin 2000, x (ix2 k q) := by
  refine (Ideal.multiReduction_add_single x _ reduces_S2000x128_S128 _ _ (ix1 q)).trans ?_
  refine Finset.sum_congr rfl fun k _ => congrArg x (funext fun d => Fin.ext ?_)
  match d with | ⟨0, _⟩ => rfl | ⟨1, _⟩ => rfl

/-- The first result at column q: the column sum of the sum of the two blocks. -/
theorem pay2_apply (x0 x1 : Vec Ideal S2000x128 .f32) (a b : Fin 1) (q : Fin 128) :
    k2_pay2 (F := Ideal) x0 x1 (ix3 a b q) = ∑ k : Fin 2000, (x0 (ix2 k q) + x1 (ix2 k q)) := by
  unfold k2_pay2
  refine (cast3_apply _ a b q).trans ?_
  refine (colsum_apply _ q).trans ?_
  unfold k2_pay1
  simp only [shapeCast_self]
  rfl

/-- The second result at column q: the column sum of the square of the sum of the two blocks. -/
theorem pay3_apply (x0 x1 : Vec Ideal S2000x128 .f32) (a b : Fin 1) (q : Fin 128) :
    k2_pay3 (F := Ideal) x0 x1 (ix3 a b q) = ∑ k : Fin 2000, ((x0 (ix2 k q) + x1 (ix2 k q)) * (x0 (ix2 k q) + x1 (ix2 k q))) := by
  unfold k2_pay3
  refine (cast3_apply _ a b q).trans ?_
  refine (colsum_apply _ q).trans ?_
  unfold k2_pay1
  simp only [shapeCast_self]
  rfl

/-- The same at any index of the 1 × 1 × 128 block. -/
theorem pay2_at (x0 x1 : Vec Ideal S2000x128 .f32) (j : S1x1x128.Idx) :
    k2_pay2 (F := Ideal) x0 x1 j = ∑ k : Fin 2000, (x0 (ix2 k ⟨(j 2).val, (j 2).isLt⟩) + x1 (ix2 k ⟨(j 2).val, (j 2).isLt⟩)) := by
  obtain ⟨a, b, q, rfl⟩ : ∃ (a : Fin 1) (b : Fin 1) (q : Fin 128), j = ix3 a b q := ⟨j 0, j 1, j 2, eq_ix3 j⟩
  exact pay2_apply x0 x1 a b q
theorem pay3_at (x0 x1 : Vec Ideal S2000x128 .f32) (j : S1x1x128.Idx) :
    k2_pay3 (F := Ideal) x0 x1 j = ∑ k : Fin 2000, ((x0 (ix2 k ⟨(j 2).val, (j 2).isLt⟩) + x1 (ix2 k ⟨(j 2).val, (j 2).isLt⟩)) * (x0 (ix2 k ⟨(j 2).val, (j 2).isLt⟩) + x1 (ix2 k ⟨(j 2).val, (j 2).isLt⟩))) := by
  obtain ⟨a, b, q, rfl⟩ : ∃ (a : Fin 1) (b : Fin 1) (q : Fin 128), j = ix3 a b q := ⟨j 0, j 1, j 2, eq_ix3 j⟩
  exact pay3_apply x0 x1 a b q

/-- A rank-2 array of extended reals read at an index. -/
abbrev rd {n p : Nat} (a : (⟨2, ![n, p]⟩ : Shape).Idx → EReal) (i : (⟨2, ![n, p]⟩ : Shape).Idx) : EReal := a i

/-- The array of tile sums as one function of the two entry matrices: row t, column j holds the sum over tile t of
    column j of their sum. -/
def Gs (c : Dev nD) : S25x1x128.Idx → EReal := fun i =>
  tileSum (add (cur2 (V c main_v19_1)) (cur2 (V c main_v27))) ⟨(i 0).val, (i 0).isLt⟩ ⟨(i 2).val, (i 2).isLt⟩
/-- The array of tile sums of squares likewise. -/
def Gq (c : Dev nD) : S25x1x128.Idx → EReal := fun i =>
  tileSum (sq (add (cur2 (V c main_v19_1)) (cur2 (V c main_v27)))) ⟨(i 0).val, (i 0).isLt⟩ ⟨(i 2).val, (i 2).isLt⟩

/-- The block index maps over the grid: the two matrices' blocks are at (t, 0), the two results' at (t, 0, 0). -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 3) = t.val ∧ win2_2.index t (1 : Fin 3) = 0 ∧ win2_2.index t (2 : Fin 3) = 0
  ∧ win2_3.index t (0 : Fin 3) = t.val ∧ win2_3.index t (1 : Fin 3) = 0 ∧ win2_3.index t (2 : Fin 3) = 0 :=
  (by decide +kernel : ∀ t : Fin grid2.N, _)

set_option maxHeartbeats 400000 in
/-- What point t writes back into the array of sums is block t of Gs. -/
theorem flushed2_eq (c : Dev nD) (t : Fin cfg2.N) :
    (dat2 (F := Ideal) V c).flushed 2 t = ((cfg2.win 2).blk t).view.read (Elt Ideal) (Gs V c) := by
  show (cfg2.win 2).cut (grid2.coords t) ((dat2 V c).after 2 t) = _
  rw [after2_2]
  unfold out2_2
  rw [View.canon_unit_zero hz3]
  simp only [View.ld_unit_zero (S := S2000x128) hz]
  obtain ⟨a0, a1, b0, b1, p0, p1, p2, q0, q1, q2⟩ := idx_facts t
  funext j
  show k2_pay2 (iblk2 V c 0 t) (iblk2 V c 1 t) j = Gs V c (((cfg2.win 2).blk t).view.emb j)
  rw [pay2_at]
  have hj0 : (j 0).val < 1 := (j 0).isLt
  have hj2 : (j 2).val < 128 := (j 2).isLt
  have hN : cfg2.N = 25 := N_2
  have ht : t.val < 25 := hN ▸ t.isLt
  have he0 : ((((cfg2.win 2).blk t).view.emb j) 0).val < 25 := by
    show win2_2.index t (0 : Fin 3) * 1 + 1 * (j 0).val < 25; omega
  have he2 : ((((cfg2.win 2).blk t).view.emb j) 2).val < 128 := by
    show win2_2.index t (2 : Fin 3) * 128 + 1 * (j 2).val < 128; omega
  unfold Gs Spec.tileSum
  refine Finset.sum_congr rfl fun k _ => ?_
  have h0 : iblk2 V c 0 t (ix2 k ⟨(j 2).val, hj2⟩) = rd (V c main_v19_1) (ix2 (row ⟨((((cfg2.win 2).blk t).view.emb j) 0).val, he0⟩ k) ⟨((((cfg2.win 2).blk t).view.emb j) 2).val, he2⟩) := by
    show rd (V c main_v19_1) (((cfg2.win 0).blk t).view.emb (ix2 k ⟨(j 2).val, hj2⟩)) = _
    refine congrArg (rd (V c main_v19_1)) (funext fun a => Fin.ext ?_)
    match a with
    | ⟨0, _⟩ => show win2_0.index t (0 : Fin 2) * 2000 + 1 * k.val = 2000 * (win2_2.index t (0 : Fin 3) * 1 + 1 * (j 0).val) + k.val; omega
    | ⟨1, _⟩ => show win2_0.index t (1 : Fin 2) * 128 + 1 * (j 2).val = win2_2.index t (2 : Fin 3) * 128 + 1 * (j 2).val; omega
  have h1 : iblk2 V c 1 t (ix2 k ⟨(j 2).val, hj2⟩) = rd (V c main_v27) (ix2 (row ⟨((((cfg2.win 2).blk t).view.emb j) 0).val, he0⟩ k) ⟨((((cfg2.win 2).blk t).view.emb j) 2).val, he2⟩) := by
    show rd (V c main_v27) (((cfg2.win 1).blk t).view.emb (ix2 k ⟨(j 2).val, hj2⟩)) = _
    refine congrArg (rd (V c main_v27)) (funext fun a => Fin.ext ?_)
    match a with
    | ⟨0, _⟩ => show win2_1.index t (0 : Fin 2) * 2000 + 1 * k.val = 2000 * (win2_2.index t (0 : Fin 3) * 1 + 1 * (j 0).val) + k.val; omega
    | ⟨1, _⟩ => show win2_1.index t (1 : Fin 2) * 128 + 1 * (j 2).val = win2_2.index t (2 : Fin 3) * 128 + 1 * (j 2).val; omega
  rw [h0, h1]
  rfl

/-- An index of the array of sums is in point t's block iff each coordinate is in the block's range on its axis. -/
theorem mem_blk2 (t : Fin cfg2.N) (i : S25x1x128.Idx) :
    i ∈ ((cfg2.win 2).blk t).view.set ↔ ∀ a : Fin 3, win2_2.index t a * S1x1x128.size a ≤ (i a).val ∧ (i a).val < win2_2.index t a * S1x1x128.size a + S1x1x128.size a := by
  show i ∈ ((View.whole main_v28_0).slice (win2_2.rect t)).set ↔ _
  rw [View.set_slice_whole, Rect.mem_set_unit]
  exact Iff.rfl

/-- Row r of the array of sums is the block of point r. -/
theorem cover2 (i : S25x1x128.Idx) : ∃ t : Fin cfg2.N, (cfg2.win 2).flush t = true ∧ i ∈ ((cfg2.win 2).blk t).view.set := by
  have hi0 : (i 0).val < 25 := (i 0).isLt
  have hi1 : (i 1).val < 1 := (i 1).isLt
  have hi2 : (i 2).val < 128 := (i 2).isLt
  have hN : cfg2.N = 25 := N_2
  obtain ⟨t, ht⟩ : ∃ t : Fin cfg2.N, t.val = (i 0).val := ⟨⟨(i 0).val, by rw [hN]; omega⟩, rfl⟩
  obtain ⟨a0, a1, b0, b1, p0, p1, p2, q0, q1, q2⟩ := idx_facts t
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1 ≤ (i 1).val ∧ (i 1).val < win2_2.index t (1 : Fin 3) * 1 + 1; omega
  | ⟨2, _⟩ => show win2_2.index t (2 : Fin 3) * 128 ≤ (i 2).val ∧ (i 2).val < win2_2.index t (2 : Fin 3) * 128 + 128; omega

/-- The array of sums after the run is Gs. -/
theorem final2 (c : Dev nD) : (dat2 (F := Ideal) V c).arrAt 2 cfg2.N = Gs V c :=
  (dat2 V c).arrAt_eq_of_cover 2 (Gs V c) (fun t _ => flushed2_eq V c t) cover2

set_option maxHeartbeats 400000 in
/-- What point t writes back into the array of sums of squares is block t of Gq. -/
theorem flushed3_eq (c : Dev nD) (t : Fin cfg2.N) :
    (dat2 (F := Ideal) V c).flushed 3 t = ((cfg2.win 3).blk t).view.read (Elt Ideal) (Gq V c) := by
  show (cfg2.win 3).cut (grid2.coords t) ((dat2 V c).after 3 t) = _
  rw [after2_3]
  unfold out2_3
  rw [View.canon_unit_zero hz3]
  simp only [View.ld_unit_zero (S := S2000x128) hz]
  obtain ⟨a0, a1, b0, b1, p0, p1, p2, q0, q1, q2⟩ := idx_facts t
  funext j
  show k2_pay3 (iblk2 V c 0 t) (iblk2 V c 1 t) j = Gq V c (((cfg2.win 3).blk t).view.emb j)
  rw [pay3_at]
  have hj0 : (j 0).val < 1 := (j 0).isLt
  have hj2 : (j 2).val < 128 := (j 2).isLt
  have hN : cfg2.N = 25 := N_2
  have ht : t.val < 25 := hN ▸ t.isLt
  have he0 : ((((cfg2.win 3).blk t).view.emb j) 0).val < 25 := by
    show win2_3.index t (0 : Fin 3) * 1 + 1 * (j 0).val < 25; omega
  have he2 : ((((cfg2.win 3).blk t).view.emb j) 2).val < 128 := by
    show win2_3.index t (2 : Fin 3) * 128 + 1 * (j 2).val < 128; omega
  unfold Gq Spec.tileSum
  refine Finset.sum_congr rfl fun k _ => ?_
  have h0 : iblk2 V c 0 t (ix2 k ⟨(j 2).val, hj2⟩) = rd (V c main_v19_1) (ix2 (row ⟨((((cfg2.win 3).blk t).view.emb j) 0).val, he0⟩ k) ⟨((((cfg2.win 3).blk t).view.emb j) 2).val, he2⟩) := by
    show rd (V c main_v19_1) (((cfg2.win 0).blk t).view.emb (ix2 k ⟨(j 2).val, hj2⟩)) = _
    refine congrArg (rd (V c main_v19_1)) (funext fun a => Fin.ext ?_)
    match a with
    | ⟨0, _⟩ => show win2_0.index t (0 : Fin 2) * 2000 + 1 * k.val = 2000 * (win2_3.index t (0 : Fin 3) * 1 + 1 * (j 0).val) + k.val; omega
    | ⟨1, _⟩ => show win2_0.index t (1 : Fin 2) * 128 + 1 * (j 2).val = win2_3.index t (2 : Fin 3) * 128 + 1 * (j 2).val; omega
  have h1 : iblk2 V c 1 t (ix2 k ⟨(j 2).val, hj2⟩) = rd (V c main_v27) (ix2 (row ⟨((((cfg2.win 3).blk t).view.emb j) 0).val, he0⟩ k) ⟨((((cfg2.win 3).blk t).view.emb j) 2).val, he2⟩) := by
    show rd (V c main_v27) (((cfg2.win 1).blk t).view.emb (ix2 k ⟨(j 2).val, hj2⟩)) = _
    refine congrArg (rd (V c main_v27)) (funext fun a => Fin.ext ?_)
    match a with
    | ⟨0, _⟩ => show win2_1.index t (0 : Fin 2) * 2000 + 1 * k.val = 2000 * (win2_3.index t (0 : Fin 3) * 1 + 1 * (j 0).val) + k.val; omega
    | ⟨1, _⟩ => show win2_1.index t (1 : Fin 2) * 128 + 1 * (j 2).val = win2_3.index t (2 : Fin 3) * 128 + 1 * (j 2).val; omega
  rw [h0, h1]
  rfl

/-- An index of the array of sums of squares is in point t's block iff each coordinate is in the block's range on its axis. -/
theorem mem_blk3 (t : Fin cfg2.N) (i : S25x1x128.Idx) :
    i ∈ ((cfg2.win 3).blk t).view.set ↔ ∀ a : Fin 3, win2_3.index t a * S1x1x128.size a ≤ (i a).val ∧ (i a).val < win2_3.index t a * S1x1x128.size a + S1x1x128.size a := by
  show i ∈ ((View.whole main_v28_1).slice (win2_3.rect t)).set ↔ _
  rw [View.set_slice_whole, Rect.mem_set_unit]
  exact Iff.rfl

/-- Row r of the array of sums of squares is the block of point r. -/
theorem cover3 (i : S25x1x128.Idx) : ∃ t : Fin cfg2.N, (cfg2.win 3).flush t = true ∧ i ∈ ((cfg2.win 3).blk t).view.set := by
  have hi0 : (i 0).val < 25 := (i 0).isLt
  have hi1 : (i 1).val < 1 := (i 1).isLt
  have hi2 : (i 2).val < 128 := (i 2).isLt
  have hN : cfg2.N = 25 := N_2
  obtain ⟨t, ht⟩ : ∃ t : Fin cfg2.N, t.val = (i 0).val := ⟨⟨(i 0).val, by rw [hN]; omega⟩, rfl⟩
  obtain ⟨a0, a1, b0, b1, p0, p1, p2, q0, q1, q2⟩ := idx_facts t
  refine ⟨t, flush2_3 t, ?_⟩
  rw [mem_blk3]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1 ≤ (i 1).val ∧ (i 1).val < win2_3.index t (1 : Fin 3) * 1 + 1; omega
  | ⟨2, _⟩ => show win2_3.index t (2 : Fin 3) * 128 ≤ (i 2).val ∧ (i 2).val < win2_3.index t (2 : Fin 3) * 128 + 128; omega

/-- The array of sums of squares after the run is Gq. -/
theorem final3 (c : Dev nD) : (dat2 (F := Ideal) V c).arrAt 3 cfg2.N = Gq V c :=
  (dat2 V c).arrAt_eq_of_cover 3 (Gq V c) (fun t _ => flushed3_eq V c t) cover3

/-- The tile sums of the sum of the two matrices. -/
theorem psum_apply (c : Dev nD) (t : Fin 25) (j : Fin 128) :
    (dat2 (F := Ideal) V c).arrAt 2 cfg2.N (ix3 t 0 j) = tileSum (add (cur2 (V c main_v19_1)) (cur2 (V c main_v27))) t j := by
  rw [final2]
  rfl

/-- The tile sums of its squares. -/
theorem psumsq_apply (c : Dev nD) (t : Fin 25) (j : Fin 128) :
    (dat2 (F := Ideal) V c).arrAt 3 cfg2.N (ix3 t 0 j) = tileSum (sq (add (cur2 (V c main_v19_1)) (cur2 (V c main_v27)))) t j := by
  rw [final3]
  rfl

end Cert.KernelIdeal.Region2
end
-- ==== Proof.KChainB.lean ====
/-
  The boundary after the third pallas_call: the root transform is still in place, the aggregated messages are in their
  array, and the two arrays of partial sums hold the tile sums of the second pre-activation and of its squares.
-/
import proofs.«421418_j84782654423196_3_alg».proof.Proof.Gen.KernelIdeal.Frame
import proofs.«421418_j84782654423196_3_alg».proof.Proof.Spec
import proofs.«421418_j84782654423196_3_alg».proof.Proof.Edge
import proofs.«421418_j84782654423196_3_alg».proof.Proof.KVals
import proofs.«421418_j84782654423196_3_alg».proof.Proof.KChainA
import proofs.«421418_j84782654423196_3_alg».proof.Proof.Region2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KernelIdeal.KVals

/-! ## Host stretches over an arbitrary entry valuation -/

section Host
variable (V : Valuation τ sig (Elt Ideal))

/-- A buffer that no operation of a host stretch writes keeps its contents: the membership walk. -/
local macro "host_untouched" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Reading a typed reference's contents back at the value's type undoes storing them there. -/
theorem ofBuf_toBuf {T : BufTy} (x : StableHlo.TRef sig T) (v : T.Contents (Elt Ideal)) : x.ofBuf (x.toBuf v) = v := by
  obtain ⟨r, h, a, b⟩ := x; subst h; rfl

/-- The first stretch slices row 0 of the edge list and flattens it: the source words. -/
theorem host2_v21 :
    (StableHlo.after (hostOps2 (F := Ideal)) V (Proc.devRef .tc main_v21) : IVec Cert.Edge.S800000 32)
      = Cert.Edge.src Cert.Edge.sh0 (V (Proc.devRef .tc main_arg1)) := by
  after_results
  rfl

/-- It slices row 1 and flattens it: the destination words. -/
theorem host2_v23 :
    (StableHlo.after (hostOps2 (F := Ideal)) V (Proc.devRef .tc main_v23) : IVec Cert.Edge.S800000 32)
      = Cert.Edge.dst Cert.Edge.sh0 (V (Proc.devRef .tc main_arg1)) := by
  after_results
  rfl

theorem host2_v19_0 :
    StableHlo.after (hostOps2 (F := Ideal)) V (Proc.devRef .tc main_v19_0) = V (Proc.devRef .tc main_v19_0) := by
  host_untouched hostOps2

theorem host2_v19_1 :
    StableHlo.after (hostOps2 (F := Ideal)) V (Proc.devRef .tc main_v19_1) = V (Proc.devRef .tc main_v19_1) := by
  host_untouched hostOps2

theorem host2_1_v23 :
    StableHlo.after (hostOps2_1 (F := Ideal)) V (Proc.devRef .tc main_v23) = V (Proc.devRef .tc main_v23) := by
  host_untouched hostOps2_1

theorem host2_1_v19_1 :
    StableHlo.after (hostOps2_1 (F := Ideal)) V (Proc.devRef .tc main_v19_1) = V (Proc.devRef .tc main_v19_1) := by
  host_untouched hostOps2_1

theorem host2_2_v19_1 :
    StableHlo.after (hostOps2_2 (F := Ideal)) V (Proc.devRef .tc main_v19_1) = V (Proc.devRef .tc main_v19_1) := by
  host_untouched hostOps2_2

/-- The second stretch is the guarded take: wrap the source words, test them against the range, gather the rows,
    and put the fill value where the test fails. -/
theorem host2_1_v24 :
    (StableHlo.after (hostOps2_1 (F := Ideal)) V (Proc.devRef .tc main_v24) : FVec Ideal Cert.Edge.S800000x128 .f32)
      = Cert.Edge.msgK Cert.Edge.sh0 Cert.Edge.dg0 (V (Proc.devRef .tc main_v19_0)) (V (Proc.devRef .tc main_v21)) := by
  after_results_simp
  simp only [ofBuf_toBuf]
  refine (cast_eq _ _).trans ?_
  rfl

/-- The third stretch adds the messages into their destination rows over a matrix of zeros. -/
theorem host2_2_v27 :
    (StableHlo.after (hostOps2_2 (F := Ideal)) V (Proc.devRef .tc main_v27) : FVec Ideal Cert.Edge.S50000x128 .f32)
      = Cert.Edge.agg Cert.Edge.sh0 Cert.Edge.ds0 (V (Proc.devRef .tc main_v24)) (V (Proc.devRef .tc main_v23)) := by
  after_results
  rfl

/-- No operation of the two stretches before the second region writes the edge list. -/
theorem host1_arg1 :
    StableHlo.after (hostOps1 (F := Ideal)) V (Proc.devRef .tc main_arg1) = V (Proc.devRef .tc main_arg1) := by
  host_untouched hostOps1

theorem host0_arg1 :
    StableHlo.after (hostOps0 (F := Ideal)) V (Proc.devRef .tc main_arg1) = V (Proc.devRef .tc main_arg1) := by
  host_untouched hostOps0

end Host

/-! ## The walk from the boundary after the second region to the entry of the third -/

variable (m : (ℓ : Loc nD τ sig) → Buf (Elt Ideal) ℓ) (ρ : Dev nD → PrngReg) (c : Dev nD)

/-- The edge list is as launched: neither region before reads or writes it, no host operation writes it. -/
theorem w4_arg1 : W4 (F := Ideal) m ρ c (Proc.devRef .tc main_arg1) = m ((c : Thread nD τ).loc main_arg1) :=
  calc W4 (F := Ideal) m ρ c (Proc.devRef .tc main_arg1)
    _ = W3 m ρ c (Proc.devRef .tc main_arg1) := W4_of_ne m ρ c main_arg1 (by decide)
    _ = W2 m ρ c (Proc.devRef .tc main_arg1) := host1_arg1 (W2 m ρ c)
    _ = W1 m ρ c (Proc.devRef .tc main_arg1) := W2_of_ne m ρ c main_arg1 (by decide)
    _ = W0 m ρ c (Proc.devRef .tc main_arg1) := host0_arg1 (W0 m ρ c)
    _ = m ((c : Thread nD τ).loc main_arg1) := rfl

theorem w5_v21 :
    (W5 (F := Ideal) m ρ c (Proc.devRef .tc main_v21) : IVec Cert.Edge.S800000 32)
      = Cert.Edge.src Cert.Edge.sh0 (m ((c : Thread nD τ).loc main_arg1)) :=
  (host2_v21 (W4 m ρ c)).trans (congrArg (Cert.Edge.src Cert.Edge.sh0) (w4_arg1 m ρ c))

theorem w5_v23 :
    (W5 (F := Ideal) m ρ c (Proc.devRef .tc main_v23) : IVec Cert.Edge.S800000 32)
      = Cert.Edge.dst Cert.Edge.sh0 (m ((c : Thread nD τ).loc main_arg1)) :=
  (host2_v23 (W4 m ρ c)).trans (congrArg (Cert.Edge.dst Cert.Edge.sh0) (w4_arg1 m ρ c))

theorem w6_v23 :
    (W6 (F := Ideal) m ρ c (Proc.devRef .tc main_v23) : IVec Cert.Edge.S800000 32)
      = Cert.Edge.dst Cert.Edge.sh0 (m ((c : Thread nD τ).loc main_arg1)) :=
  (host2_1_v23 (W5 m ρ c)).trans (w5_v23 m ρ c)

theorem w6_v24 :
    (W6 (F := Ideal) m ρ c (Proc.devRef .tc main_v24) : FVec Ideal Cert.Edge.S800000x128 .f32)
      = Cert.Edge.msgK Cert.Edge.sh0 Cert.Edge.dg0 (W4 (F := Ideal) m ρ c (Proc.devRef .tc main_v19_0))
          (Cert.Edge.src Cert.Edge.sh0 (m ((c : Thread nD τ).loc main_arg1))) :=
  (host2_1_v24 (W5 m ρ c)).trans
    (congrArg₂ (Cert.Edge.msgK Cert.Edge.sh0 Cert.Edge.dg0) (host2_v19_0 (W4 m ρ c)) (w5_v21 m ρ c))

/-- At the third region's entry the aggregation array holds the guarded edge aggregation of the neighbour-transform
    array as the second region left it. -/
theorem w7_v27 :
    (W7 (F := Ideal) m ρ c (Proc.devRef .tc main_v27) : FVec Ideal Cert.Edge.S50000x128 .f32)
      = Cert.Edge.agg Cert.Edge.sh0 Cert.Edge.ds0
          (Cert.Edge.msgK Cert.Edge.sh0 Cert.Edge.dg0 (W4 (F := Ideal) m ρ c (Proc.devRef .tc main_v19_0))
            (Cert.Edge.src Cert.Edge.sh0 (m ((c : Thread nD τ).loc main_arg1))))
          (Cert.Edge.dst Cert.Edge.sh0 (m ((c : Thread nD τ).loc main_arg1))) :=
  (host2_2_v27 (W6 m ρ c)).trans
    (congrArg₂ (Cert.Edge.agg Cert.Edge.sh0 Cert.Edge.ds0) (w6_v24 m ρ c) (w6_v23 m ρ c))

/-- The neighbour-transform array after the second region, as the array of the matrix `hn`. -/
theorem w4_hn_arr :
    (W4 (F := Ideal) m ρ c (Proc.devRef .tc main_v19_0) : FVec Ideal Cert.Edge.S50000x128 .f32) = Cert.Edge.arr2 (hn m c) := by
  funext idx
  obtain ⟨i, j, rfl⟩ : ∃ (i : Fin 50000) (j : Fin 128), idx = ix2 i j := ⟨idx 0, idx 1, eq_ix2 idx⟩
  exact w4_hn m ρ c i j

/-- The aggregated messages, unfolded to the host spelling over the launch memory. -/
theorem ag_apply (i : Fin 50000) (j : Fin 128) :
    ag m c i j = Cert.Edge.agg Cert.Edge.sh0 Cert.Edge.ds0
          (Cert.Edge.msgK Cert.Edge.sh0 Cert.Edge.dg0 (Cert.Edge.arr2 (hn m c))
            (Cert.Edge.src Cert.Edge.sh0 (m ((c : Thread nD τ).loc main_arg1))))
          (Cert.Edge.dst Cert.Edge.sh0 (m ((c : Thread nD τ).loc main_arg1))) (ix2 i j) := by
  unfold ag E Cert.Edge.EK0 Cert.Edge.EK ei
  rfl

theorem w7_ag (i : Fin 50000) (j : Fin 128) :
    W7 (F := Ideal) m ρ c (Proc.devRef .tc main_v27) (ix2 i j) = ag m c i j := by
  rw [ag_apply, ← w4_hn_arr m ρ c]
  exact congrFun (w7_v27 m ρ c) (ix2 i j)

/-- The root transform is untouched by the three host stretches. -/
theorem w7_hr (i : Fin 50000) (j : Fin 128) :
    W7 (F := Ideal) m ρ c (Proc.devRef .tc main_v19_1) (ix2 i j) = hr m c i j :=
  (congrFun ((host2_2_v19_1 (W6 m ρ c)).trans ((host2_1_v19_1 (W5 m ρ c)).trans (host2_v19_1 (W4 m ρ c)))) (ix2 i j)).trans
    (w4_hr m ρ c i j)

/-! ## Through the third region -/

/-- The root transform is the region's input window 0: its array is unchanged. -/
theorem w8_v19_1 : W8 (F := Ideal) m ρ c (Proc.devRef .tc main_v19_1) = W7 (F := Ideal) m ρ c (Proc.devRef .tc main_v19_1) :=
  (W8_arr m ρ c 0).trans (((dat2 (V7 m ρ) c).arrAt_in 0 rfl _).trans (A_eq2 (V7 m ρ) c 0))

/-- The aggregation array is its input window 1. -/
theorem w8_v27 : W8 (F := Ideal) m ρ c (Proc.devRef .tc main_v27) = W7 (F := Ideal) m ρ c (Proc.devRef .tc main_v27) :=
  (W8_arr m ρ c 1).trans (((dat2 (V7 m ρ) c).arrAt_in 1 rfl _).trans (A_eq2 (V7 m ρ) c 1))

theorem w8_hr (i : Fin 50000) (j : Fin 128) :
    W8 (F := Ideal) m ρ c (Proc.devRef .tc main_v19_1) (ix2 i j) = hr m c i j :=
  (congrFun (w8_v19_1 m ρ c) (ix2 i j)).trans (w7_hr m ρ c i j)

theorem w8_ag (i : Fin 50000) (j : Fin 128) :
    W8 (F := Ideal) m ρ c (Proc.devRef .tc main_v27) (ix2 i j) = ag m c i j :=
  (congrFun (w8_v27 m ρ c) (ix2 i j)).trans (w7_ag m ρ c i j)

/-- At the region's entry the sum of its two input matrices is the second pre-activation. -/
theorem v7_y2 : add (cur2 (V7 (F := Ideal) m ρ c main_v19_1)) (cur2 (V7 (F := Ideal) m ρ c main_v27)) = y2 m c := by
  funext i j
  unfold y2 add
  exact congrArg₂ (· + ·) (w7_hr m ρ c i j) (w7_ag m ρ c i j)

theorem w8_psum (t : Fin 25) (j : Fin 128) :
    W8 (F := Ideal) m ρ c (Proc.devRef .tc main_v28_0) (ix3 t 0 j) = tileSum (y2 m c) t j :=
  (congrFun (W8_arr m ρ c 2) (ix3 t 0 j)).trans
    ((Region2.psum_apply (V7 m ρ) c t j).trans (congrArg (fun y => tileSum y t j) (v7_y2 m ρ c)))

theorem w8_psumsq (t : Fin 25) (j : Fin 128) :
    W8 (F := Ideal) m ρ c (Proc.devRef .tc main_v28_1) (ix3 t 0 j) = tileSum (sq (y2 m c)) t j :=
  (congrFun (W8_arr m ρ c 3) (ix3 t 0 j)).trans
    ((Region2.psumsq_apply (V7 m ρ) c t j).trans (congrArg (fun y => tileSum (sq y) t j) (v7_y2 m ρ c)))

end Cert.KernelIdeal.Chain
end
-- ==== Proof.Region3.lean ====
/-
  The fourth pallas_call over the whole arrays: point t adds rows 2000·t … 2000·t + 1999 of its two input matrices,
  normalises, scales, shifts and clips them with the given row vectors, multiplies by the 128 × 512 weight matrix, writes
  those rows of the product, and writes into row t of two 25 × 1 × 512 arrays the column sums of that tile of the product
  and of its squares.

  In order: the block product read at an entry (the sum over the contracted coordinate); the body's arithmetic at one
  entry of a block; each window's block at a grid point as entries of its array (row p of the block at point t is row
  2000·t + p); what each point writes back as the block of one whole-array function; the blocks cover the arrays (row r is
  in the block of point r / 2000), so each array ends holding that function.
-/
import proofs.«421418_j84782654423196_3_alg».proof.Proof.Gen.KernelIdeal.Frame
import proofs.«421418_j84782654423196_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

/-! ## The product of a block of rows by the weight matrix, read at an entry -/

/-- A 2000 × 128 block times the 128 × 512 matrix, accumulated from zero: at row p and column q, the sum over l of the products. -/
theorem matmul_entry (a : FVec Ideal S2000x128 .bf16) (b : FVec Ideal S128x512 .bf16) (p : Fin 2000) (q : Fin 512) :
    matmul dot_S2000x128_S128x512_S2000x512_1_0_0_1_n_n none a b (constant (F := Ideal) S2000x512 .f32 0x00000000#32) (ix2 p q)
      = ∑ l : Fin 128, a (ix2 p l) * b (ix2 l q) := by
  show FloatOps.matmul _ none a b _ (ix2 p q) = _
  rw [Ideal.matmul_constant_zero_apply,
    ← Equiv.sum_comp (contrEquiv1 dot_S2000x128_S128x512_S2000x512_1_0_0_1_n_n 128 rfl rfl).symm]
  refine Finset.sum_congr rfl fun l _ => ?_
  have c2 := contrEquiv1_symm_val dot_S2000x128_S128x512_S2000x512_1_0_0_1_n_n 128 rfl rfl l
  have l2 : dot_S2000x128_S128x512_S2000x512_1_0_0_1_n_n.lhsIdx (ix2 p q) ((contrEquiv1 _ 128 rfl rfl).symm l) = ix2 p l := by
    funext ax; apply Fin.ext
    match ax with
    | ⟨0, _⟩ => simp [DotDims.lhsIdx, dot_S2000x128_S128x512_S2000x512_1_0_0_1_n_n]; rfl
    | ⟨1, _⟩ => simp [DotDims.lhsIdx, dot_S2000x128_S128x512_S2000x512_1_0_0_1_n_n]; exact c2
  have r2 : dot_S2000x128_S128x512_S2000x512_1_0_0_1_n_n.rhsIdx (ix2 p q) ((contrEquiv1 _ 128 rfl rfl).symm l) = ix2 l q := by
    funext ax; apply Fin.ext
    match ax with
    | ⟨0, _⟩ => simp [DotDims.rhsIdx, dot_S2000x128_S128x512_S2000x512_1_0_0_1_n_n]; exact c2
    | ⟨1, _⟩ => simp [DotDims.rhsIdx, dot_S2000x128_S128x512_S2000x512_1_0_0_1_n_n]; rfl
  rw [l2, r2]

/-! ## The body's arithmetic at one entry of a block -/

/-- The reciprocal square root of a vector, read at an index. -/
theorem rsqrt_entry {s : Shape} {φ : FTy} (a : FVec Ideal s φ) (i : s.Idx) : rsqrt a i = Ideal.rsqrt (a i) := rfl

/-- One entry of the clipped, normalised, scaled and shifted sum of two blocks of rows: x0, x1 the blocks, x4 the means,
    x5 the variances, x2 the scales, x3 the shifts. -/
def act (x0 x1 : Vec Ideal S2000x128 .f32) (x2 x3 x4 x5 : Vec Ideal S1x128 .f32) (p : Fin 2000) (l : Fin 128) : EReal :=
  max (((x0 (ix2 p l) + x1 (ix2 p l)) - x4 (ix2 0 l)) * Ideal.rsqrt (x5 (ix2 0 l) + eps) * x2 (ix2 0 l) + x3 (ix2 0 l)) 0

/-- The block of the product: entry (p, q) is the sum over l of the clipped normalised entry (p, l) times the weight (l, q). -/
theorem pay2_entry (x0 x1 : Vec Ideal S2000x128 .f32) (x2 x3 x4 x5 : Vec Ideal S1x128 .f32) (x6 : Vec Ideal S128x512 .bf16)
    (p : Fin 2000) (q : Fin 512) :
    k3_pay2 (F := Ideal) x0 x1 x5 x4 x2 x3 x6 (ix2 p q) = ∑ l : Fin 128, act x0 x1 x2 x3 x4 x5 p l * x6 (ix2 l q) := by
  unfold k3_pay2
  refine (matmul_entry _ _ p q).trans ?_
  refine Finset.sum_congr rfl fun l _ => ?_
  simp only [shapeCast_self]
  simp only [truncf_apply, maximumf_apply, addf_apply, mulf_apply, subf_apply, broadcast_apply, broadcastTo_1b_ab_apply, rsqrt_entry]
  rw [show (FloatOps.ofBits FTy.f32 0#32 : Ideal .f32) = 0 from Ideal.ofBits_zero_f32]
  rfl

/-- The column sums of a 2000 × 512 block, stored as a 1 × 1 × 512 block: entry q is the sum over the rows p of entry (p, q). -/
theorem colsum_entry (y : FVec Ideal S2000x512 .f32) (u0 u1 : Fin 1) (q : Fin 512) :
    shapeCast S1x1x512 (shapeCast S1x512 (multiReduction (F := Ideal) .add [0] S512 y 0x00000000#32 reduces_S2000x512_S512 (.inl rfl) rfl)
      shapeCasts_S512_S1x512) shapeCasts_S1x512_S1x1x512 (ix3 u0 u1 q) = ∑ p : Fin 2000, y (ix2 p q) := by
  rw [shapeCast_ab_1ab_apply, shapeCast_a_1a_apply]
  refine (Ideal.multiReduction_add_single y _ reduces_S2000x512_S512 _ _ (ix1 q)).trans ?_
  show ∑ p : Fin 2000, _ = _
  refine Finset.sum_congr rfl fun p _ => congrArg y ?_
  funext a; apply Fin.ext
  match a with
  | ⟨0, _⟩ => rfl
  | ⟨1, _⟩ => rfl

/-- The block of the column sums of the product. -/
theorem pay3_entry (x0 x1 : Vec Ideal S2000x128 .f32) (x2 x3 x4 x5 : Vec Ideal S1x128 .f32) (x6 : Vec Ideal S128x512 .bf16)
    (u0 u1 : Fin 1) (q : Fin 512) :
    k3_pay3 (F := Ideal) x0 x1 x5 x4 x2 x3 x6 (ix3 u0 u1 q) = ∑ p : Fin 2000, k3_pay2 (F := Ideal) x0 x1 x5 x4 x2 x3 x6 (ix2 p q) := by
  unfold k3_pay3
  exact colsum_entry _ u0 u1 q

/-- The block of the column sums of the product's squares. -/
theorem pay1_entry (y : FVec Ideal S2000x512 .f32) (u0 u1 : Fin 1) (q : Fin 512) :
    k3_pay1 (F := Ideal) y (ix3 u0 u1 q) = ∑ p : Fin 2000, y (ix2 p q) * y (ix2 p q) := by
  unfold k3_pay1
  exact colsum_entry (mulf y y) u0 u1 q

variable (V : (c : Dev nD) → (b : Ref sig .tc) → Buf (Elt Ideal) ((c : Thread nD τ).loc b))

/-! ## The blocks of the arrays at a grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 25 points. -/
theorem N_eq : cfg3.N = 25 := N_3

/-- A grid point as a tile number. -/
def tile (t : Fin cfg3.N) : Fin 25 := ⟨t.val, lt_of_lt_of_eq t.isLt N_eq⟩

/-- The block index of every window at every grid point: the two row-blocked inputs and the three outputs move with the point along
    their first axis, the row vectors and the weight matrix stay at block zero. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 3) = t.val ∧ win3_8.index t (1 : Fin 3) = 0 ∧ win3_8.index t (2 : Fin 3) = 0)
    ∧ (win3_9.index t (0 : Fin 3) = t.val ∧ win3_9.index t (1 : Fin 3) = 0 ∧ win3_9.index t (2 : Fin 3) = 0) :=
  (by decide +kernel : ∀ t : Fin grid3.N, _)

/-- Row p of the first input's block at point t is row 2000·t + p of the array. -/
theorem iblk0_entry (c : Dev nD) (t : Fin cfg3.N) (p : Fin 2000) (l : Fin 128) :
    (iblk3 (F := Ideal) V c 0 t : Vec Ideal S2000x128 .f32) (ix2 p l) = cur2 (V c main_v19_1) (row (tile t) p) l := by
  obtain ⟨⟨e0, e1⟩, -⟩ := idx_facts t
  unfold iblk3
  rw [View.read_apply]
  show V c main_v19_1 _ = V c main_v19_1 _
  congr 1
  funext a; apply Fin.ext
  match a with
  | ⟨0, _⟩ => show win3_0.index t (0 : Fin 2) * 2000 + 1 * p.val = 2000 * t.val + p.val; rw [e0]; omega
  | ⟨1, _⟩ => show win3_0.index t (1 : Fin 2) * 128 + 1 * l.val = l.val; rw [e1]; omega

/-- Row p of the second input's block at point t is row 2000·t + p of the array. -/
theorem iblk1_entry (c : Dev nD) (t : Fin cfg3.N) (p : Fin 2000) (l : Fin 128) :
    (iblk3 (F := Ideal) V c 1 t : Vec Ideal S2000x128 .f32) (ix2 p l) = cur2 (V c main_v27) (row (tile t) p) l := by
  obtain ⟨-, ⟨e0, e1⟩, -⟩ := idx_facts t
  unfold iblk3
  rw [View.read_apply]
  show V c main_v27 _ = V c main_v27 _
  congr 1
  funext a; apply Fin.ext
  match a with
  | ⟨0, _⟩ => show win3_1.index t (0 : Fin 2) * 2000 + 1 * p.val = 2000 * t.val + p.val; rw [e0]; omega
  | ⟨1, _⟩ => show win3_1.index t (1 : Fin 2) * 128 + 1 * l.val = l.val; rw [e1]; omega

/-- The scale vector's block is the whole vector. -/
theorem iblk2_entry (c : Dev nD) (t : Fin cfg3.N) (u : Fin 1) (l : Fin 128) :
    (iblk3 (F := Ideal) V c 2 t : Vec Ideal S1x128 .f32) (ix2 u l) = curRow (V c main_v6) l := by
  obtain ⟨-, -, ⟨e0, e1⟩, -⟩ := idx_facts t
  unfold iblk3
  rw [View.read_apply]
  show V c main_v6 _ = V c main_v6 _
  congr 1
  funext a; apply Fin.ext
  match a with
  | ⟨0, _⟩ => show win3_2.index t (0 : Fin 2) * 1 + 1 * u.val = 0; rw [e0]; omega
  | ⟨1, _⟩ => show win3_2.index t (1 : Fin 2) * 128 + 1 * l.val = l.val; rw [e1]; omega

/-- The shift vector's block is the whole vector. -/
theorem iblk3_entry (c : Dev nD) (t : Fin cfg3.N) (u : Fin 1) (l : Fin 128) :
    (iblk3 (F := Ideal) V c 3 t : Vec Ideal S1x128 .f32) (ix2 u l) = curRow (V c main_v7) l := by
  obtain ⟨-, -, -, ⟨e0, e1⟩, -⟩ := idx_facts t
  unfold iblk3
  rw [View.read_apply]
  show V c main_v7 _ = V c main_v7 _
  congr 1
  funext a; apply Fin.ext
  match a with
  | ⟨0, _⟩ => show win3_3.index t (0 : Fin 2) * 1 + 1 * u.val = 0; rw [e0]; omega
  | ⟨1, _⟩ => show win3_3.index t (1 : Fin 2) * 128 + 1 * l.val = l.val; rw [e1]; omega

/-- The mean vector's block is the whole vector. -/
theorem iblk4_entry (c : Dev nD) (t : Fin cfg3.N) (u : Fin 1) (l : Fin 128) :
    (iblk3 (F := Ideal) V c 4 t : Vec Ideal S1x128 .f32) (ix2 u l) = curRow (V c main_v31) l := by
  obtain ⟨-, -, -, -, ⟨e0, e1⟩, -⟩ := idx_facts t
  unfold iblk3
  rw [View.read_apply]
  show V c main_v31 _ = V c main_v31 _
  congr 1
  funext a; apply Fin.ext
  match a with
  | ⟨0, _⟩ => show win3_4.index t (0 : Fin 2) * 1 + 1 * u.val = 0; rw [e0]; omega
  | ⟨1, _⟩ => show win3_4.index t (1 : Fin 2) * 128 + 1 * l.val = l.val; rw [e1]; omega

/-- The variance vector's block is the whole vector. -/
theorem iblk5_entry (c : Dev nD) (t : Fin cfg3.N) (u : Fin 1) (l : Fin 128) :
    (iblk3 (F := Ideal) V c 5 t : Vec Ideal S1x128 .f32) (ix2 u l) = curRow (V c main_v36) l := by
  obtain ⟨-, -, -, -, -, ⟨e0, e1⟩, -⟩ := idx_facts t
  unfold iblk3
  rw [View.read_apply]
  show V c main_v36 _ = V c main_v36 _
  congr 1
  funext a; apply Fin.ext
  match a with
  | ⟨0, _⟩ => show win3_5.index t (0 : Fin 2) * 1 + 1 * u.val = 0; rw [e0]; omega
  | ⟨1, _⟩ => show win3_5.index t (1 : Fin 2) * 128 + 1 * l.val = l.val; rw [e1]; omega

/-- The weight matrix's block is the whole matrix. -/
theorem iblk6_entry (c : Dev nD) (t : Fin cfg3.N) (l : Fin 128) (q : Fin 512) :
    (iblk3 (F := Ideal) V c 6 t : Vec Ideal S128x512 .bf16) (ix2 l q) = cur2 (V c main_v3) l q := by
  obtain ⟨-, -, -, -, -, -, ⟨e0, e1⟩, -⟩ := idx_facts t
  unfold iblk3
  rw [View.read_apply]
  show V c main_v3 _ = V c main_v3 _
  congr 1
  funext a; apply Fin.ext
  match a with
  | ⟨0, _⟩ => show win3_6.index t (0 : Fin 2) * 128 + 1 * l.val = l.val; rw [e0]; omega
  | ⟨1, _⟩ => show win3_6.index t (1 : Fin 2) * 512 + 1 * q.val = q.val; rw [e1]; omega

/-- The normalised, scaled, shifted and clipped sum of the two input arrays. -/
abbrev hid (c : Dev nD) : M 50000 128 :=
  relu (bn (add (cur2 (V c main_v19_1)) (cur2 (V c main_v27))) (curRow (V c main_v31)) (curRow (V c main_v36))
    (curRow (V c main_v6)) (curRow (V c main_v7)))

/-- The product the region computes from its input arrays. -/
abbrev prod (c : Dev nD) : M 50000 512 :=
  mm (relu (bn (add (cur2 (V c main_v19_1)) (cur2 (V c main_v27))) (curRow (V c main_v31)) (curRow (V c main_v36))
    (curRow (V c main_v6)) (curRow (V c main_v7)))) (cur2 (V c main_v3))

/-- At point t, entry (p, l) of the clipped normalised sum of the blocks is entry (2000·t + p, l) of that of the arrays. -/
theorem act_blk (c : Dev nD) (t : Fin cfg3.N) (p : Fin 2000) (l : Fin 128) :
    act (iblk3 (F := Ideal) V c 0 t) (iblk3 (F := Ideal) V c 1 t) (iblk3 (F := Ideal) V c 2 t) (iblk3 (F := Ideal) V c 3 t)
      (iblk3 (F := Ideal) V c 4 t) (iblk3 (F := Ideal) V c 5 t) p l = hid V c (row (tile t) p) l := by
  unfold act
  rw [iblk0_entry, iblk1_entry, iblk2_entry, iblk3_entry, iblk4_entry, iblk5_entry]
  rfl

/-- At point t, entry (p, q) of the block of the product is entry (2000·t + p, q) of the product of the arrays. -/
theorem pay2_blk (c : Dev nD) (t : Fin cfg3.N) (p : Fin 2000) (q : Fin 512) :
    k3_pay2 (F := Ideal) (iblk3 (F := Ideal) V c 0 t) (iblk3 (F := Ideal) V c 1 t) (iblk3 (F := Ideal) V c 5 t) (iblk3 (F := Ideal) V c 4 t)
      (iblk3 (F := Ideal) V c 2 t) (iblk3 (F := Ideal) V c 3 t) (iblk3 (F := Ideal) V c 6 t) (ix2 p q) = prod V c (row (tile t) p) q := by
  refine (pay2_entry _ _ _ _ _ _ _ p q).trans ?_
  show _ = mm (hid V c) (cur2 (V c main_v3)) (row (tile t) p) q
  unfold mm
  refine Finset.sum_congr rfl fun l _ => ?_
  rw [act_blk, iblk6_entry]

/-! ## What each point writes back, and the arrays after the region -/

/-- The product as an array over the 50000 × 512 index set. -/
abbrev prodArr (c : Dev nD) : S50000x512.Idx → EReal := fun i => prod V c (i 0) (i 1)
/-- The tile sums of the product as an array over the 25 × 1 × 512 index set. -/
abbrev sumArr (c : Dev nD) : S25x1x512.Idx → EReal := fun i => tileSum (prod V c) (i 0) (i 2)
/-- The tile sums of the product's squares as an array over the 25 × 1 × 512 index set. -/
abbrev sumsqArr (c : Dev nD) : S25x1x512.Idx → EReal := fun i => tileSum (sq (prod V c)) (i 0) (i 2)

/-- Point t writes back rows 2000·t … 2000·t + 1999 of the product. -/
theorem flushed7_eq (c : Dev nD) (t : Fin cfg3.N) :
    (dat3 (F := Ideal) V c).flushed 7 t = ((cfg3.win 7).blk t).view.read (Elt Ideal) (prodArr V c) := by
  show (cfg3.win 7).cut (grid3.coords t) ((dat3 (F := Ideal) V c).after 7 t) = _
  rw [after3_7]
  unfold out3_7
  rw [View.canon_unit_zero hz2]
  simp only [View.ld_unit_zero (S := S2000x128) hz2, View.ld_unit_zero (S := S1x128) hz2, View.ld_unit_zero (S := S128x512) hz2]
  obtain ⟨-, -, -, -, -, -, -, ⟨e0, e1⟩, -⟩ := idx_facts t
  funext j
  obtain ⟨p, q, rfl⟩ : ∃ (p : Fin 2000) (q : Fin 512), j = ix2 p q := ⟨j 0, j 1, eq_ix2 j⟩
  refine (pay2_blk V c t p q).trans ?_
  show prod V c (row (tile t) p) q = prod V c ((((cfg3.win 7).blk t).view.emb (ix2 p q)) 0) ((((cfg3.win 7).blk t).view.emb (ix2 p q)) 1)
  refine congrArg₂ (prod V c) (Fin.ext ?_) (Fin.ext ?_)
  · show 2000 * t.val + p.val = win3_7.index t (0 : Fin 2) * 2000 + 1 * p.val; rw [e0]; omega
  · show q.val = win3_7.index t (1 : Fin 2) * 512 + 1 * q.val; rw [e1]; omega

/-- An index of the product array is in point t's block iff each coordinate is in the block's range on its axis. -/
theorem mem_blk7 (t : Fin cfg3.N) (i : S50000x512.Idx) :
    i ∈ ((cfg3.win 7).blk t).view.set ↔ ∀ a : Fin 2, win3_7.index t a * S2000x512.size a ≤ (i a).val ∧ (i a).val < win3_7.index t a * S2000x512.size a + S2000x512.size a := by
  show i ∈ ((View.whole main_v37_0).slice (win3_7.rect t)).set ↔ _
  rw [View.set_slice_whole, Rect.mem_set_unit]
  exact Iff.rfl

/-- Row r of the product array is in the block of point r / 2000. -/
theorem cover7 (i : S50000x512.Idx) : ∃ t : Fin cfg3.N, (cfg3.win 7).flush t = true ∧ i ∈ ((cfg3.win 7).blk t).view.set := by
  have hi0 : (i 0).val < 50000 := idx2_lt0 i
  have hi1 : (i 1).val < 512 := idx2_lt1 i
  obtain ⟨t, ht⟩ : ∃ t : Fin cfg3.N, t.val = (i 0).val / 2000 := ⟨⟨(i 0).val / 2000, by rw [N_eq]; omega⟩, rfl⟩
  obtain ⟨-, -, -, -, -, -, -, ⟨e0, e1⟩, -⟩ := idx_facts t
  refine ⟨t, flush3_7 t, ?_⟩
  rw [mem_blk7]
  intro a
  match a with
  | ⟨0, _⟩ => show win3_7.index t (0 : Fin 2) * 2000 ≤ (i 0).val ∧ (i 0).val < win3_7.index t (0 : Fin 2) * 2000 + 2000; rw [e0, ht]; omega
  | ⟨1, _⟩ => show win3_7.index t (1 : Fin 2) * 512 ≤ (i 1).val ∧ (i 1).val < win3_7.index t (1 : Fin 2) * 512 + 512; rw [e1]; omega

/-- The product array after the region is the product of the arrays. -/
theorem final7 (c : Dev nD) : (dat3 (F := Ideal) V c).arrAt 7 cfg3.N = prodArr V c :=
  (dat3 (F := Ideal) V c).arrAt_eq_of_cover 7 (prodArr V c) (fun t _ => flushed7_eq V c t) cover7

/-- The product array after the region. -/
theorem y_apply (c : Dev nD) (i : Fin 50000) (j : Fin 512) :
    (dat3 (F := Ideal) V c).arrAt 7 cfg3.N (ix2 i j) = prod V c i j := by
  rw [final7]

/-- Point t writes back, as row t of the sums array, the column sums of its tile of the product. -/
theorem flushed8_eq (c : Dev nD) (t : Fin cfg3.N) :
    (dat3 (F := Ideal) V c).flushed 8 t = ((cfg3.win 8).blk t).view.read (Elt Ideal) (sumArr V c) := by
  show (cfg3.win 8).cut (grid3.coords t) ((dat3 (F := Ideal) V c).after 8 t) = _
  rw [after3_8]
  unfold out3_8
  rw [View.canon_unit_zero hz3]
  simp only [View.ld_unit_zero (S := S2000x128) hz2, View.ld_unit_zero (S := S1x128) hz2, View.ld_unit_zero (S := S128x512) hz2]
  obtain ⟨-, -, -, -, -, -, -, -, ⟨e0, e1, e2⟩, -⟩ := idx_facts t
  funext j
  obtain ⟨u0, u1, q, rfl⟩ : ∃ (u0 u1 : Fin 1) (q : Fin 512), j = ix3 u0 u1 q := ⟨j 0, j 1, j 2, eq_ix3 j⟩
  refine (pay3_entry _ _ _ _ _ _ _ u0 u1 q).trans ?_
  refine Eq.trans (b := tileSum (prod V c) (tile t) q) ?_ ?_
  · unfold tileSum
    exact Finset.sum_congr rfl fun p _ => pay2_blk V c t p q
  · show tileSum (prod V c) (tile t) q
      = tileSum (prod V c) ((((cfg3.win 8).blk t).view.emb (ix3 u0 u1 q)) 0) ((((cfg3.win 8).blk t).view.emb (ix3 u0 u1 q)) 2)
    refine congrArg₂ (tileSum (prod V c)) (Fin.ext ?_) (Fin.ext ?_)
    · show t.val = win3_8.index t (0 : Fin 3) * 1 + 1 * u0.val; rw [e0]; omega
    · show q.val = win3_8.index t (2 : Fin 3) * 512 + 1 * q.val; rw [e2]; omega

/-- Point t writes back, as row t of the sums-of-squares array, the column sums of the squares of its tile of the product. -/
theorem flushed9_eq (c : Dev nD) (t : Fin cfg3.N) :
    (dat3 (F := Ideal) V c).flushed 9 t = ((cfg3.win 9).blk t).view.read (Elt Ideal) (sumsqArr V c) := by
  show (cfg3.win 9).cut (grid3.coords t) ((dat3 (F := Ideal) V c).after 9 t) = _
  rw [after3_9]
  unfold out3_9
  rw [View.canon_unit_zero hz3]
  simp only [View.ld_unit_zero (S := S2000x128) hz2, View.ld_unit_zero (S := S1x128) hz2, View.ld_unit_zero (S := S128x512) hz2]
  obtain ⟨-, -, -, -, -, -, -, -, -, ⟨e0, e1, e2⟩⟩ := idx_facts t
  funext j
  obtain ⟨u0, u1, q, rfl⟩ : ∃ (u0 u1 : Fin 1) (q : Fin 512), j = ix3 u0 u1 q := ⟨j 0, j 1, j 2, eq_ix3 j⟩
  refine (pay1_entry _ u0 u1 q).trans ?_
  refine Eq.trans (b := tileSum (sq (prod V c)) (tile t) q) ?_ ?_
  · unfold tileSum Cert.Spec.sq
    exact Finset.sum_congr rfl fun p _ => by rw [pay2_blk]
  · show tileSum (sq (prod V c)) (tile t) q
      = tileSum (sq (prod V c)) ((((cfg3.win 9).blk t).view.emb (ix3 u0 u1 q)) 0) ((((cfg3.win 9).blk t).view.emb (ix3 u0 u1 q)) 2)
    refine congrArg₂ (tileSum (sq (prod V c))) (Fin.ext ?_) (Fin.ext ?_)
    · show t.val = win3_9.index t (0 : Fin 3) * 1 + 1 * u0.val; rw [e0]; omega
    · show q.val = win3_9.index t (2 : Fin 3) * 512 + 1 * q.val; rw [e2]; omega

/-- An index of the sums array is in point t's block iff each coordinate is in the block's range on its axis. -/
theorem mem_blk8 (t : Fin cfg3.N) (i : S25x1x512.Idx) :
    i ∈ ((cfg3.win 8).blk t).view.set ↔ ∀ a : Fin 3, win3_8.index t a * S1x1x512.size a ≤ (i a).val ∧ (i a).val < win3_8.index t a * S1x1x512.size a + S1x1x512.size a := by
  show i ∈ ((View.whole main_v37_1).slice (win3_8.rect t)).set ↔ _
  rw [View.set_slice_whole, Rect.mem_set_unit]
  exact Iff.rfl

/-- An index of the sums-of-squares array is in point t's block iff each coordinate is in the block's range on its axis. -/
theorem mem_blk9 (t : Fin cfg3.N) (i : S25x1x512.Idx) :
    i ∈ ((cfg3.win 9).blk t).view.set ↔ ∀ a : Fin 3, win3_9.index t a * S1x1x512.size a ≤ (i a).val ∧ (i a).val < win3_9.index t a * S1x1x512.size a + S1x1x512.size a := by
  show i ∈ ((View.whole main_v37_2).slice (win3_9.rect t)).set ↔ _
  rw [View.set_slice_whole, Rect.mem_set_unit]
  exact Iff.rfl

/-- Row r of the sums array is the block of point r. -/
theorem cover8 (i : S25x1x512.Idx) : ∃ t : Fin cfg3.N, (cfg3.win 8).flush t = true ∧ i ∈ ((cfg3.win 8).blk t).view.set := by
  have hi0 : (i 0).val < 25 := (i 0).isLt
  have hi1 : (i 1).val < 1 := (i 1).isLt
  have hi2 : (i 2).val < 512 := (i 2).isLt
  obtain ⟨t, ht⟩ : ∃ t : Fin cfg3.N, t.val = (i 0).val := ⟨⟨(i 0).val, by rw [N_eq]; omega⟩, rfl⟩
  obtain ⟨-, -, -, -, -, -, -, -, ⟨e0, e1, e2⟩, -⟩ := idx_facts t
  refine ⟨t, flush3_8 t, ?_⟩
  rw [mem_blk8]
  intro a
  match a with
  | ⟨0, _⟩ => show win3_8.index t (0 : Fin 3) * 1 ≤ (i 0).val ∧ (i 0).val < win3_8.index t (0 : Fin 3) * 1 + 1; rw [e0, ht]; omega
  | ⟨1, _⟩ => show win3_8.index t (1 : Fin 3) * 1 ≤ (i 1).val ∧ (i 1).val < win3_8.index t (1 : Fin 3) * 1 + 1; rw [e1]; omega
  | ⟨2, _⟩ => show win3_8.index t (2 : Fin 3) * 512 ≤ (i 2).val ∧ (i 2).val < win3_8.index t (2 : Fin 3) * 512 + 512; rw [e2]; omega

/-- Row r of the sums-of-squares array is the block of point r. -/
theorem cover9 (i : S25x1x512.Idx) : ∃ t : Fin cfg3.N, (cfg3.win 9).flush t = true ∧ i ∈ ((cfg3.win 9).blk t).view.set := by
  have hi0 : (i 0).val < 25 := (i 0).isLt
  have hi1 : (i 1).val < 1 := (i 1).isLt
  have hi2 : (i 2).val < 512 := (i 2).isLt
  obtain ⟨t, ht⟩ : ∃ t : Fin cfg3.N, t.val = (i 0).val := ⟨⟨(i 0).val, by rw [N_eq]; omega⟩, rfl⟩
  obtain ⟨-, -, -, -, -, -, -, -, -, ⟨e0, e1, e2⟩⟩ := idx_facts t
  refine ⟨t, flush3_9 t, ?_⟩
  rw [mem_blk9]
  intro a
  match a with
  | ⟨0, _⟩ => show win3_9.index t (0 : Fin 3) * 1 ≤ (i 0).val ∧ (i 0).val < win3_9.index t (0 : Fin 3) * 1 + 1; rw [e0, ht]; omega
  | ⟨1, _⟩ => show win3_9.index t (1 : Fin 3) * 1 ≤ (i 1).val ∧ (i 1).val < win3_9.index t (1 : Fin 3) * 1 + 1; rw [e1]; omega
  | ⟨2, _⟩ => show win3_9.index t (2 : Fin 3) * 512 ≤ (i 2).val ∧ (i 2).val < win3_9.index t (2 : Fin 3) * 512 + 512; rw [e2]; omega

/-- The sums array after the region holds the tile sums of the product. -/
theorem final8 (c : Dev nD) : (dat3 (F := Ideal) V c).arrAt 8 cfg3.N = sumArr V c :=
  (dat3 (F := Ideal) V c).arrAt_eq_of_cover 8 (sumArr V c) (fun t _ => flushed8_eq V c t) cover8

/-- The sums-of-squares array after the region holds the tile sums of the product's squares. -/
theorem final9 (c : Dev nD) : (dat3 (F := Ideal) V c).arrAt 9 cfg3.N = sumsqArr V c :=
  (dat3 (F := Ideal) V c).arrAt_eq_of_cover 9 (sumsqArr V c) (fun t _ => flushed9_eq V c t) cover9

/-- The tile sums of the product. -/
theorem psum_apply (c : Dev nD) (t : Fin 25) (j : Fin 512) :
    (dat3 (F := Ideal) V c).arrAt 8 cfg3.N (ix3 t 0 j) = tileSum (prod V c) t j := by
  rw [final8]

/-- The tile sums of the product's squares. -/
theorem psumsq_apply (c : Dev nD) (t : Fin 25) (j : Fin 512) :
    (dat3 (F := Ideal) V c).arrAt 9 cfg3.N (ix3 t 0 j) = tileSum (sq (prod V c)) t j := by
  rw [final9]

end Cert.KernelIdeal.Region3
end
-- ==== Proof.KChainC.lean ====
/-
  The boundary after the fourth pallas_call: the third product is in its array, and the two arrays of partial sums hold
  its tile sums and the tile sums of its squares.
-/
import proofs.«421418_j84782654423196_3_alg».proof.Proof.Gen.KernelIdeal.Frame
import proofs.«421418_j84782654423196_3_alg».proof.Proof.Spec
import proofs.«421418_j84782654423196_3_alg».proof.Proof.Edge
import proofs.«421418_j84782654423196_3_alg».proof.Proof.KVals
import proofs.«421418_j84782654423196_3_alg».proof.Proof.KStats
import proofs.«421418_j84782654423196_3_alg».proof.Proof.KChainB
import proofs.«421418_j84782654423196_3_alg».proof.Proof.Region3
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KernelIdeal.KVals

variable (m : (ℓ : Loc nD τ sig) → Buf (Elt Ideal) ℓ) (ρ : Dev nD → PrngReg) (c : Dev nD)

/-- A host stretch that does not write the buffer leaves it as it was. -/
local macro "host_skip" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The buffers the first host stretch wrote, carried to the fourth call's entry

The scale and shift rows and the weight copy are written once, before the first call; no later host stretch writes them
and they are arrays of none of the first three calls, so at the fourth call's entry they are as first written. -/

theorem w9_w1_v6 : W9 (F := Ideal) m ρ c (Proc.devRef .tc main_v6) = W1 (F := Ideal) m ρ c (Proc.devRef .tc main_v6) :=
  calc W9 (F := Ideal) m ρ c (Proc.devRef .tc main_v6)
    _ = W8 m ρ c (Proc.devRef .tc main_v6) := by host_skip hostOps3
    _ = W7 m ρ c (Proc.devRef .tc main_v6) := W8_of_ne m ρ c main_v6 (by decide)
    _ = W6 m ρ c (Proc.devRef .tc main_v6) := by host_skip hostOps2_2
    _ = W5 m ρ c (Proc.devRef .tc main_v6) := by host_skip hostOps2_1
    _ = W4 m ρ c (Proc.devRef .tc main_v6) := by host_skip hostOps2
    _ = W3 m ρ c (Proc.devRef .tc main_v6) := W4_of_ne m ρ c main_v6 (by decide)
    _ = W2 m ρ c (Proc.devRef .tc main_v6) := by host_skip hostOps1
    _ = W1 m ρ c (Proc.devRef .tc main_v6) := W2_of_ne m ρ c main_v6 (by decide)

theorem w9_w1_v7 : W9 (F := Ideal) m ρ c (Proc.devRef .tc main_v7) = W1 (F := Ideal) m ρ c (Proc.devRef .tc main_v7) :=
  calc W9 (F := Ideal) m ρ c (Proc.devRef .tc main_v7)
    _ = W8 m ρ c (Proc.devRef .tc main_v7) := by host_skip hostOps3
    _ = W7 m ρ c (Proc.devRef .tc main_v7) := W8_of_ne m ρ c main_v7 (by decide)
    _ = W6 m ρ c (Proc.devRef .tc main_v7) := by host_skip hostOps2_2
    _ = W5 m ρ c (Proc.devRef .tc main_v7) := by host_skip hostOps2_1
    _ = W4 m ρ c (Proc.devRef .tc main_v7) := by host_skip hostOps2
    _ = W3 m ρ c (Proc.devRef .tc main_v7) := W4_of_ne m ρ c main_v7 (by decide)
    _ = W2 m ρ c (Proc.devRef .tc main_v7) := by host_skip hostOps1
    _ = W1 m ρ c (Proc.devRef .tc main_v7) := W2_of_ne m ρ c main_v7 (by decide)

theorem w9_w1_v3 : W9 (F := Ideal) m ρ c (Proc.devRef .tc main_v3) = W1 (F := Ideal) m ρ c (Proc.devRef .tc main_v3) :=
  calc W9 (F := Ideal) m ρ c (Proc.devRef .tc main_v3)
    _ = W8 m ρ c (Proc.devRef .tc main_v3) := by host_skip hostOps3
    _ = W7 m ρ c (Proc.devRef .tc main_v3) := W8_of_ne m ρ c main_v3 (by decide)
    _ = W6 m ρ c (Proc.devRef .tc main_v3) := by host_skip hostOps2_2
    _ = W5 m ρ c (Proc.devRef .tc main_v3) := by host_skip hostOps2_1
    _ = W4 m ρ c (Proc.devRef .tc main_v3) := by host_skip hostOps2
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)

/-- The scale row as first written: the [128] argument cast to [1, 128]. -/
theorem w1_v6 : W1 (F := Ideal) m ρ c (Proc.devRef .tc main_v6)
    = shapeCast S1x128 (m ((c.tc : Thread nD τ).loc main_arg7)) shapeCasts_S128_S1x128 := by
  show StableHlo.after hostOps0 (W0 (F := Ideal) m ρ c) (Proc.devRef .tc main_v6) = _
  simp only [hostOps0]
  after_results
  rfl

/-- The shift row as first written: the [128] argument cast to [1, 128]. -/
theorem w1_v7 : W1 (F := Ideal) m ρ c (Proc.devRef .tc main_v7)
    = shapeCast S1x128 (m ((c.tc : Thread nD τ).loc main_arg8)) shapeCasts_S128_S1x128 := by
  show StableHlo.after hostOps0 (W0 (F := Ideal) m ρ c) (Proc.devRef .tc main_v7) = _
  simp only [hostOps0]
  after_results
  rfl

/-- The weight copy as first written: the narrowing is the identity on extended reals. -/
theorem w1_v3 : W1 (F := Ideal) m ρ c (Proc.devRef .tc main_v3) = m ((c.tc : Thread nD τ).loc main_arg9) := by
  show StableHlo.after hostOps0 (W0 (F := Ideal) m ρ c) (Proc.devRef .tc main_v3) = _
  simp only [hostOps0]
  after_results
  rfl

/-! ## The host stretch before the fourth call: the mean and variance rows from the partial sums -/

theorem w9_w8_v19_1 : W9 (F := Ideal) m ρ c (Proc.devRef .tc main_v19_1) = W8 (F := Ideal) m ρ c (Proc.devRef .tc main_v19_1) := by
  host_skip hostOps3

theorem w9_w8_v27 : W9 (F := Ideal) m ρ c (Proc.devRef .tc main_v27) = W8 (F := Ideal) m ρ c (Proc.devRef .tc main_v27) := by
  host_skip hostOps3

/-- The mean row is the host's mean of the first array of partial sums. -/
theorem w9_v31 : W9 (F := Ideal) m ρ c (Proc.devRef .tc main_v31)
    = KStats.hostMean (p := 128) reducesTo_S25x1x128_S1x128_d0 h_S_ bcast_S_S1x128
        (W8 (F := Ideal) m ρ c (Proc.devRef .tc main_v28_0)) := by
  show StableHlo.after hostOps3 (W8 (F := Ideal) m ρ c) (Proc.devRef .tc main_v31) = _
  generalize W8 (F := Ideal) m ρ c = V
  simp only [hostOps3]
  after_results
  rfl

set_option maxHeartbeats 800000 in
/-- The variance row is the host's variance of the two arrays of partial sums. -/
theorem w9_v36 : W9 (F := Ideal) m ρ c (Proc.devRef .tc main_v36)
    = KStats.hostVar (p := 128) reducesTo_S25x1x128_S1x128_d0 h_S_ bcast_S_S1x128
        (W8 (F := Ideal) m ρ c (Proc.devRef .tc main_v28_0)) (W8 (F := Ideal) m ρ c (Proc.devRef .tc main_v28_1)) := by
  show StableHlo.after hostOps3 (W8 (F := Ideal) m ρ c) (Proc.devRef .tc main_v36) = _
  generalize W8 (F := Ideal) m ρ c = V
  simp only [hostOps3]
  after_results
  rfl

/-! ## The fourth call's inputs at its entry are the values of the stages -/

theorem v9_hr : (cur2 (V9 (F := Ideal) m ρ c main_v19_1) : M 50000 128) = hr m c := by
  funext i j
  exact (congrFun (w9_w8_v19_1 m ρ c) (ix2 i j)).trans (w8_hr m ρ c i j)

theorem v9_ag : (cur2 (V9 (F := Ideal) m ρ c main_v27) : M 50000 128) = ag m c := by
  funext i j
  exact (congrFun (w9_w8_v27 m ρ c) (ix2 i j)).trans (w8_ag m ρ c i j)

theorem v9_mean : (curRow (V9 (F := Ideal) m ρ c main_v31) : Vc 128) = meanK (y2 m c) := by
  funext j
  exact (congrFun (w9_v31 m ρ c) (ix2 0 j)).trans
    (KStats.hostMean_apply _ _ _ _ (y2 m c) (w8_psum m ρ c) j)

theorem v9_var : (curRow (V9 (F := Ideal) m ρ c main_v36) : Vc 128) = varK (y2 m c) := by
  funext j
  exact (congrFun (w9_v36 m ρ c) (ix2 0 j)).trans
    (KStats.hostVar_apply _ _ _ _ _ (y2 m c) (w8_psum m ρ c) (w8_psumsq m ρ c) j)

theorem v9_g2 : (curRow (V9 (F := Ideal) m ρ c main_v6) : Vc 128) = g2 m c := by
  funext j
  exact ((congrFun (w9_w1_v6 m ρ c) (ix2 0 j)).trans (congrFun (w1_v6 m ρ c) (ix2 0 j))).trans
    (shapeCast_a_1a_apply _ _ 0 j)

theorem v9_b2 : (curRow (V9 (F := Ideal) m ρ c main_v7) : Vc 128) = b2 m c := by
  funext j
  exact ((congrFun (w9_w1_v7 m ρ c) (ix2 0 j)).trans (congrFun (w1_v7 m ρ c) (ix2 0 j))).trans
    (shapeCast_a_1a_apply _ _ 0 j)

theorem v9_w3 : (cur2 (V9 (F := Ideal) m ρ c main_v3) : M 128 512) = w3 m c := by
  funext i j
  exact (congrFun (w9_w1_v3 m ρ c) (ix2 i j)).trans (congrFun (w1_v3 m ρ c) (ix2 i j))

/-- The product the fourth call computes from its inputs is the third product. -/
theorem prod_eq : Region3.prod (V9 (F := Ideal) m ρ) c = y3 m c := by
  unfold Region3.prod
  rw [v9_hr m ρ c, v9_ag m ρ c, v9_mean m ρ c, v9_var m ρ c, v9_g2 m ρ c, v9_b2 m ρ c, v9_w3 m ρ c]
  rfl

/-! ## The boundary after the fourth call -/

theorem w10_y3 (i : Fin 50000) (j : Fin 512) :
    W10 (F := Ideal) m ρ c (Proc.devRef .tc main_v37_0) (ix2 i j) = y3 m c i j :=
  (congrFun (W10_arr m ρ c 7) (ix2 i j)).trans
    ((Region3.y_apply (V9 m ρ) c i j).trans (congrFun (congrFun (prod_eq m ρ c) i) j))

theorem w10_psum (t : Fin 25) (j : Fin 512) :
    W10 (F := Ideal) m ρ c (Proc.devRef .tc main_v37_1) (ix3 t 0 j) = tileSum (y3 m c) t j :=
  (congrFun (W10_arr m ρ c 8) (ix3 t 0 j)).trans
    ((Region3.psum_apply (V9 m ρ) c t j).trans (congrArg (fun y => tileSum y t j) (prod_eq m ρ c)))

theorem w10_psumsq (t : Fin 25) (j : Fin 512) :
    W10 (F := Ideal) m ρ c (Proc.devRef .tc main_v37_2) (ix3 t 0 j) = tileSum (sq (y3 m c)) t j :=
  (congrFun (W10_arr m ρ c 9) (ix3 t 0 j)).trans
    ((Region3.psumsq_apply (V9 m ρ) c t j).trans (congrArg (fun y => tileSum (sq y) t j) (prod_eq m ρ c)))

end Cert.KernelIdeal.Chain
end
-- ==== Proof.Region4.lean ====
/-
  The fifth pallas_call over the whole arrays: point t normalises, scales and shifts rows 2000·t … 2000·t + 1999 of the third
  product with the given row vectors, adds the same rows of the input features, and clips at zero.
-/
import proofs.«421418_j84782654423196_3_alg».proof.Proof.Gen.KernelIdeal.Frame
import proofs.«421418_j84782654423196_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The offset of a whole-block access. -/
theorem hz : (![0, 0] : Fin 2 → Nat) = fun _ => 0 := funext fun a => by
  match a with | ⟨0, _⟩ => rfl | ⟨1, _⟩ => rfl

/-- A row vector broadcast down the 2000 rows reads its column. -/
theorem bcast_row (x : FVec Ideal S1x512 .f32) (p : Fin 2000) (q : Fin 512) :
    broadcastTo S2000x512 x broadcasts_S1x512_S2000x512 (ix2 p q) = x (ix2 0 q) :=
  broadcastTo_apply x _ (ix2 p q) (ix2 0 q) (fun a => by match a with | ⟨0, _⟩ => rfl | ⟨1, _⟩ => rfl)

/-- The body's result at row p, column q of the block: the block's element less the mean, times the inverse root of
    the variance plus ε, times the scale, plus the shift, plus the residual's element, clipped at zero. -/
theorem pay_apply (x0 x5 : Vec Ideal S2000x512 .f32) (x1 x2 x3 x4 : Vec Ideal S1x512 .f32) (p : Fin 2000) (q : Fin 512) :
    k4_pay1 (F := Ideal) x0 x4 x3 x1 x2 x5 (ix2 p q)
      = max ((x0 (ix2 p q) - x3 (ix2 0 q)) * Ideal.rsqrt (x4 (ix2 0 q) + eps) * x1 (ix2 0 q) + x2 (ix2 0 q) + x5 (ix2 p q)) 0 := by
  unfold k4_pay1
  simp only [shapeCast_self]
  rw [maximumf_apply, addf_apply, addf_apply, mulf_apply, mulf_apply, subf_apply, bcast_row, bcast_row, bcast_row, bcast_row]
  show max (_ * Ideal.rsqrt (x4 (ix2 0 q) + Ideal.ofBits .f32 0x3727C5AC#32) * _ + _ + _) (Ideal.ofBits .f32 0x00000000#32) = _
  rw [Ideal.ofBits_zero_f32]
  unfold Spec.eps
  rfl

/-- The same at any index of the block. -/
theorem pay_at (x0 x5 : Vec Ideal S2000x512 .f32) (x1 x2 x3 x4 : Vec Ideal S1x512 .f32) (j : S2000x512.Idx) :
    k4_pay1 (F := Ideal) x0 x4 x3 x1 x2 x5 j
      = max ((x0 j - x3 (ix2 0 ⟨(j 1).val, idx2_lt1 j⟩)) * Ideal.rsqrt (x4 (ix2 0 ⟨(j 1).val, idx2_lt1 j⟩) + eps)
          * x1 (ix2 0 ⟨(j 1).val, idx2_lt1 j⟩) + x2 (ix2 0 ⟨(j 1).val, idx2_lt1 j⟩) + x5 j) 0 := by
  obtain ⟨p, q, rfl⟩ : ∃ (p : Fin 2000) (q : Fin 512), j = ix2 p q := ⟨j 0, j 1, eq_ix2 j⟩
  exact pay_apply x0 x5 x1 x2 x3 x4 p q

/-- A rank-2 array of extended reals read at an index. -/
abbrev rd {n p : Nat} (a : (⟨2, ![n, p]⟩ : Shape).Idx → EReal) (i : (⟨2, ![n, p]⟩ : Shape).Idx) : EReal := a i

/-- The whole result array as one function of the region's entry arrays, index by index: the element less its
    column's mean, times the inverse root of the column's variance plus ε, times the scale, plus the shift, plus the
    residual's element, clipped at zero. -/
def G (c : Dev nD) : S50000x512.Idx → EReal := fun i =>
  max ((rd (V c main_v37_0) i - rd (V c main_v40) (ix2 0 ⟨(i 1).val, idx2_lt1 i⟩))
      * Ideal.rsqrt (rd (V c main_v45) (ix2 0 ⟨(i 1).val, idx2_lt1 i⟩) + eps)
      * rd (V c main_v8) (ix2 0 ⟨(i 1).val, idx2_lt1 i⟩)
      + rd (V c main_v9) (ix2 0 ⟨(i 1).val, idx2_lt1 i⟩)
      + rd (V c main_arg0) i) 0

/-- The block index maps over the grid: the three matrices' blocks are at (t, 0), the four row vectors' at (0, 0). -/
theorem idx_facts : ∀ t : Fin cfg4.N,
    win4_0.index t (0 : Fin 2) = t.val ∧ win4_0.index t (1 : Fin 2) = 0
  ∧ win4_5.index t (0 : Fin 2) = t.val ∧ win4_5.index t (1 : Fin 2) = 0
  ∧ win4_6.index t (0 : Fin 2) = t.val ∧ win4_6.index t (1 : Fin 2) = 0
  ∧ win4_1.index t (0 : Fin 2) = 0 ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0 :=
  (by decide +kernel : ∀ t : Fin grid4.N, _)

set_option maxHeartbeats 400000 in
/-- What point t writes back is block t of G. -/
theorem flushed_eq (c : Dev nD) (t : Fin cfg4.N) :
    (dat4 (F := Ideal) V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S2000x512) hz, View.ld_unit_zero (S := S1x512) hz]
  obtain ⟨a0, a1, f0, f1, o0, o1, s0, s1, b0, b1, m0, m1, v0, v1⟩ := idx_facts t
  funext j
  show k4_pay1 (iblk4 V c 0 t) (iblk4 V c 4 t) (iblk4 V c 3 t) (iblk4 V c 1 t) (iblk4 V c 2 t) (iblk4 V c 5 t) j = G V c (((cfg4.win 6).blk t).view.emb j)
  rw [pay_at]
  have hy : iblk4 V c 0 t j = rd (V c main_v37_0) (((cfg4.win 6).blk t).view.emb j) := by
    show rd (V c main_v37_0) (((cfg4.win 0).blk t).view.emb j) = _
    refine congrArg (rd (V c main_v37_0)) (funext fun a => Fin.ext ?_)
    match a with
    | ⟨0, _⟩ => show win4_0.index t (0 : Fin 2) * 2000 + 1 * (j 0).val = win4_6.index t (0 : Fin 2) * 2000 + 1 * (j 0).val; omega
    | ⟨1, _⟩ => show win4_0.index t (1 : Fin 2) * 512 + 1 * (j 1).val = win4_6.index t (1 : Fin 2) * 512 + 1 * (j 1).val; omega
  have hx : iblk4 V c 5 t j = rd (V c main_arg0) (((cfg4.win 6).blk t).view.emb j) := by
    show rd (V c main_arg0) (((cfg4.win 5).blk t).view.emb j) = _
    refine congrArg (rd (V c main_arg0)) (funext fun a => Fin.ext ?_)
    match a with
    | ⟨0, _⟩ => show win4_5.index t (0 : Fin 2) * 2000 + 1 * (j 0).val = win4_6.index t (0 : Fin 2) * 2000 + 1 * (j 0).val; omega
    | ⟨1, _⟩ => show win4_5.index t (1 : Fin 2) * 512 + 1 * (j 1).val = win4_6.index t (1 : Fin 2) * 512 + 1 * (j 1).val; omega
  have hmu : iblk4 V c 3 t (ix2 0 ⟨(j 1).val, idx2_lt1 (n0 := 2000) (n1 := 512) j⟩) = rd (V c main_v40) (ix2 0 ⟨((((cfg4.win 6).blk t).view.emb j) 1).val, idx2_lt1 _⟩) := by
    show rd (V c main_v40) (((cfg4.win 3).blk t).view.emb (ix2 0 ⟨(j 1).val, idx2_lt1 (n0 := 2000) (n1 := 512) j⟩)) = _
    refine congrArg (rd (V c main_v40)) (funext fun a => Fin.ext ?_)
    match a with
    | ⟨0, _⟩ => show win4_3.index t (0 : Fin 2) * 1 + 1 * 0 = 0; omega
    | ⟨1, _⟩ => show win4_3.index t (1 : Fin 2) * 512 + 1 * (j 1).val = win4_6.index t (1 : Fin 2) * 512 + 1 * (j 1).val; omega
  have hvar : iblk4 V c 4 t (ix2 0 ⟨(j 1).val, idx2_lt1 (n0 := 2000) (n1 := 512) j⟩) = rd (V c main_v45) (ix2 0 ⟨((((cfg4.win 6).blk t).view.emb j) 1).val, idx2_lt1 _⟩) := by
    show rd (V c main_v45) (((cfg4.win 4).blk t).view.emb (ix2 0 ⟨(j 1).val, idx2_lt1 (n0 := 2000) (n1 := 512) j⟩)) = _
    refine congrArg (rd (V c main_v45)) (funext fun a => Fin.ext ?_)
    match a with
    | ⟨0, _⟩ => show win4_4.index t (0 : Fin 2) * 1 + 1 * 0 = 0; omega
    | ⟨1, _⟩ => show win4_4.index t (1 : Fin 2) * 512 + 1 * (j 1).val = win4_6.index t (1 : Fin 2) * 512 + 1 * (j 1).val; omega
  have hg : iblk4 V c 1 t (ix2 0 ⟨(j 1).val, idx2_lt1 (n0 := 2000) (n1 := 512) j⟩) = rd (V c main_v8) (ix2 0 ⟨((((cfg4.win 6).blk t).view.emb j) 1).val, idx2_lt1 _⟩) := by
    show rd (V c main_v8) (((cfg4.win 1).blk t).view.emb (ix2 0 ⟨(j 1).val, idx2_lt1 (n0 := 2000) (n1 := 512) j⟩)) = _
    refine congrArg (rd (V c main_v8)) (funext fun a => Fin.ext ?_)
    match a with
    | ⟨0, _⟩ => show win4_1.index t (0 : Fin 2) * 1 + 1 * 0 = 0; omega
    | ⟨1, _⟩ => show win4_1.index t (1 : Fin 2) * 512 + 1 * (j 1).val = win4_6.index t (1 : Fin 2) * 512 + 1 * (j 1).val; omega
  have hb : iblk4 V c 2 t (ix2 0 ⟨(j 1).val, idx2_lt1 (n0 := 2000) (n1 := 512) j⟩) = rd (V c main_v9) (ix2 0 ⟨((((cfg4.win 6).blk t).view.emb j) 1).val, idx2_lt1 _⟩) := by
    show rd (V c main_v9) (((cfg4.win 2).blk t).view.emb (ix2 0 ⟨(j 1).val, idx2_lt1 (n0 := 2000) (n1 := 512) j⟩)) = _
    refine congrArg (rd (V c main_v9)) (funext fun a => Fin.ext ?_)
    match a with
    | ⟨0, _⟩ => show win4_2.index t (0 : Fin 2) * 1 + 1 * 0 = 0; omega
    | ⟨1, _⟩ => show win4_2.index t (1 : Fin 2) * 512 + 1 * (j 1).val = win4_6.index t (1 : Fin 2) * 512 + 1 * (j 1).val; omega
  rw [hy, hx, hmu, hvar, hg, hb]
  rfl

/-- An index of the array is in point t's block iff each coordinate is in the block's range on its axis. -/
theorem mem_blk (t : Fin cfg4.N) (i : S50000x512.Idx) :
    i ∈ ((cfg4.win 6).blk t).view.set ↔ ∀ a : Fin 2, win4_6.index t a * S2000x512.size a ≤ (i a).val ∧ (i a).val < win4_6.index t a * S2000x512.size a + S2000x512.size a := by
  show i ∈ ((View.whole main_v46).slice (win4_6.rect t)).set ↔ _
  rw [View.set_slice_whole, Rect.mem_set_unit]
  exact Iff.rfl

/-- Row r is in the block of point r / 2000. -/
theorem cover (i : S50000x512.Idx) : ∃ t : Fin cfg4.N, (cfg4.win 6).flush t = true ∧ i ∈ ((cfg4.win 6).blk t).view.set := by
  have hi0 : (i 0).val < 50000 := idx2_lt0 i
  have hi1 : (i 1).val < 512 := idx2_lt1 i
  have hN : cfg4.N = 25 := N_4
  obtain ⟨t, ht⟩ : ∃ t : Fin cfg4.N, t.val = (i 0).val / 2000 := ⟨⟨(i 0).val / 2000, by rw [hN]; omega⟩, rfl⟩
  obtain ⟨a0, a1, f0, f1, o0, o1, -⟩ := idx_facts t
  refine ⟨t, flush4_6 t, ?_⟩
  rw [mem_blk]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 512 ≤ (i 1).val ∧ (i 1).val < win4_6.index t (1 : Fin 2) * 512 + 512; omega

/-- The array after the run is G. -/
theorem final (c : Dev nD) : (dat4 (F := Ideal) V c).arrAt 6 cfg4.N = G V c :=
  (dat4 V c).arrAt_eq_of_cover 6 (G V c) (fun t _ => flushed_eq V c t) cover

/-- The result array after the region. -/
theorem out_apply (c : Dev nD) (i : Fin 50000) (j : Fin 512) :
    (dat4 (F := Ideal) V c).arrAt 6 cfg4.N (ix2 i j)
      = relu (add (bn (cur2 (V c main_v37_0)) (curRow (V c main_v40)) (curRow (V c main_v45)) (curRow (V c main_v8))
          (curRow (V c main_v9))) (cur2 (V c main_arg0))) i j := by
  rw [final]
  rfl

end Cert.KernelIdeal.Region4
end
-- ==== Proof.KChainD.lean ====
/-
  The last boundary: the result array holds the block's result over the tiled column statistics.
-/
import proofs.«421418_j84782654423196_3_alg».proof.Proof.Gen.KernelIdeal.Frame
import proofs.«421418_j84782654423196_3_alg».proof.Proof.Spec
import proofs.«421418_j84782654423196_3_alg».proof.Proof.Edge
import proofs.«421418_j84782654423196_3_alg».proof.Proof.KVals
import proofs.«421418_j84782654423196_3_alg».proof.Proof.KStats
import proofs.«421418_j84782654423196_3_alg».proof.Proof.KChainC
import proofs.«421418_j84782654423196_3_alg».proof.Proof.Region4
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec Cert.KernelIdeal.KVals

variable (m : (ℓ : Loc nD τ sig) → Buf (Elt Ideal) ℓ) (ρ : Dev nD → PrngReg) (c : Dev nD)

/-- A host stretch that does not write the buffer leaves it as it was. -/
local macro "host_skip" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The rows the first host stretch wrote, carried to the last call's entry

The last scale and shift rows are written once, before the first call; no later host stretch writes them and they are
arrays of none of the first four calls, so at the last call's entry they are as first written. -/

theorem w11_w1_v8 : W11 (F := Ideal) m ρ c (Proc.devRef .tc main_v8) = W1 (F := Ideal) m ρ c (Proc.devRef .tc main_v8) :=
  calc W11 (F := Ideal) m ρ c (Proc.devRef .tc main_v8)
    _ = W10 m ρ c (Proc.devRef .tc main_v8) := by host_skip hostOps4
    _ = W9 m ρ c (Proc.devRef .tc main_v8) := W10_of_ne m ρ c main_v8 (by decide)
    _ = W8 m ρ c (Proc.devRef .tc main_v8) := by host_skip hostOps3
    _ = W7 m ρ c (Proc.devRef .tc main_v8) := W8_of_ne m ρ c main_v8 (by decide)
    _ = W6 m ρ c (Proc.devRef .tc main_v8) := by host_skip hostOps2_2
    _ = W5 m ρ c (Proc.devRef .tc main_v8) := by host_skip hostOps2_1
    _ = W4 m ρ c (Proc.devRef .tc main_v8) := by host_skip hostOps2
    _ = W3 m ρ c (Proc.devRef .tc main_v8) := W4_of_ne m ρ c main_v8 (by decide)
    _ = W2 m ρ c (Proc.devRef .tc main_v8) := by host_skip hostOps1
    _ = W1 m ρ c (Proc.devRef .tc main_v8) := W2_of_ne m ρ c main_v8 (by decide)

theorem w11_w1_v9 : W11 (F := Ideal) m ρ c (Proc.devRef .tc main_v9) = W1 (F := Ideal) m ρ c (Proc.devRef .tc main_v9) :=
  calc W11 (F := Ideal) m ρ c (Proc.devRef .tc main_v9)
    _ = W10 m ρ c (Proc.devRef .tc main_v9) := by host_skip hostOps4
    _ = W9 m ρ c (Proc.devRef .tc main_v9) := W10_of_ne m ρ c main_v9 (by decide)
    _ = W8 m ρ c (Proc.devRef .tc main_v9) := by host_skip hostOps3
    _ = W7 m ρ c (Proc.devRef .tc main_v9) := W8_of_ne m ρ c main_v9 (by decide)
    _ = W6 m ρ c (Proc.devRef .tc main_v9) := by host_skip hostOps2_2
    _ = W5 m ρ c (Proc.devRef .tc main_v9) := by host_skip hostOps2_1
    _ = W4 m ρ c (Proc.devRef .tc main_v9) := by host_skip hostOps2
    _ = W3 m ρ c (Proc.devRef .tc main_v9) := W4_of_ne m ρ c main_v9 (by decide)
    _ = W2 m ρ c (Proc.devRef .tc main_v9) := by host_skip hostOps1
    _ = W1 m ρ c (Proc.devRef .tc main_v9) := W2_of_ne m ρ c main_v9 (by decide)

/-- The scale row as first written: the [512] argument cast to [1, 512]. -/
theorem w1_v8 : W1 (F := Ideal) m ρ c (Proc.devRef .tc main_v8)
    = shapeCast S1x512 (m ((c.tc : Thread nD τ).loc main_arg10)) shapeCasts_S512_S1x512 := by
  show StableHlo.after hostOps0 (W0 (F := Ideal) m ρ c) (Proc.devRef .tc main_v8) = _
  simp only [hostOps0]
  after_results
  rfl

/-- The shift row as first written: the [512] argument cast to [1, 512]. -/
theorem w1_v9 : W1 (F := Ideal) m ρ c (Proc.devRef .tc main_v9)
    = shapeCast S1x512 (m ((c.tc : Thread nD τ).loc main_arg11)) shapeCasts_S512_S1x512 := by
  show StableHlo.after hostOps0 (W0 (F := Ideal) m ρ c) (Proc.devRef .tc main_v9) = _
  simp only [hostOps0]
  after_results
  rfl

/-- The input features at the last call's entry are the launch memory: the last call reads them through an input
    window, and before it they are as after the whole program. -/
theorem w11_arg0 : W11 (F := Ideal) m ρ c (Proc.devRef .tc main_arg0) = m ((c.tc : Thread nD τ).loc main_arg0) :=
  ((W12_arr m ρ c 5).trans (((dat4 (V11 m ρ) c).arrAt_in 5 rfl _).trans (A_eq4 (V11 m ρ) c 5))).symm.trans
    (W12_main_arg0 m ρ c)

/-! ## The host stretch before the last call: the mean and variance rows from the partial sums -/

theorem w11_w10_v37_0 :
    W11 (F := Ideal) m ρ c (Proc.devRef .tc main_v37_0) = W10 (F := Ideal) m ρ c (Proc.devRef .tc main_v37_0) := by
  host_skip hostOps4

/-- The mean row is the host's mean of the first array of partial sums. -/
theorem w11_v40 : W11 (F := Ideal) m ρ c (Proc.devRef .tc main_v40)
    = KStats.hostMean (p := 512) reducesTo_S25x1x512_S1x512_d0 h_S_ bcast_S_S1x512
        (W10 (F := Ideal) m ρ c (Proc.devRef .tc main_v37_1)) := by
  show StableHlo.after hostOps4 (W10 (F := Ideal) m ρ c) (Proc.devRef .tc main_v40) = _
  generalize W10 (F := Ideal) m ρ c = V
  simp only [hostOps4]
  after_results
  rfl

set_option maxHeartbeats 800000 in
/-- The variance row is the host's variance of the two arrays of partial sums. -/
theorem w11_v45 : W11 (F := Ideal) m ρ c (Proc.devRef .tc main_v45)
    = KStats.hostVar (p := 512) reducesTo_S25x1x512_S1x512_d0 h_S_ bcast_S_S1x512
        (W10 (F := Ideal) m ρ c (Proc.devRef .tc main_v37_1)) (W10 (F := Ideal) m ρ c (Proc.devRef .tc main_v37_2)) := by
  show StableHlo.after hostOps4 (W10 (F := Ideal) m ρ c) (Proc.devRef .tc main_v45) = _
  generalize W10 (F := Ideal) m ρ c = V
  simp only [hostOps4]
  after_results
  rfl

/-! ## The last call's inputs at its entry are the values of the stages -/

theorem v11_y3 : (cur2 (V11 (F := Ideal) m ρ c main_v37_0) : M 50000 512) = y3 m c := by
  funext i j
  exact (congrFun (w11_w10_v37_0 m ρ c) (ix2 i j)).trans (w10_y3 m ρ c i j)

theorem v11_mean : (curRow (V11 (F := Ideal) m ρ c main_v40) : Vc 512) = meanK (y3 m c) := by
  funext j
  exact (congrFun (w11_v40 m ρ c) (ix2 0 j)).trans
    (KStats.hostMean_apply _ _ _ _ (y3 m c) (w10_psum m ρ c) j)

theorem v11_var : (curRow (V11 (F := Ideal) m ρ c main_v45) : Vc 512) = varK (y3 m c) := by
  funext j
  exact (congrFun (w11_v45 m ρ c) (ix2 0 j)).trans
    (KStats.hostVar_apply _ _ _ _ _ (y3 m c) (w10_psum m ρ c) (w10_psumsq m ρ c) j)

theorem v11_g3 : (curRow (V11 (F := Ideal) m ρ c main_v8) : Vc 512) = g3 m c := by
  funext j
  exact ((congrFun (w11_w1_v8 m ρ c) (ix2 0 j)).trans (congrFun (w1_v8 m ρ c) (ix2 0 j))).trans
    (shapeCast_a_1a_apply _ _ 0 j)

theorem v11_b3 : (curRow (V11 (F := Ideal) m ρ c main_v9) : Vc 512) = b3 m c := by
  funext j
  exact ((congrFun (w11_w1_v9 m ρ c) (ix2 0 j)).trans (congrFun (w1_v9 m ρ c) (ix2 0 j))).trans
    (shapeCast_a_1a_apply _ _ 0 j)

theorem v11_x : (cur2 (V11 (F := Ideal) m ρ c main_arg0) : M 50000 512) = x m c := by
  funext i j
  exact congrFun (w11_arg0 m ρ c) (ix2 i j)

/-! ## The last boundary -/

theorem w12_out (i : Fin 50000) (j : Fin 512) :
    W12 (F := Ideal) m ρ c (Proc.devRef .tc main_v46) (ix2 i j) = out m c i j := by
  refine (congrFun (W12_arr m ρ c 6) (ix2 i j)).trans ((Region4.out_apply (V11 m ρ) c i j).trans ?_)
  rw [v11_y3 m ρ c, v11_mean m ρ c, v11_var m ρ c, v11_g3 m ρ c, v11_b3 m ρ c, v11_x m ρ c]
  rfl

end Cert.KernelIdeal.Chain
end
-- ==== Proof.RefRun.lean ====
/-
  The idealized reference program as a straight line. @main is eighty-nine operations of its own and six calls of
  the functions it outlines: the column variance `_var` twice at width 128 and once (`_var_0`) at width 512, each
  nineteen operations and then the three of the select it calls (`_where`, `_where_1`: the fill value at its own
  type, its broadcast, the select under the broadcast predicate); the rectifier `relu` twice at width 128 and once
  (`relu_2`) at width 512, three operations each (the zero, its broadcast, the maximum). A call means its callee's
  body over the call's own buffers, so the program is the list `ops` of one hundred and sixty-four operations, the
  callees' written at their call sites over the calls' buffer records; the program equals the list run in order
  once sequencing is reassociated, and every buffer ends at the fold of the operations' results over the launch
  contents.

  In order, the list is: the first product `x · W₀` and its column mean; the first variance call; the centring, the
  scaling by the reciprocal root of variance plus epsilon, the affine pair, the first rectifier; the two rows of the
  edge table sliced and flattened; the product with the neighbour weight, the source index brought into range
  (fifty thousand added where negative), the gather of source rows, the scatter-add of them at the target rows
  over a zero array; the product with the self weight added to it, its column mean; the second variance call; the
  second normalisation, affine pair and rectifier; the last product at width 512 and its column mean; the third
  variance call; the third normalisation and affine pair, the residual addition of the input, the last rectifier.
-/
import proofs.«421418_j84782654423196_3_alg».proof.ReferenceIdeal
import proofs.«421418_j84782654423196_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: a callee's operations stand at its call site over the call's
    buffer record, its parameters replaced by the call's operands (an operand that is one of @main's own buffers
    as the typed reference it is). -/
abbrev ops : List (HloOp τ sig (Elt F)) :=
  [ binary main_arg0 main_arg2 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_cst (constant S_ .f32 0x00000000#32),
    binary main_v0 main_cst main_v1 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_0 (constant S_ .f32 0x47435000#32),
    unary main_cst_0 main_v2 (broadcastInDim S128 ![] bcast_S_S128 : (⟨S_, .f32⟩ : BufTy).Contents (Elt F) → (⟨S128, .f32⟩ : BufTy).Contents (Elt F)),
    binary main_v1 main_v2 main_v3 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v0 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v0 : TRef sig ⟨S50000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v0 main_v6 main_v7 (subf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3727C5AC#32),
    unary main_cst_1 main_v8 (broadcastInDim S128 ![] bcast_S_S128 : (⟨S_, .f32⟩ : BufTy).Contents (Elt F) → (⟨S128, .f32⟩ : BufTy).Contents (Elt F)),
    binary main_v4 main_v8 main_v9 (addf : (⟨S128, .f32⟩ : BufTy).Contents (Elt F) → (⟨S128, .f32⟩ : BufTy).Contents (Elt F) → (⟨S128, .f32⟩ : BufTy).Contents (Elt F)),
    unary main_v9 main_v10 (Host.rsqrt : (⟨S128, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v7 main_v12 main_v13 (mulf : (⟨S50000x128, .f32⟩ : BufTy).Contents (Elt F) → (⟨S50000x128, .f32⟩ : BufTy).Contents (Elt F) → (⟨S50000x128, .f32⟩ : BufTy).Contents (Elt F)),
    unary main_arg3 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (mulf : (⟨S50000x128, .f32⟩ : BufTy).Contents (Elt F) → (⟨S50000x128, .f32⟩ : BufTy).Contents (Elt F) → (⟨S50000x128, .f32⟩ : BufTy).Contents (Elt F)),
    unary main_arg4 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v19 : TRef sig ⟨S50000x128, .f32⟩) main_call1.v0 main_call1.v1 maximumf,
    unary main_arg1 main_v21 ((extractStridedSlice S1x800000 ![0, 0] · slices_S2x800000_S1x800000_0_0) : (⟨S2x800000, .i32⟩ : BufTy).Contents (Elt F) → (⟨S1x800000, .i32⟩ : BufTy).Contents (Elt F)),
    reshape main_v21 main_v22 rfl shapeCasts_S1x800000_S800000,
    unary main_arg1 main_v23 ((extractStridedSlice S1x800000 ![1, 0] · slices_S2x800000_S1x800000_1_0) : (⟨S2x800000, .i32⟩ : BufTy).Contents (Elt F) → (⟨S1x800000, .i32⟩ : BufTy).Contents (Elt F)),
    reshape main_v23 main_v24 rfl shapeCasts_S1x800000_S800000,
    binary main_v20 main_arg6 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_2 (constantI S_ 32 0#32),
    unary main_c_2 main_v26 (broadcastInDim S800000 ![] bcast_S_S800000 : (⟨S_, .i32⟩ : BufTy).Contents (Elt F) → (⟨S800000, .i32⟩ : BufTy).Contents (Elt F)),
    binary main_v22 main_v26 main_v27 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v28 (broadcastInDim S800000 ![] bcast_S_S800000 : (⟨S_, .i32⟩ : BufTy).Contents (Elt F) → (⟨S800000, .i32⟩ : BufTy).Contents (Elt F)),
    binary main_v22 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v22 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v25 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v33 (broadcastInDim S50000x128 ![] bcast_S_S50000x128 : (⟨S_, .f32⟩ : BufTy).Contents (Elt F) → (⟨S50000x128, .f32⟩ : BufTy).Contents (Elt F)),
    unary main_v24 main_v34 (broadcastInDim S800000x1 ![0] bcast_S800000_S800000x1_0 : (⟨S800000, .i32⟩ : BufTy).Contents (Elt F) → (⟨S800000x1, .i32⟩ : BufTy).Contents (Elt F)),
    ternary main_v33 main_v34 main_v32 main_v35 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v20 main_arg5 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v36 main_v35 main_v37 (addf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    binary main_v37 main_cst_5 main_v38 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    nullary main_c_7 (constantI S_ 32 0#32),
    TRef.nullary main_call2.cst (constant S_ .f32 0x00000000#32),
    TRef.binary (.of main_v37 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v37 : TRef sig ⟨S50000x128, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v40 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v37 main_v43 main_v44 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v45 (broadcastInDim S128 ![] bcast_S_S128 : (⟨S_, .f32⟩ : BufTy).Contents (Elt F) → (⟨S128, .f32⟩ : BufTy).Contents (Elt F)),
    binary main_v41 main_v45 main_v46 (addf : (⟨S128, .f32⟩ : BufTy).Contents (Elt F) → (⟨S128, .f32⟩ : BufTy).Contents (Elt F) → (⟨S128, .f32⟩ : BufTy).Contents (Elt F)),
    unary main_v46 main_v47 (Host.rsqrt : (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v44 main_v49 main_v50 (mulf : (⟨S50000x128, .f32⟩ : BufTy).Contents (Elt F) → (⟨S50000x128, .f32⟩ : BufTy).Contents (Elt F) → (⟨S50000x128, .f32⟩ : BufTy).Contents (Elt F)),
    unary main_arg7 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (mulf : (⟨S50000x128, .f32⟩ : BufTy).Contents (Elt F) → (⟨S50000x128, .f32⟩ : BufTy).Contents (Elt F) → (⟨S50000x128, .f32⟩ : BufTy).Contents (Elt F)),
    unary main_arg8 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v56 : TRef sig ⟨S50000x128, .f32⟩) main_call3.v0 main_call3.v1 maximumf,
    binary main_v57 main_arg9 main_v58 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    nullary main_cst_9 (constant S_ .f32 0x00000000#32),
    binary main_v58 main_cst_9 main_v59 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    nullary main_cst_10 (constant S_ .f32 0x47435000#32),
    unary main_cst_10 main_v60 (broadcastInDim S512 ![] bcast_S_S512 : (⟨S_, .f32⟩ : BufTy).Contents (Elt F) → (⟨S512, .f32⟩ : BufTy).Contents (Elt F)),
    binary main_v59 main_v60 main_v61 (Host.divf : (⟨S512, .f32⟩ : BufTy).Contents (Elt F) → (⟨S512, .f32⟩ : BufTy).Contents (Elt F) → (⟨S512, .f32⟩ : BufTy).Contents (Elt F)),
    nullary main_c_11 (constantI S_ 32 0#32),
    TRef.nullary main_call4.cst (constant S_ .f32 0x00000000#32),
    TRef.binary (.of main_v58 : TRef sig ⟨S50000x512, .f32⟩) main_call4.cst main_call4.v0 (fun x v => Host.reduceAdd x v reducesTo_S50000x512_S512_d0 h_S_),
    TRef.unary main_call4.v0 main_call4.v1 (broadcastInDim S1x512 ![1] bcast_S512_S1x512_1),
    TRef.nullary main_call4.cst_0 (constant S_ .f32 0x47435000#32),
    TRef.unary main_call4.cst_0 main_call4.v2 (broadcastInDim S1x512 ![] bcast_S_S1x512),
    TRef.binary main_call4.v1 main_call4.v2 main_call4.v3 Host.divf,
    TRef.unary main_call4.v3 main_call4.v4 (broadcastInDim S50000x512 ![0, 1] bcast_S1x512_S50000x512_0_1),
    TRef.binary (.of main_v58 : TRef sig ⟨S50000x512, .f32⟩) main_call4.v4 main_call4.v5 subf,
    TRef.binary main_call4.v5 main_call4.v5 main_call4.v6 mulf,
    TRef.unary (.of main_c_11 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x512_S512_d0 h_S_),
    TRef.unary main_call4.v8 main_call4.v10 (broadcastInDim S512 ![] bcast_S_S512),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S512 ![] bcast_S_S512),
    TRef.ternary main_call4.v12 main_call4.v11 main_call4.call0.v1 main_call4.call0.v2 (fun p a b => select (broadcastInDim S512 ![] bcast_S_S512 p) a b),
    unary main_v61 main_v63 (broadcastInDim S1x512 ![1] bcast_S512_S1x512_1 : (⟨S512, .f32⟩ : BufTy).Contents (Elt F) → (⟨S1x512, .f32⟩ : BufTy).Contents (Elt F)),
    unary main_v63 main_v64 (broadcastInDim S50000x512 ![0, 1] bcast_S1x512_S50000x512_0_1 : (⟨S1x512, .f32⟩ : BufTy).Contents (Elt F) → (⟨S50000x512, .f32⟩ : BufTy).Contents (Elt F)),
    binary main_v58 main_v64 main_v65 (subf : (⟨S50000x512, .f32⟩ : BufTy).Contents (Elt F) → (⟨S50000x512, .f32⟩ : BufTy).Contents (Elt F) → (⟨S50000x512, .f32⟩ : BufTy).Contents (Elt F)),
    nullary main_cst_12 (constant S_ .f32 0x3727C5AC#32),
    unary main_cst_12 main_v66 (broadcastInDim S512 ![] bcast_S_S512 : (⟨S_, .f32⟩ : BufTy).Contents (Elt F) → (⟨S512, .f32⟩ : BufTy).Contents (Elt F)),
    binary main_v62 main_v66 main_v67 (addf : (⟨S512, .f32⟩ : BufTy).Contents (Elt F) → (⟨S512, .f32⟩ : BufTy).Contents (Elt F) → (⟨S512, .f32⟩ : BufTy).Contents (Elt F)),
    unary main_v67 main_v68 (Host.rsqrt : (⟨S512, .f32⟩ : BufTy).Contents (Elt F) → (⟨S512, .f32⟩ : BufTy).Contents (Elt F)),
    unary main_v68 main_v69 (broadcastInDim S1x512 ![1] bcast_S512_S1x512_1 : (⟨S512, .f32⟩ : BufTy).Contents (Elt F) → (⟨S1x512, .f32⟩ : BufTy).Contents (Elt F)),
    unary main_v69 main_v70 (broadcastInDim S50000x512 ![0, 1] bcast_S1x512_S50000x512_0_1 : (⟨S1x512, .f32⟩ : BufTy).Contents (Elt F) → (⟨S50000x512, .f32⟩ : BufTy).Contents (Elt F)),
    binary main_v65 main_v70 main_v71 (mulf : (⟨S50000x512, .f32⟩ : BufTy).Contents (Elt F) → (⟨S50000x512, .f32⟩ : BufTy).Contents (Elt F) → (⟨S50000x512, .f32⟩ : BufTy).Contents (Elt F)),
    unary main_arg10 main_v72 (broadcastInDim S1x512 ![1] bcast_S512_S1x512_1 : (⟨S512, .f32⟩ : BufTy).Contents (Elt F) → (⟨S1x512, .f32⟩ : BufTy).Contents (Elt F)),
    unary main_v72 main_v73 (broadcastInDim S50000x512 ![0, 1] bcast_S1x512_S50000x512_0_1 : (⟨S1x512, .f32⟩ : BufTy).Contents (Elt F) → (⟨S50000x512, .f32⟩ : BufTy).Contents (Elt F)),
    binary main_v71 main_v73 main_v74 (mulf : (⟨S50000x512, .f32⟩ : BufTy).Contents (Elt F) → (⟨S50000x512, .f32⟩ : BufTy).Contents (Elt F) → (⟨S50000x512, .f32⟩ : BufTy).Contents (Elt F)),
    unary main_arg11 main_v75 (broadcastInDim S1x512 ![1] bcast_S512_S1x512_1 : (⟨S512, .f32⟩ : BufTy).Contents (Elt F) → (⟨S1x512, .f32⟩ : BufTy).Contents (Elt F)),
    unary main_v75 main_v76 (broadcastInDim S50000x512 ![0, 1] bcast_S1x512_S50000x512_0_1 : (⟨S1x512, .f32⟩ : BufTy).Contents (Elt F) → (⟨S50000x512, .f32⟩ : BufTy).Contents (Elt F)),
    binary main_v74 main_v76 main_v77 (addf : (⟨S50000x512, .f32⟩ : BufTy).Contents (Elt F) → (⟨S50000x512, .f32⟩ : BufTy).Contents (Elt F) → (⟨S50000x512, .f32⟩ : BufTy).Contents (Elt F)),
    binary main_v77 main_arg0 main_v78 (addf : (⟨S50000x512, .f32⟩ : BufTy).Contents (Elt F) → (⟨S50000x512, .f32⟩ : BufTy).Contents (Elt F) → (⟨S50000x512, .f32⟩ : BufTy).Contents (Elt F)),
    TRef.nullary main_call5.cst (constant S_ .f32 0x00000000#32),
    TRef.unary main_call5.cst main_call5.v0 (broadcastInDim S50000x512 ![] bcast_S_S50000x512),
    TRef.binary (.of main_v78 : TRef sig ⟨S50000x512, .f32⟩) main_call5.v0 main_call5.v1 maximumf ]

-- one hundred and sixty-four binds re-associated: the rewriting under the chain recurses once per statement
set_option maxRecDepth 8192 in
set_option maxHeartbeats 4000000 in
/-- @main is that straight line: its two windows in order, the functions' definitions unfolded at their calls and
    the records at their fields, both sides one chain of steps once sequencing is reassociated. -/
theorem main_eq (c : Dev nD) : main (F := F) c = seq ops := by
  simp only [main, main_part0, main_part1, fn_var.body, fn_var_0.body, fn_where.body, fn_where_1.body, fn_relu.body,
    fn_relu_2.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first stage: the product `x · W₀`, its column mean and variance, the normalisation, the affine pair and the first
    rectifier; its last line writes the first activation. -/
abbrev ops1 : List (HloOp τ sig (Elt F)) :=
  [ binary main_arg0 main_arg2 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_cst (constant S_ .f32 0x00000000#32),
    binary main_v0 main_cst main_v1 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_0 (constant S_ .f32 0x47435000#32),
    unary main_cst_0 main_v2 (broadcastInDim S128 ![] bcast_S_S128 : (⟨S_, .f32⟩ : BufTy).Contents (Elt F) → (⟨S128, .f32⟩ : BufTy).Contents (Elt F)),
    binary main_v1 main_v2 main_v3 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v0 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v0 : TRef sig ⟨S50000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v0 main_v6 main_v7 (subf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3727C5AC#32),
    unary main_cst_1 main_v8 (broadcastInDim S128 ![] bcast_S_S128 : (⟨S_, .f32⟩ : BufTy).Contents (Elt F) → (⟨S128, .f32⟩ : BufTy).Contents (Elt F)),
    binary main_v4 main_v8 main_v9 (addf : (⟨S128, .f32⟩ : BufTy).Contents (Elt F) → (⟨S128, .f32⟩ : BufTy).Contents (Elt F) → (⟨S128, .f32⟩ : BufTy).Contents (Elt F)),
    unary main_v9 main_v10 (Host.rsqrt : (⟨S128, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v7 main_v12 main_v13 (mulf : (⟨S50000x128, .f32⟩ : BufTy).Contents (Elt F) → (⟨S50000x128, .f32⟩ : BufTy).Contents (Elt F) → (⟨S50000x128, .f32⟩ : BufTy).Contents (Elt F)),
    unary main_arg3 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (mulf : (⟨S50000x128, .f32⟩ : BufTy).Contents (Elt F) → (⟨S50000x128, .f32⟩ : BufTy).Contents (Elt F) → (⟨S50000x128, .f32⟩ : BufTy).Contents (Elt F)),
    unary main_arg4 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v19 : TRef sig ⟨S50000x128, .f32⟩) main_call1.v0 main_call1.v1 maximumf ]

/-- The second stage: the two rows of the edge table, the product with the neighbour weight, the source index brought into
    range, the gather, the scatter-add over the zero array, the product with the self weight and the sum; its last line
    writes the second pre-activation. -/
abbrev ops2 : List (HloOp τ sig (Elt F)) :=
  [ unary main_arg1 main_v21 ((extractStridedSlice S1x800000 ![0, 0] · slices_S2x800000_S1x800000_0_0) : (⟨S2x800000, .i32⟩ : BufTy).Contents (Elt F) → (⟨S1x800000, .i32⟩ : BufTy).Contents (Elt F)),
    reshape main_v21 main_v22 rfl shapeCasts_S1x800000_S800000,
    unary main_arg1 main_v23 ((extractStridedSlice S1x800000 ![1, 0] · slices_S2x800000_S1x800000_1_0) : (⟨S2x800000, .i32⟩ : BufTy).Contents (Elt F) → (⟨S1x800000, .i32⟩ : BufTy).Contents (Elt F)),
    reshape main_v23 main_v24 rfl shapeCasts_S1x800000_S800000,
    binary main_v20 main_arg6 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_2 (constantI S_ 32 0#32),
    unary main_c_2 main_v26 (broadcastInDim S800000 ![] bcast_S_S800000 : (⟨S_, .i32⟩ : BufTy).Contents (Elt F) → (⟨S800000, .i32⟩ : BufTy).Contents (Elt F)),
    binary main_v22 main_v26 main_v27 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v28 (broadcastInDim S800000 ![] bcast_S_S800000 : (⟨S_, .i32⟩ : BufTy).Contents (Elt F) → (⟨S800000, .i32⟩ : BufTy).Contents (Elt F)),
    binary main_v22 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v22 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v25 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v33 (broadcastInDim S50000x128 ![] bcast_S_S50000x128 : (⟨S_, .f32⟩ : BufTy).Contents (Elt F) → (⟨S50000x128, .f32⟩ : BufTy).Contents (Elt F)),
    unary main_v24 main_v34 (broadcastInDim S800000x1 ![0] bcast_S800000_S800000x1_0 : (⟨S800000, .i32⟩ : BufTy).Contents (Elt F) → (⟨S800000x1, .i32⟩ : BufTy).Contents (Elt F)),
    ternary main_v33 main_v34 main_v32 main_v35 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v20 main_arg5 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v36 main_v35 main_v37 (addf : (⟨S50000x128, .f32⟩ : BufTy).Contents (Elt F) → (⟨S50000x128, .f32⟩ : BufTy).Contents (Elt F) → (⟨S50000x128, .f32⟩ : BufTy).Contents (Elt F)) ]

/-- The third stage: the second pre-activation's column mean and variance, the normalisation, the affine pair and the second
    rectifier; its last line writes the second activation. -/
abbrev ops3 : List (HloOp τ sig (Elt F)) :=
  [ nullary main_cst_5 (constant S_ .f32 0x00000000#32),
    binary main_v37 main_cst_5 main_v38 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    nullary main_c_7 (constantI S_ 32 0#32),
    TRef.nullary main_call2.cst (constant S_ .f32 0x00000000#32),
    TRef.binary (.of main_v37 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v37 : TRef sig ⟨S50000x128, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v40 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v37 main_v43 main_v44 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v45 (broadcastInDim S128 ![] bcast_S_S128 : (⟨S_, .f32⟩ : BufTy).Contents (Elt F) → (⟨S128, .f32⟩ : BufTy).Contents (Elt F)),
    binary main_v41 main_v45 main_v46 (addf : (⟨S128, .f32⟩ : BufTy).Contents (Elt F) → (⟨S128, .f32⟩ : BufTy).Contents (Elt F) → (⟨S128, .f32⟩ : BufTy).Contents (Elt F)),
    unary main_v46 main_v47 (Host.rsqrt : (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v44 main_v49 main_v50 (mulf : (⟨S50000x128, .f32⟩ : BufTy).Contents (Elt F) → (⟨S50000x128, .f32⟩ : BufTy).Contents (Elt F) → (⟨S50000x128, .f32⟩ : BufTy).Contents (Elt F)),
    unary main_arg7 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (mulf : (⟨S50000x128, .f32⟩ : BufTy).Contents (Elt F) → (⟨S50000x128, .f32⟩ : BufTy).Contents (Elt F) → (⟨S50000x128, .f32⟩ : BufTy).Contents (Elt F)),
    unary main_arg8 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v56 : TRef sig ⟨S50000x128, .f32⟩) main_call3.v0 main_call3.v1 maximumf ]

/-- The fourth stage: the product at width 512, its column mean and variance, the normalisation, the affine pair, the
    residual addition of the input and the last rectifier; its last line writes the result. -/
abbrev ops4 : List (HloOp τ sig (Elt F)) :=
  [ binary main_v57 main_arg9 main_v58 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    nullary main_cst_9 (constant S_ .f32 0x00000000#32),
    binary main_v58 main_cst_9 main_v59 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    nullary main_cst_10 (constant S_ .f32 0x47435000#32),
    unary main_cst_10 main_v60 (broadcastInDim S512 ![] bcast_S_S512 : (⟨S_, .f32⟩ : BufTy).Contents (Elt F) → (⟨S512, .f32⟩ : BufTy).Contents (Elt F)),
    binary main_v59 main_v60 main_v61 (Host.divf : (⟨S512, .f32⟩ : BufTy).Contents (Elt F) → (⟨S512, .f32⟩ : BufTy).Contents (Elt F) → (⟨S512, .f32⟩ : BufTy).Contents (Elt F)),
    nullary main_c_11 (constantI S_ 32 0#32),
    TRef.nullary main_call4.cst (constant S_ .f32 0x00000000#32),
    TRef.binary (.of main_v58 : TRef sig ⟨S50000x512, .f32⟩) main_call4.cst main_call4.v0 (fun x v => Host.reduceAdd x v reducesTo_S50000x512_S512_d0 h_S_),
    TRef.unary main_call4.v0 main_call4.v1 (broadcastInDim S1x512 ![1] bcast_S512_S1x512_1),
    TRef.nullary main_call4.cst_0 (constant S_ .f32 0x47435000#32),
    TRef.unary main_call4.cst_0 main_call4.v2 (broadcastInDim S1x512 ![] bcast_S_S1x512),
    TRef.binary main_call4.v1 main_call4.v2 main_call4.v3 Host.divf,
    TRef.unary main_call4.v3 main_call4.v4 (broadcastInDim S50000x512 ![0, 1] bcast_S1x512_S50000x512_0_1),
    TRef.binary (.of main_v58 : TRef sig ⟨S50000x512, .f32⟩) main_call4.v4 main_call4.v5 subf,
    TRef.binary main_call4.v5 main_call4.v5 main_call4.v6 mulf,
    TRef.unary (.of main_c_11 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x512_S512_d0 h_S_),
    TRef.unary main_call4.v8 main_call4.v10 (broadcastInDim S512 ![] bcast_S_S512),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S512 ![] bcast_S_S512),
    TRef.ternary main_call4.v12 main_call4.v11 main_call4.call0.v1 main_call4.call0.v2 (fun p a b => select (broadcastInDim S512 ![] bcast_S_S512 p) a b),
    unary main_v61 main_v63 (broadcastInDim S1x512 ![1] bcast_S512_S1x512_1 : (⟨S512, .f32⟩ : BufTy).Contents (Elt F) → (⟨S1x512, .f32⟩ : BufTy).Contents (Elt F)),
    unary main_v63 main_v64 (broadcastInDim S50000x512 ![0, 1] bcast_S1x512_S50000x512_0_1 : (⟨S1x512, .f32⟩ : BufTy).Contents (Elt F) → (⟨S50000x512, .f32⟩ : BufTy).Contents (Elt F)),
    binary main_v58 main_v64 main_v65 (subf : (⟨S50000x512, .f32⟩ : BufTy).Contents (Elt F) → (⟨S50000x512, .f32⟩ : BufTy).Contents (Elt F) → (⟨S50000x512, .f32⟩ : BufTy).Contents (Elt F)),
    nullary main_cst_12 (constant S_ .f32 0x3727C5AC#32),
    unary main_cst_12 main_v66 (broadcastInDim S512 ![] bcast_S_S512 : (⟨S_, .f32⟩ : BufTy).Contents (Elt F) → (⟨S512, .f32⟩ : BufTy).Contents (Elt F)),
    binary main_v62 main_v66 main_v67 (addf : (⟨S512, .f32⟩ : BufTy).Contents (Elt F) → (⟨S512, .f32⟩ : BufTy).Contents (Elt F) → (⟨S512, .f32⟩ : BufTy).Contents (Elt F)),
    unary main_v67 main_v68 (Host.rsqrt : (⟨S512, .f32⟩ : BufTy).Contents (Elt F) → (⟨S512, .f32⟩ : BufTy).Contents (Elt F)),
    unary main_v68 main_v69 (broadcastInDim S1x512 ![1] bcast_S512_S1x512_1 : (⟨S512, .f32⟩ : BufTy).Contents (Elt F) → (⟨S1x512, .f32⟩ : BufTy).Contents (Elt F)),
    unary main_v69 main_v70 (broadcastInDim S50000x512 ![0, 1] bcast_S1x512_S50000x512_0_1 : (⟨S1x512, .f32⟩ : BufTy).Contents (Elt F) → (⟨S50000x512, .f32⟩ : BufTy).Contents (Elt F)),
    binary main_v65 main_v70 main_v71 (mulf : (⟨S50000x512, .f32⟩ : BufTy).Contents (Elt F) → (⟨S50000x512, .f32⟩ : BufTy).Contents (Elt F) → (⟨S50000x512, .f32⟩ : BufTy).Contents (Elt F)),
    unary main_arg10 main_v72 (broadcastInDim S1x512 ![1] bcast_S512_S1x512_1 : (⟨S512, .f32⟩ : BufTy).Contents (Elt F) → (⟨S1x512, .f32⟩ : BufTy).Contents (Elt F)),
    unary main_v72 main_v73 (broadcastInDim S50000x512 ![0, 1] bcast_S1x512_S50000x512_0_1 : (⟨S1x512, .f32⟩ : BufTy).Contents (Elt F) → (⟨S50000x512, .f32⟩ : BufTy).Contents (Elt F)),
    binary main_v71 main_v73 main_v74 (mulf : (⟨S50000x512, .f32⟩ : BufTy).Contents (Elt F) → (⟨S50000x512, .f32⟩ : BufTy).Contents (Elt F) → (⟨S50000x512, .f32⟩ : BufTy).Contents (Elt F)),
    unary main_arg11 main_v75 (broadcastInDim S1x512 ![1] bcast_S512_S1x512_1 : (⟨S512, .f32⟩ : BufTy).Contents (Elt F) → (⟨S1x512, .f32⟩ : BufTy).Contents (Elt F)),
    unary main_v75 main_v76 (broadcastInDim S50000x512 ![0, 1] bcast_S1x512_S50000x512_0_1 : (⟨S1x512, .f32⟩ : BufTy).Contents (Elt F) → (⟨S50000x512, .f32⟩ : BufTy).Contents (Elt F)),
    binary main_v74 main_v76 main_v77 (addf : (⟨S50000x512, .f32⟩ : BufTy).Contents (Elt F) → (⟨S50000x512, .f32⟩ : BufTy).Contents (Elt F) → (⟨S50000x512, .f32⟩ : BufTy).Contents (Elt F)),
    binary main_v77 main_arg0 main_v78 (addf : (⟨S50000x512, .f32⟩ : BufTy).Contents (Elt F) → (⟨S50000x512, .f32⟩ : BufTy).Contents (Elt F) → (⟨S50000x512, .f32⟩ : BufTy).Contents (Elt F)),
    TRef.nullary main_call5.cst (constant S_ .f32 0x00000000#32),
    TRef.unary main_call5.cst main_call5.v0 (broadcastInDim S50000x512 ![] bcast_S_S50000x512),
    TRef.binary (.of main_v78 : TRef sig ⟨S50000x512, .f32⟩) main_call5.v0 main_call5.v1 maximumf ]

set_option maxRecDepth 8192 in
/-- The line is its four stages in order. -/
theorem ops_split : (ops : List (HloOp τ sig (Elt F))) = ops1 ++ ops2 ++ ops3 ++ ops4 := rfl

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.Run

end
-- ==== Proof.RefHand_Stages.lean ====
/-
  The stages of the reference, each read at an index over arbitrary operand arrays: a product of two matrices is the
  sum over the contracted coordinate, a column sum over the rows divided by the count is the column mean, the variance
  function is the mean of the squared deviations, and the normalise, scale, shift and clip lines are the entrywise formula.
-/
import proofs.«421418_j84782654423196_3_alg».proof.ReferenceIdeal
import proofs.«421418_j84782654423196_3_alg».proof.Proof.Spec
import proofs.«421418_j84782654423196_3_alg».proof.Proof.Edge
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Mathlib.Tactic.NormNum

noncomputable section

open scoped BigOperators

namespace Cert.ReferenceIdeal.Stages

open Idealize.ShloMosaic Idealize.ShloMosaic.ValueIdx
open Cert.ReferenceIdeal Cert.Spec

variable [Facts₀]
open Facts₀

/-! ## The three matrix products -/

abbrev d1 := dot_S50000x512_S512x128_S50000x128_1_0_0_1_n_n
abbrev d2 := dot_S50000x128_S128x128_S50000x128_1_0_0_1_n_n
abbrev d3 := dot_S50000x128_S128x512_S50000x512_1_0_0_1_n_n

set_option maxHeartbeats 50000

theorem d1_lhs0 (i : S50000x128.Idx) (q : d1.contr.Idx) : (d1.lhsIdx i q 0).val = (i 0).val := by
  unfold DotDims.lhsIdx
  rw [dif_neg (show ¬(0 : Fin S50000x512.rank) ∈ d1.lhsBatch from List.not_mem_nil),
    dif_pos (show (0 : Fin S50000x512.rank) ∈ d1.lhsNonContracting from List.mem_singleton.mpr rfl)]
  rfl
theorem d1_lhs1 (i : S50000x128.Idx) (q : d1.contr.Idx) :
    (d1.lhsIdx i q 1).val = (q ⟨0, (show 0 < d1.contr.rank from Nat.one_pos)⟩).val :=
  d1.lhsIdx_val_of_single rfl i q
theorem d1_rhs0 (i : S50000x128.Idx) (q : d1.contr.Idx) :
    (d1.rhsIdx i q 0).val = (q ⟨0, (show 0 < d1.contr.rank from Nat.one_pos)⟩).val :=
  d1.rhsIdx_val_of_single rfl i q
theorem d1_rhs1 (i : S50000x128.Idx) (q : d1.contr.Idx) : (d1.rhsIdx i q 1).val = (i 1).val := by
  unfold DotDims.rhsIdx
  rw [dif_neg (show ¬(1 : Fin S512x128.rank) ∈ d1.rhsBatch from List.not_mem_nil),
    dif_pos (show (1 : Fin S512x128.rank) ∈ d1.rhsNonContracting from List.mem_singleton.mpr rfl)]
  rfl

/-- The product at (i, j): the sum over the 512 contracted coordinates of the left entry times the right entry. -/
theorem dot1_apply (a : FVec Ideal S50000x512 .f32) (b : FVec Ideal S512x128 .f32) (i : Fin 50000) (j : Fin 128) :
    Host.dotGeneral d1 none a b (ix2 i j) = mm (cur2 a) (cur2 b) i j := by
  simp only [Host.dotGeneral]
  rw [Ideal.dotGeneral_apply, ← Equiv.sum_comp (contrEquiv1 d1 512 rfl rfl).symm]
  refine Finset.sum_congr rfl fun k _ => ?_
  have hk := contrEquiv1_symm_val d1 512 rfl rfl k
  have el : d1.lhsIdx (ix2 i j) ((contrEquiv1 d1 512 rfl rfl).symm k) = ix2 i k := funext fun a => Fin.ext (by
    match a with
    | ⟨0, _⟩ => exact d1_lhs0 _ _
    | ⟨1, _⟩ => exact (d1_lhs1 _ _).trans hk)
  have er : d1.rhsIdx (ix2 i j) ((contrEquiv1 d1 512 rfl rfl).symm k) = ix2 k j := funext fun a => Fin.ext (by
    match a with
    | ⟨0, _⟩ => exact (d1_rhs0 _ _).trans hk
    | ⟨1, _⟩ => exact d1_rhs1 _ _)
  rw [el, er]

theorem d2_lhs0 (i : S50000x128.Idx) (q : d2.contr.Idx) : (d2.lhsIdx i q 0).val = (i 0).val := by
  unfold DotDims.lhsIdx
  rw [dif_neg (show ¬(0 : Fin S50000x128.rank) ∈ d2.lhsBatch from List.not_mem_nil),
    dif_pos (show (0 : Fin S50000x128.rank) ∈ d2.lhsNonContracting from List.mem_singleton.mpr rfl)]
  rfl
theorem d2_lhs1 (i : S50000x128.Idx) (q : d2.contr.Idx) :
    (d2.lhsIdx i q 1).val = (q ⟨0, (show 0 < d2.contr.rank from Nat.one_pos)⟩).val :=
  d2.lhsIdx_val_of_single rfl i q
theorem d2_rhs0 (i : S50000x128.Idx) (q : d2.contr.Idx) :
    (d2.rhsIdx i q 0).val = (q ⟨0, (show 0 < d2.contr.rank from Nat.one_pos)⟩).val :=
  d2.rhsIdx_val_of_single rfl i q
theorem d2_rhs1 (i : S50000x128.Idx) (q : d2.contr.Idx) : (d2.rhsIdx i q 1).val = (i 1).val := by
  unfold DotDims.rhsIdx
  rw [dif_neg (show ¬(1 : Fin S128x128.rank) ∈ d2.rhsBatch from List.not_mem_nil),
    dif_pos (show (1 : Fin S128x128.rank) ∈ d2.rhsNonContracting from List.mem_singleton.mpr rfl)]
  rfl

/-- The product at (i, j): the sum over the 128 contracted coordinates of the left entry times the right entry. -/
theorem dot2_apply (a : FVec Ideal S50000x128 .f32) (b : FVec Ideal S128x128 .f32) (i : Fin 50000) (j : Fin 128) :
    Host.dotGeneral d2 none a b (ix2 i j) = mm (cur2 a) (cur2 b) i j := by
  simp only [Host.dotGeneral]
  rw [Ideal.dotGeneral_apply, ← Equiv.sum_comp (contrEquiv1 d2 128 rfl rfl).symm]
  refine Finset.sum_congr rfl fun k _ => ?_
  have hk := contrEquiv1_symm_val d2 128 rfl rfl k
  have el : d2.lhsIdx (ix2 i j) ((contrEquiv1 d2 128 rfl rfl).symm k) = ix2 i k := funext fun a => Fin.ext (by
    match a with
    | ⟨0, _⟩ => exact d2_lhs0 _ _
    | ⟨1, _⟩ => exact (d2_lhs1 _ _).trans hk)
  have er : d2.rhsIdx (ix2 i j) ((contrEquiv1 d2 128 rfl rfl).symm k) = ix2 k j := funext fun a => Fin.ext (by
    match a with
    | ⟨0, _⟩ => exact (d2_rhs0 _ _).trans hk
    | ⟨1, _⟩ => exact d2_rhs1 _ _)
  rw [el, er]

theorem d3_lhs0 (i : S50000x512.Idx) (q : d3.contr.Idx) : (d3.lhsIdx i q 0).val = (i 0).val := by
  unfold DotDims.lhsIdx
  rw [dif_neg (show ¬(0 : Fin S50000x128.rank) ∈ d3.lhsBatch from List.not_mem_nil),
    dif_pos (show (0 : Fin S50000x128.rank) ∈ d3.lhsNonContracting from List.mem_singleton.mpr rfl)]
  rfl
theorem d3_lhs1 (i : S50000x512.Idx) (q : d3.contr.Idx) :
    (d3.lhsIdx i q 1).val = (q ⟨0, (show 0 < d3.contr.rank from Nat.one_pos)⟩).val :=
  d3.lhsIdx_val_of_single rfl i q
theorem d3_rhs0 (i : S50000x512.Idx) (q : d3.contr.Idx) :
    (d3.rhsIdx i q 0).val = (q ⟨0, (show 0 < d3.contr.rank from Nat.one_pos)⟩).val :=
  d3.rhsIdx_val_of_single rfl i q
theorem d3_rhs1 (i : S50000x512.Idx) (q : d3.contr.Idx) : (d3.rhsIdx i q 1).val = (i 1).val := by
  unfold DotDims.rhsIdx
  rw [dif_neg (show ¬(1 : Fin S128x512.rank) ∈ d3.rhsBatch from List.not_mem_nil),
    dif_pos (show (1 : Fin S128x512.rank) ∈ d3.rhsNonContracting from List.mem_singleton.mpr rfl)]
  rfl

/-- The product at (i, j): the sum over the 128 contracted coordinates of the left entry times the right entry. -/
theorem dot3_apply (a : FVec Ideal S50000x128 .f32) (b : FVec Ideal S128x512 .f32) (i : Fin 50000) (j : Fin 512) :
    Host.dotGeneral d3 none a b (ix2 i j) = mm (cur2 a) (cur2 b) i j := by
  simp only [Host.dotGeneral]
  rw [Ideal.dotGeneral_apply, ← Equiv.sum_comp (contrEquiv1 d3 128 rfl rfl).symm]
  refine Finset.sum_congr rfl fun k _ => ?_
  have hk := contrEquiv1_symm_val d3 128 rfl rfl k
  have el : d3.lhsIdx (ix2 i j) ((contrEquiv1 d3 128 rfl rfl).symm k) = ix2 i k := funext fun a => Fin.ext (by
    match a with
    | ⟨0, _⟩ => exact d3_lhs0 _ _
    | ⟨1, _⟩ => exact (d3_lhs1 _ _).trans hk)
  have er : d3.rhsIdx (ix2 i j) ((contrEquiv1 d3 128 rfl rfl).symm k) = ix2 k j := funext fun a => Fin.ext (by
    match a with
    | ⟨0, _⟩ => exact (d3_rhs0 _ _).trans hk
    | ⟨1, _⟩ => exact d3_rhs1 _ _)
  rw [el, er]

/-! ## The count -/

/-- The count's pattern denotes the real 50000. -/
theorem cnt_eq' : cnt = ((50000 : ℝ) : EReal) := by
  unfold cnt
  simp [Ideal.ofBits, Ideal.ieee, -EReal.coe_mul]; norm_num

/-- The count is positive. -/
theorem cnt_pos : (0 : EReal) < cnt := by
  rw [cnt_eq']; exact_mod_cast (by norm_num : (0 : ℝ) < 50000)

/-- The comparison of the count with zero holds. -/
theorem cmp_cnt : Ideal.cmp .ogt cnt (Ideal.ofBits .f32 0x00000000#32) = 1#1 := by
  rw [Ideal.ofBits_zero_f32]
  unfold Ideal.cmp
  simp [cnt_pos]

/-! ## Width 128: the host lines as functions of their operand arrays -/

section Fn128
variable {F : FTy → Type} [FloatOps F]

/-- The column sums over the count. -/
def meanF128 (y : FVec F S50000x128 .f32) : FVec F S128 .f32 :=
  Host.divf (Host.reduceAdd y (constant (F := F) S_ .f32 0x00000000#32) reducesTo_S50000x128_S128_d0 h_S_)
    (broadcastInDim S128 ![] bcast_S_S128 (constant (F := F) S_ .f32 0x47435000#32))

/-- The variance function's mean row. -/
def mrowF128 (y : FVec F S50000x128 .f32) : FVec F S1x128 .f32 :=
  Host.divf (broadcastInDim S1x128 ![1] bcast_S128_S1x128_1 (Host.reduceAdd y (constant (F := F) S_ .f32 0x00000000#32) reducesTo_S50000x128_S128_d0 h_S_))
    (broadcastInDim S1x128 ![] bcast_S_S1x128 (constant (F := F) S_ .f32 0x47435000#32))
/-- The variance function's deviations from the mean row. -/
def devF128 (y : FVec F S50000x128 .f32) : FVec F S50000x128 .f32 :=
  subf y (broadcastInDim S50000x128 ![0, 1] bcast_S1x128_S50000x128_0_1 (mrowF128 y))
/-- The variance function's divisor: the count less the converted integer. -/
def nF (c : IVec S_ 32) : FVec F S_ .f32 := subf (constant (F := F) S_ .f32 0x47435000#32) (sitofp (F := F) .f32 c)
/-- The variance function: the sum of the squared deviations over the divisor where the divisor is positive. -/
def varF128 (y : FVec F S50000x128 .f32) (c : IVec S_ 32) : FVec F S128 .f32 :=
  select (broadcastInDim S128 ![] bcast_S_S128 (cmpf (F := F) .ogt (nF (F := F) c) (constant (F := F) S_ .f32 0x00000000#32)))
    (Host.divf (Host.reduceAdd (mulf (devF128 y) (devF128 y)) (constant (F := F) S_ .f32 0x00000000#32) reducesTo_S50000x128_S128_d0 h_S_)
      (broadcastInDim S128 ![] bcast_S_S128 (nF (F := F) c)))
    (broadcastInDim S128 ![] bcast_S_S128 (id (constant (F := F) S_ .f32 0x7FC00000#32)))

/-- The normalise, scale and shift lines, before the clip. -/
def bnF128 (y : FVec F S50000x128 .f32) (mu var g b : FVec F S128 .f32) : FVec F S50000x128 .f32 :=
  addf (mulf (mulf (subf y (broadcastInDim S50000x128 ![0, 1] bcast_S1x128_S50000x128_0_1 (broadcastInDim S1x128 ![1] bcast_S128_S1x128_1 mu)))
        (broadcastInDim S50000x128 ![0, 1] bcast_S1x128_S50000x128_0_1 (broadcastInDim S1x128 ![1] bcast_S128_S1x128_1
          (Host.rsqrt (addf var (broadcastInDim S128 ![] bcast_S_S128 (constant (F := F) S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))
/-- The clip at zero. -/
def reluF128 (y : FVec F S50000x128 .f32) : FVec F S50000x128 .f32 :=
  maximumf y (broadcastInDim S50000x128 ![] bcast_S_S50000x128 (constant (F := F) S_ .f32 0x00000000#32))

end Fn128

/-! ## Width 512: the host lines as functions of their operand arrays -/

section Fn512
variable {F : FTy → Type} [FloatOps F]

/-- The column sums over the count. -/
def meanF512 (y : FVec F S50000x512 .f32) : FVec F S512 .f32 :=
  Host.divf (Host.reduceAdd y (constant (F := F) S_ .f32 0x00000000#32) reducesTo_S50000x512_S512_d0 h_S_)
    (broadcastInDim S512 ![] bcast_S_S512 (constant (F := F) S_ .f32 0x47435000#32))

/-- The variance function's mean row. -/
def mrowF512 (y : FVec F S50000x512 .f32) : FVec F S1x512 .f32 :=
  Host.divf (broadcastInDim S1x512 ![1] bcast_S512_S1x512_1 (Host.reduceAdd y (constant (F := F) S_ .f32 0x00000000#32) reducesTo_S50000x512_S512_d0 h_S_))
    (broadcastInDim S1x512 ![] bcast_S_S1x512 (constant (F := F) S_ .f32 0x47435000#32))
/-- The variance function's deviations from the mean row. -/
def devF512 (y : FVec F S50000x512 .f32) : FVec F S50000x512 .f32 :=
  subf y (broadcastInDim S50000x512 ![0, 1] bcast_S1x512_S50000x512_0_1 (mrowF512 y))
/-- The variance function: the sum of the squared deviations over the divisor where the divisor is positive. -/
def varF512 (y : FVec F S50000x512 .f32) (c : IVec S_ 32) : FVec F S512 .f32 :=
  select (broadcastInDim S512 ![] bcast_S_S512 (cmpf (F := F) .ogt (nF (F := F) c) (constant (F := F) S_ .f32 0x00000000#32)))
    (Host.divf (Host.reduceAdd (mulf (devF512 y) (devF512 y)) (constant (F := F) S_ .f32 0x00000000#32) reducesTo_S50000x512_S512_d0 h_S_)
      (broadcastInDim S512 ![] bcast_S_S512 (nF (F := F) c)))
    (broadcastInDim S512 ![] bcast_S_S512 (id (constant (F := F) S_ .f32 0x7FC00000#32)))

/-- The normalise, scale and shift lines, before the clip. -/
def bnF512 (y : FVec F S50000x512 .f32) (mu var g b : FVec F S512 .f32) : FVec F S50000x512 .f32 :=
  addf (mulf (mulf (subf y (broadcastInDim S50000x512 ![0, 1] bcast_S1x512_S50000x512_0_1 (broadcastInDim S1x512 ![1] bcast_S512_S1x512_1 mu)))
        (broadcastInDim S50000x512 ![0, 1] bcast_S1x512_S50000x512_0_1 (broadcastInDim S1x512 ![1] bcast_S512_S1x512_1
          (Host.rsqrt (addf var (broadcastInDim S512 ![] bcast_S_S512 (constant (F := F) S_ .f32 0x3727C5AC#32)))))))
      (broadcastInDim S50000x512 ![0, 1] bcast_S1x512_S50000x512_0_1 (broadcastInDim S1x512 ![1] bcast_S512_S1x512_1 g)))
    (broadcastInDim S50000x512 ![0, 1] bcast_S1x512_S50000x512_0_1 (broadcastInDim S1x512 ![1] bcast_S512_S1x512_1 b))
/-- The clip at zero. -/
def reluF512 (y : FVec F S50000x512 .f32) : FVec F S50000x512 .f32 :=
  maximumf y (broadcastInDim S50000x512 ![] bcast_S_S50000x512 (constant (F := F) S_ .f32 0x00000000#32))

end Fn512

/-- The divisor at the integer zero is the count: zero converted is zero, and the count less zero is the count. -/
theorem nF_zero (i : S_.Idx) : nF (F := Ideal) (constantI S_ 32 0#32) i = cnt := by
  show Ideal.ofBits .f32 0x47435000#32 - (((0#32 : BitVec 32).toInt : ℝ) : EReal) = cnt
  simp [cnt]

/-! ## Width 128: the lines read at an index -/

section W128
variable {α : Type}

/-- A vector as a one-row array reads the vector's entry. -/
theorem bcRow128 (x : S128.Idx → α) (z : Fin 1) (j : Fin 128) :
    broadcastInDim S1x128 ![1] bcast_S128_S1x128_1 x (ix2 z j) = x (ix1 j) :=
  broadcastInDim_apply _ _ x _ (ix1 j) (fun a => by match a with | ⟨0, _⟩ => rfl)
/-- A one-row array repeated down the rows reads the row's entry. -/
theorem bcRows128 (x : S1x128.Idx → α) (i : Fin 50000) (j : Fin 128) :
    broadcastInDim S50000x128 ![0, 1] bcast_S1x128_S50000x128_0_1 x (ix2 i j) = x (ix2 0 j) :=
  broadcastInDim_apply _ _ x _ (ix2 0 j) (fun a => by match a with | ⟨0, _⟩ => rfl | ⟨1, _⟩ => rfl)

/-- The index of column j whose row coordinate is t is (t, j). -/
theorem liftCol128 (h : S50000x128.Reduces [0] S128) (t : Fin 50000) (j : Fin 128) : h.lift (ix1 j) t = ix2 t j := by
  funext c
  apply Fin.ext
  match c with
  | ⟨0, _⟩ => rfl
  | ⟨1, _⟩ => rfl

/-- The column sum from zero at column j: the sum of the column's entries over the rows. -/
theorem colSum128 (y : FVec Ideal S50000x128 .f32) (j : Fin 128) :
    Host.reduceAdd y (constant (F := Ideal) S_ .f32 0x00000000#32) reducesTo_S50000x128_S128_d0 h_S_ (ix1 j) = ∑ i : Fin 50000, y (ix2 i j) := by
  have h : S50000x128.Reduces [0] S128 := ⟨reducesTo_S50000x128_S128_d0.1, by decide, reducesTo_S50000x128_S128_d0.2⟩
  rw [hostReduceAdd_apply, Ideal.hostReduceAdd_single reducesTo_S50000x128_S128_d0 h, constant_apply, Ideal.ofBits_zero_f32, zero_add]
  exact Finset.sum_congr rfl fun t _ => congrArg y (liftCol128 h t j)

/-- The mean line at column j: the column's sum over the count. -/
theorem mean128_apply (y : FVec Ideal S50000x128 .f32) (j : Fin 128) : meanF128 y (ix1 j) = meanR (cur2 y) j := by
  unfold meanF128 meanR cnt
  rw [hostDivf_apply, colSum128, broadcastInDim_scalar_apply, constant_apply]

/-- The variance function's mean row at column j is the column mean. -/
theorem mrow128_apply (y : FVec Ideal S50000x128 .f32) (z : Fin 1) (j : Fin 128) : mrowF128 y (ix2 z j) = meanR (cur2 y) j := by
  unfold mrowF128 meanR cnt
  rw [hostDivf_apply, bcRow128, colSum128, broadcastInDim_scalar_apply, constant_apply]

/-- The deviation at (i, j): the entry less its column's mean. -/
theorem dev128_apply (y : FVec Ideal S50000x128 .f32) (i : Fin 50000) (j : Fin 128) :
    devF128 y (ix2 i j) = y (ix2 i j) - meanR (cur2 y) j := by
  unfold devF128
  rw [subf_apply, bcRows128, mrow128_apply]

/-- The variance function at the integer zero, at column j: the mean of the squared deviations. The divisor is the
    count less zero, which is the count and is positive, so the select takes the quotient. -/
theorem var128_apply (y : FVec Ideal S50000x128 .f32) (j : Fin 128) :
    varF128 y (constantI S_ 32 0#32) (ix1 j) = varR (cur2 y) j := by
  unfold varF128 varR
  rw [select_apply, broadcastInDim_scalar_apply, cmpf_apply, nF_zero, constant_apply, Ideal.cmpf_def, cmp_cnt, select_one,
    hostDivf_apply, colSum128, broadcastInDim_scalar_apply, nF_zero]
  refine congrArg (fun s => Ideal.div s cnt) (Finset.sum_congr rfl fun i _ => ?_)
  rw [mulf_apply, dev128_apply]

/-- The normalise, scale and shift lines at (i, j). -/
theorem bn128_apply (y : FVec Ideal S50000x128 .f32) (mu var g b : FVec Ideal S128 .f32) (i : Fin 50000) (j : Fin 128) :
    bnF128 y mu var g b (ix2 i j) = bn (cur2 y) (cur1 mu) (cur1 var) (cur1 g) (cur1 b) i j := by
  unfold bnF128 bn eps
  rw [addf_apply, mulf_apply, mulf_apply, subf_apply, bcRows128, bcRow128, bcRows128, bcRow128, bcRows128, bcRow128,
    bcRows128, bcRow128]
  rfl

/-- The clip at (i, j). -/
theorem relu128_apply (y : FVec Ideal S50000x128 .f32) (i : Fin 50000) (j : Fin 128) :
    reluF128 y (ix2 i j) = max (y (ix2 i j)) 0 := by
  unfold reluF128
  rw [maximumf_apply, broadcastInDim_scalar_apply, constant_apply, Ideal.ofBits_zero_f32]

end W128

/-! ## Width 512: the lines read at an index -/

section W512
variable {α : Type}

/-- A vector as a one-row array reads the vector's entry. -/
theorem bcRow512 (x : S512.Idx → α) (z : Fin 1) (j : Fin 512) :
    broadcastInDim S1x512 ![1] bcast_S512_S1x512_1 x (ix2 z j) = x (ix1 j) :=
  broadcastInDim_apply _ _ x _ (ix1 j) (fun a => by match a with | ⟨0, _⟩ => rfl)
/-- A one-row array repeated down the rows reads the row's entry. -/
theorem bcRows512 (x : S1x512.Idx → α) (i : Fin 50000) (j : Fin 512) :
    broadcastInDim S50000x512 ![0, 1] bcast_S1x512_S50000x512_0_1 x (ix2 i j) = x (ix2 0 j) :=
  broadcastInDim_apply _ _ x _ (ix2 0 j) (fun a => by match a with | ⟨0, _⟩ => rfl | ⟨1, _⟩ => rfl)

/-- The index of column j whose row coordinate is t is (t, j). -/
theorem liftCol512 (h : S50000x512.Reduces [0] S512) (t : Fin 50000) (j : Fin 512) : h.lift (ix1 j) t = ix2 t j := by
  funext c
  apply Fin.ext
  match c with
  | ⟨0, _⟩ => rfl
  | ⟨1, _⟩ => rfl

/-- The column sum from zero at column j: the sum of the column's entries over the rows. -/
theorem colSum512 (y : FVec Ideal S50000x512 .f32) (j : Fin 512) :
    Host.reduceAdd y (constant (F := Ideal) S_ .f32 0x00000000#32) reducesTo_S50000x512_S512_d0 h_S_ (ix1 j) = ∑ i : Fin 50000, y (ix2 i j) := by
  have h : S50000x512.Reduces [0] S512 := ⟨reducesTo_S50000x512_S512_d0.1, by decide, reducesTo_S50000x512_S512_d0.2⟩
  rw [hostReduceAdd_apply, Ideal.hostReduceAdd_single reducesTo_S50000x512_S512_d0 h, constant_apply, Ideal.ofBits_zero_f32, zero_add]
  exact Finset.sum_congr rfl fun t _ => congrArg y (liftCol512 h t j)

/-- The mean line at column j: the column's sum over the count. -/
theorem mean512_apply (y : FVec Ideal S50000x512 .f32) (j : Fin 512) : meanF512 y (ix1 j) = meanR (cur2 y) j := by
  unfold meanF512 meanR cnt
  rw [hostDivf_apply, colSum512, broadcastInDim_scalar_apply, constant_apply]

/-- The variance function's mean row at column j is the column mean. -/
theorem mrow512_apply (y : FVec Ideal S50000x512 .f32) (z : Fin 1) (j : Fin 512) : mrowF512 y (ix2 z j) = meanR (cur2 y) j := by
  unfold mrowF512 meanR cnt
  rw [hostDivf_apply, bcRow512, colSum512, broadcastInDim_scalar_apply, constant_apply]

/-- The deviation at (i, j): the entry less its column's mean. -/
theorem dev512_apply (y : FVec Ideal S50000x512 .f32) (i : Fin 50000) (j : Fin 512) :
    devF512 y (ix2 i j) = y (ix2 i j) - meanR (cur2 y) j := by
  unfold devF512
  rw [subf_apply, bcRows512, mrow512_apply]

/-- The variance function at the integer zero, at column j: the mean of the squared deviations. The divisor is the
    count less zero, which is the count and is positive, so the select takes the quotient. -/
theorem var512_apply (y : FVec Ideal S50000x512 .f32) (j : Fin 512) :
    varF512 y (constantI S_ 32 0#32) (ix1 j) = varR (cur2 y) j := by
  unfold varF512 varR
  rw [select_apply, broadcastInDim_scalar_apply, cmpf_apply, nF_zero, constant_apply, Ideal.cmpf_def, cmp_cnt, select_one,
    hostDivf_apply, colSum512, broadcastInDim_scalar_apply, nF_zero]
  refine congrArg (fun s => Ideal.div s cnt) (Finset.sum_congr rfl fun i _ => ?_)
  rw [mulf_apply, dev512_apply]

/-- The normalise, scale and shift lines at (i, j). -/
theorem bn512_apply (y : FVec Ideal S50000x512 .f32) (mu var g b : FVec Ideal S512 .f32) (i : Fin 50000) (j : Fin 512) :
    bnF512 y mu var g b (ix2 i j) = bn (cur2 y) (cur1 mu) (cur1 var) (cur1 g) (cur1 b) i j := by
  unfold bnF512 bn eps
  rw [addf_apply, mulf_apply, mulf_apply, subf_apply, bcRows512, bcRow512, bcRows512, bcRow512, bcRows512, bcRow512,
    bcRows512, bcRow512]
  rfl

/-- The clip at (i, j). -/
theorem relu512_apply (y : FVec Ideal S50000x512 .f32) (i : Fin 50000) (j : Fin 512) :
    reluF512 y (ix2 i j) = max (y (ix2 i j)) 0 := by
  unfold reluF512
  rw [maximumf_apply, broadcastInDim_scalar_apply, constant_apply, Ideal.ofBits_zero_f32]

end W512

/-! ## The lines as whole arrays -/

/-- A vector as the array it is stored in. -/
abbrev arr1 {p : Nat} (f : Vc p) : (⟨1, ![p]⟩ : Shape).Idx → EReal := fun idx => f (idx 0)

theorem cur2_arr2 {n p : Nat} (f : M n p) : cur2 (Cert.Edge.arr2 f) = f := rfl
theorem cur1_arr1 {p : Nat} (f : Vc p) : cur1 (arr1 f) = f := rfl

/-- The first product as an array. -/
theorem dot1_arr (a : FVec Ideal S50000x512 .f32) (b : FVec Ideal S512x128 .f32) :
    Host.dotGeneral d1 none a b = Cert.Edge.arr2 (mm (cur2 a) (cur2 b)) := by
  funext idx
  obtain ⟨i, j, rfl⟩ : ∃ (i : Fin 50000) (j : Fin 128), idx = ix2 i j := ⟨idx 0, idx 1, eq_ix2 idx⟩
  exact dot1_apply a b i j
/-- The square products as arrays. -/
theorem dot2_arr (a : FVec Ideal S50000x128 .f32) (b : FVec Ideal S128x128 .f32) :
    Host.dotGeneral d2 none a b = Cert.Edge.arr2 (mm (cur2 a) (cur2 b)) := by
  funext idx
  obtain ⟨i, j, rfl⟩ : ∃ (i : Fin 50000) (j : Fin 128), idx = ix2 i j := ⟨idx 0, idx 1, eq_ix2 idx⟩
  exact dot2_apply a b i j
/-- The last product as an array. -/
theorem dot3_arr (a : FVec Ideal S50000x128 .f32) (b : FVec Ideal S128x512 .f32) :
    Host.dotGeneral d3 none a b = Cert.Edge.arr2 (mm (cur2 a) (cur2 b)) := by
  funext idx
  obtain ⟨i, j, rfl⟩ : ∃ (i : Fin 50000) (j : Fin 512), idx = ix2 i j := ⟨idx 0, idx 1, eq_ix2 idx⟩
  exact dot3_apply a b i j

/-- The column means as a vector. -/
theorem cur1_meanF128 (y : FVec Ideal S50000x128 .f32) : cur1 (meanF128 y) = meanR (cur2 y) := funext (mean128_apply y)
/-- The column variances as a vector. -/
theorem cur1_varF128 (y : FVec Ideal S50000x128 .f32) : cur1 (varF128 y (constantI S_ 32 0#32)) = varR (cur2 y) :=
  funext (var128_apply y)

/-- The column means as a vector. -/
theorem cur1_meanF512 (y : FVec Ideal S50000x512 .f32) : cur1 (meanF512 y) = meanR (cur2 y) := funext (mean512_apply y)
/-- The column variances as a vector. -/
theorem cur1_varF512 (y : FVec Ideal S50000x512 .f32) : cur1 (varF512 y (constantI S_ 32 0#32)) = varR (cur2 y) :=
  funext (var512_apply y)

/-- Width 128: the normalisation over the array's own column statistics, scaled, shifted and clipped, as an array. -/
theorem stage128 (y : FVec Ideal S50000x128 .f32) (g b : FVec Ideal S128 .f32) :
    reluF128 (bnF128 y (meanF128 y) (varF128 y (constantI S_ 32 0#32)) g b)
      = Cert.Edge.arr2 (relu (bn (cur2 y) (meanR (cur2 y)) (varR (cur2 y)) (cur1 g) (cur1 b))) := by
  funext idx
  obtain ⟨i, j, rfl⟩ : ∃ (i : Fin 50000) (j : Fin 128), idx = ix2 i j := ⟨idx 0, idx 1, eq_ix2 idx⟩
  rw [relu128_apply, bn128_apply, cur1_meanF128, cur1_varF128]
  rfl

/-- Width 512: the same with the input added before the clip. -/
theorem stage512 (y x : FVec Ideal S50000x512 .f32) (g b : FVec Ideal S512 .f32) :
    reluF512 (addf (bnF512 y (meanF512 y) (varF512 y (constantI S_ 32 0#32)) g b) x)
      = Cert.Edge.arr2 (relu (add (bn (cur2 y) (meanR (cur2 y)) (varR (cur2 y)) (cur1 g) (cur1 b)) (cur2 x))) := by
  funext idx
  obtain ⟨i, j, rfl⟩ : ∃ (i : Fin 50000) (j : Fin 512), idx = ix2 i j := ⟨idx 0, idx 1, eq_ix2 idx⟩
  rw [relu512_apply, addf_apply, bn512_apply, cur1_meanF512, cur1_varF512]
  rfl

/-! ## The edge lines -/

section EdgeFn
variable {F : FTy → Type} [FloatOps F]

/-- Row 0 of the edge list, flattened. -/
def srcF (ei : IVec S2x800000 32) : IVec S800000 32 :=
  fun i => shapeCast S800000 (extractStridedSlice S1x800000 ![0, 0] ei slices_S2x800000_S1x800000_0_0) shapeCasts_S1x800000_S800000 i
/-- Row 1 of the edge list, flattened. -/
def dstF (ei : IVec S2x800000 32) : IVec S800000 32 :=
  fun i => shapeCast S800000 (extractStridedSlice S1x800000 ![1, 0] ei slices_S2x800000_S1x800000_1_0) shapeCasts_S1x800000_S800000 i
/-- A source word wrapped: a negative word has 50000 added. -/
def wrapF (s : IVec S800000 32) : IVec S800000 32 :=
  select (cmpi .slt s (broadcastInDim S800000 ![] bcast_S_S800000 (constantI S_ 32 0#32)))
    (addi s (broadcastInDim S800000 ![] bcast_S_S800000 (constantI S_ 32 50000#32))) s
/-- The rows named by the wrapped sources, added into the rows named by the destinations, over zeros. -/
def aggF (hn : FVec F S50000x128 .f32) (ei : IVec S2x800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 (dstF ei))
    (Host.gather gather_S50000x128_S800000x1_S800000x128_1_0_n_n_0_1_1128 hn
      (broadcastInDim S800000x1 ![0] bcast_S800000_S800000x1_0 (wrapF (srcF ei))))
/-- The product with the self weight plus the aggregation of the product with the neighbour weight. -/
def edgeF (h : FVec F S50000x128 .f32) (ei : IVec S2x800000 32) (ws wn : FVec F S128x128 .f32) : FVec F S50000x128 .f32 :=
  addf (Host.dotGeneral d2 none h ws) (aggF (Host.dotGeneral d2 none h wn) ei)

end EdgeFn

set_option maxHeartbeats 400000 in
/-- The aggregation lines are the plain edge aggregation, line for line. -/
theorem aggF_eq (hn : FVec Ideal S50000x128 .f32) (ei : IVec S2x800000 32) :
    aggF hn ei = Cert.Edge.agg Cert.Edge.sh0 Cert.Edge.ds0
      (Cert.Edge.msgR Cert.Edge.sh0 Cert.Edge.dg0 hn (Cert.Edge.src Cert.Edge.sh0 ei)) (Cert.Edge.dst Cert.Edge.sh0 ei) := rfl

/-- The second pre-activation as an array. -/
theorem edge_arr (h : FVec Ideal S50000x128 .f32) (ei : IVec S2x800000 32) (ws wn : FVec Ideal S128x128 .f32) :
    edgeF h ei ws wn
      = Cert.Edge.arr2 (add (mm (cur2 h) (cur2 ws)) (Cert.Edge.ER0 ei (mm (cur2 h) (cur2 wn)))) := by
  funext idx
  obtain ⟨i, j, rfl⟩ : ∃ (i : Fin 50000) (j : Fin 128), idx = ix2 i j := ⟨idx 0, idx 1, eq_ix2 idx⟩
  unfold edgeF
  rw [addf_apply, dot2_apply, dot2_arr h wn, aggF_eq]
  rfl

end Cert.ReferenceIdeal.Stages

end
-- ==== Proof.RefRead12.lean ====
/-
  The first two stages of the reference read off their operation lists, for an arbitrary starting content of the buffers.

  Stage one ends at the first activation: the input times the first weight, normalised over its own column means and
  variances, scaled, shifted and clipped at zero. Stage two ends at the second pre-activation: the activation times the
  self weight, plus the plain edge aggregation of the activation times the neighbour weight. No line of either stage
  writes an argument, so each argument's contents pass through unchanged.
-/
import proofs.«421418_j84782654423196_3_alg».proof.Proof.RefRun
import proofs.«421418_j84782654423196_3_alg».proof.Proof.RefHand_Stages

noncomputable section

namespace Cert.ReferenceIdeal.Read

open Cert.ReferenceIdeal Cert.ReferenceIdeal.Gen Cert.ReferenceIdeal.Stages Cert.Spec
open Idealize.ShloMosaic Idealize.ShloMosaic.TcCoe Idealize.ShloMosaic.ValueIdx Idealize.SL.Sem Idealize.ShloMosaic.StableHlo

/-! ## Stage one -/

set_option maxHeartbeats 4000000 in
/-- Stage one's last buffer as the lines' functions composed, for any float values. -/
theorem s1_fn {F : FTy → Type} [FloatOps F] (W : Valuation τ sig (Elt F)) :
    after (Run.ops1 (F := F)) W (main_v20 : DevRef τ sig)
      = reluF128 (bnF128 (Host.dotGeneral d1 none (W main_arg0) (W main_arg2))
          (meanF128 (Host.dotGeneral d1 none (W main_arg0) (W main_arg2)))
          (varF128 (Host.dotGeneral d1 none (W main_arg0) (W main_arg2)) (constantI S_ 32 0#32))
          (W main_arg3) (W main_arg4)) := by
  simp only [Run.ops1]
  after_results_simp
  unfold reluF128 bnF128 meanF128 varF128 devF128 mrowF128 nF
  rfl

/-- Stage one: the first activation. -/
theorem s1 (W : Valuation τ sig (Elt Ideal)) :
    after (Run.ops1 (F := Ideal)) W (main_v20 : DevRef τ sig)
      = Cert.Edge.arr2 (relu (bn (mm (cur2 (W main_arg0)) (cur2 (W main_arg2)))
          (meanR (mm (cur2 (W main_arg0)) (cur2 (W main_arg2)))) (varR (mm (cur2 (W main_arg0)) (cur2 (W main_arg2))))
          (cur1 (W main_arg3)) (cur1 (W main_arg4)))) := by
  rw [s1_fn, stage128, dot1_arr, cur2_arr2]

/-! ## Stage two -/

set_option maxHeartbeats 4000000 in
/-- Stage two's last buffer as the lines' functions composed, for any float values. -/
theorem s2_fn {F : FTy → Type} [FloatOps F] (W : Valuation τ sig (Elt F)) :
    after (Run.ops2 (F := F)) W (main_v37 : DevRef τ sig)
      = edgeF (W main_v20) (W main_arg1) (W main_arg5) (W main_arg6) := by
  simp only [Run.ops2]
  after_results_simp
  unfold edgeF aggF wrapF srcF dstF
  rfl

/-- Stage two: the second pre-activation. -/
theorem s2 (W : Valuation τ sig (Elt Ideal)) :
    after (Run.ops2 (F := Ideal)) W (main_v37 : DevRef τ sig)
      = Cert.Edge.arr2 (add (mm (cur2 (W main_v20)) (cur2 (W main_arg5)))
          (Cert.Edge.ER0 (W main_arg1) (mm (cur2 (W main_v20)) (cur2 (W main_arg6))))) := by
  rw [s2_fn, edge_arr]

/-! ## The arguments pass through -/

set_option maxHeartbeats 1000000 in
theorem keep1_arg0 {F : FTy → Type} [FloatOps F] (W : Valuation τ sig (Elt F)) :
    after (Run.ops1 (F := F)) W (main_arg0 : DevRef τ sig) = W main_arg0 := by
  simp only [Run.ops1]; after_results_simp
set_option maxHeartbeats 1000000 in
theorem keep1_arg1 {F : FTy → Type} [FloatOps F] (W : Valuation τ sig (Elt F)) :
    after (Run.ops1 (F := F)) W (main_arg1 : DevRef τ sig) = W main_arg1 := by
  simp only [Run.ops1]; after_results_simp
set_option maxHeartbeats 1000000 in
theorem keep1_arg2 {F : FTy → Type} [FloatOps F] (W : Valuation τ sig (Elt F)) :
    after (Run.ops1 (F := F)) W (main_arg2 : DevRef τ sig) = W main_arg2 := by
  simp only [Run.ops1]; after_results_simp
set_option maxHeartbeats 1000000 in
theorem keep1_arg3 {F : FTy → Type} [FloatOps F] (W : Valuation τ sig (Elt F)) :
    after (Run.ops1 (F := F)) W (main_arg3 : DevRef τ sig) = W main_arg3 := by
  simp only [Run.ops1]; after_results_simp
set_option maxHeartbeats 1000000 in
theorem keep1_arg4 {F : FTy → Type} [FloatOps F] (W : Valuation τ sig (Elt F)) :
    after (Run.ops1 (F := F)) W (main_arg4 : DevRef τ sig) = W main_arg4 := by
  simp only [Run.ops1]; after_results_simp
set_option maxHeartbeats 1000000 in
theorem keep1_arg5 {F : FTy → Type} [FloatOps F] (W : Valuation τ sig (Elt F)) :
    after (Run.ops1 (F := F)) W (main_arg5 : DevRef τ sig) = W main_arg5 := by
  simp only [Run.ops1]; after_results_simp
set_option maxHeartbeats 1000000 in
theorem keep1_arg6 {F : FTy → Type} [FloatOps F] (W : Valuation τ sig (Elt F)) :
    after (Run.ops1 (F := F)) W (main_arg6 : DevRef τ sig) = W main_arg6 := by
  simp only [Run.ops1]; after_results_simp
set_option maxHeartbeats 1000000 in
theorem keep1_arg7 {F : FTy → Type} [FloatOps F] (W : Valuation τ sig (Elt F)) :
    after (Run.ops1 (F := F)) W (main_arg7 : DevRef τ sig) = W main_arg7 := by
  simp only [Run.ops1]; after_results_simp
set_option maxHeartbeats 1000000 in
theorem keep1_arg8 {F : FTy → Type} [FloatOps F] (W : Valuation τ sig (Elt F)) :
    after (Run.ops1 (F := F)) W (main_arg8 : DevRef τ sig) = W main_arg8 := by
  simp only [Run.ops1]; after_results_simp
set_option maxHeartbeats 1000000 in
theorem keep1_arg9 {F : FTy → Type} [FloatOps F] (W : Valuation τ sig (Elt F)) :
    after (Run.ops1 (F := F)) W (main_arg9 : DevRef τ sig) = W main_arg9 := by
  simp only [Run.ops1]; after_results_simp
set_option maxHeartbeats 1000000 in
theorem keep1_arg10 {F : FTy → Type} [FloatOps F] (W : Valuation τ sig (Elt F)) :
    after (Run.ops1 (F := F)) W (main_arg10 : DevRef τ sig) = W main_arg10 := by
  simp only [Run.ops1]; after_results_simp
set_option maxHeartbeats 1000000 in
theorem keep1_arg11 {F : FTy → Type} [FloatOps F] (W : Valuation τ sig (Elt F)) :
    after (Run.ops1 (F := F)) W (main_arg11 : DevRef τ sig) = W main_arg11 := by
  simp only [Run.ops1]; after_results_simp
set_option maxHeartbeats 1000000 in
theorem keep2_arg0 {F : FTy → Type} [FloatOps F] (W : Valuation τ sig (Elt F)) :
    after (Run.ops2 (F := F)) W (main_arg0 : DevRef τ sig) = W main_arg0 := by
  simp only [Run.ops2]; after_results_simp
set_option maxHeartbeats 1000000 in
theorem keep2_arg1 {F : FTy → Type} [FloatOps F] (W : Valuation τ sig (Elt F)) :
    after (Run.ops2 (F := F)) W (main_arg1 : DevRef τ sig) = W main_arg1 := by
  simp only [Run.ops2]; after_results_simp
set_option maxHeartbeats 1000000 in
theorem keep2_arg2 {F : FTy → Type} [FloatOps F] (W : Valuation τ sig (Elt F)) :
    after (Run.ops2 (F := F)) W (main_arg2 : DevRef τ sig) = W main_arg2 := by
  simp only [Run.ops2]; after_results_simp
set_option maxHeartbeats 1000000 in
theorem keep2_arg3 {F : FTy → Type} [FloatOps F] (W : Valuation τ sig (Elt F)) :
    after (Run.ops2 (F := F)) W (main_arg3 : DevRef τ sig) = W main_arg3 := by
  simp only [Run.ops2]; after_results_simp
set_option maxHeartbeats 1000000 in
theorem keep2_arg4 {F : FTy → Type} [FloatOps F] (W : Valuation τ sig (Elt F)) :
    after (Run.ops2 (F := F)) W (main_arg4 : DevRef τ sig) = W main_arg4 := by
  simp only [Run.ops2]; after_results_simp
set_option maxHeartbeats 1000000 in
theorem keep2_arg5 {F : FTy → Type} [FloatOps F] (W : Valuation τ sig (Elt F)) :
    after (Run.ops2 (F := F)) W (main_arg5 : DevRef τ sig) = W main_arg5 := by
  simp only [Run.ops2]; after_results_simp
set_option maxHeartbeats 1000000 in
theorem keep2_arg6 {F : FTy → Type} [FloatOps F] (W : Valuation τ sig (Elt F)) :
    after (Run.ops2 (F := F)) W (main_arg6 : DevRef τ sig) = W main_arg6 := by
  simp only [Run.ops2]; after_results_simp
set_option maxHeartbeats 1000000 in
theorem keep2_arg7 {F : FTy → Type} [FloatOps F] (W : Valuation τ sig (Elt F)) :
    after (Run.ops2 (F := F)) W (main_arg7 : DevRef τ sig) = W main_arg7 := by
  simp only [Run.ops2]; after_results_simp
set_option maxHeartbeats 1000000 in
theorem keep2_arg8 {F : FTy → Type} [FloatOps F] (W : Valuation τ sig (Elt F)) :
    after (Run.ops2 (F := F)) W (main_arg8 : DevRef τ sig) = W main_arg8 := by
  simp only [Run.ops2]; after_results_simp
set_option maxHeartbeats 1000000 in
theorem keep2_arg9 {F : FTy → Type} [FloatOps F] (W : Valuation τ sig (Elt F)) :
    after (Run.ops2 (F := F)) W (main_arg9 : DevRef τ sig) = W main_arg9 := by
  simp only [Run.ops2]; after_results_simp
set_option maxHeartbeats 1000000 in
theorem keep2_arg10 {F : FTy → Type} [FloatOps F] (W : Valuation τ sig (Elt F)) :
    after (Run.ops2 (F := F)) W (main_arg10 : DevRef τ sig) = W main_arg10 := by
  simp only [Run.ops2]; after_results_simp
set_option maxHeartbeats 1000000 in
theorem keep2_arg11 {F : FTy → Type} [FloatOps F] (W : Valuation τ sig (Elt F)) :
    after (Run.ops2 (F := F)) W (main_arg11 : DevRef τ sig) = W main_arg11 := by
  simp only [Run.ops2]; after_results_simp

end Cert.ReferenceIdeal.Read

end
-- ==== Proof.RefRead34.lean ====
/-
  The third and fourth stages of the reference, read as the block's formulas.

  The third stage takes the second pre-activation `y₂`: the column sums over the count are the column means, the variance
  function at the integer zero is the mean of the squared deviations, and the centring, the product with the reciprocal
  root of variance plus epsilon, the scale, the shift and the clip at zero are `relu (bn y₂ (meanR y₂) (varR y₂) γ₂ β₂)`.
  The fourth stage takes the second activation `h₂`: the product `h₂ · W₃` is the sum over the 128 contracted
  coordinates, the same statistics and affine lines at width 512 follow, the input is added and the clip gives
  `relu (add (bn y₃ (meanR y₃) (varR y₃) γ₃ β₃) x)` with `y₃ = mm h₂ W₃`. Each stage's fold at its last buffer is first
  the composed host term of the stage's inputs, for any float values, and that term at the extended reals is the formula
  entry by entry. No line of either stage writes an argument, so each argument's buffer is as the stage found it.
-/
import proofs.«421418_j84782654423196_3_alg».proof.Proof.RefRun
import proofs.«421418_j84782654423196_3_alg».proof.Proof.RefHand_Stages

noncomputable section

namespace Cert.ReferenceIdeal.Read

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.Run Cert.ReferenceIdeal.Stages Cert.Spec Cert.Edge

/-! ## The stages' last buffers as host terms of their inputs, for any float values -/

section AnyFloat

variable {F : FTy → Type} [FloatOps F]

set_option maxRecDepth 8192 in
set_option maxHeartbeats 1000000 in
/-- The third stage's fold at the second activation's buffer: the clip of the normalise, scale and shift lines over the
    second pre-activation, its column means and the variance function of it at the integer zero. -/
theorem v57_eq (W : Valuation τ sig (Elt F)) :
    after (ops3 (F := F)) W (main_v57 : DevRef τ sig)
      = reluF128 (bnF128 (W (main_v37 : DevRef τ sig)) (meanF128 (W (main_v37 : DevRef τ sig)))
          (varF128 (W (main_v37 : DevRef τ sig)) (constantI S_ 32 0#32))
          (W (main_arg7 : DevRef τ sig)) (W (main_arg8 : DevRef τ sig))) := by
  after_results_simp <;> (try simp only [TRef.ofBuf, TRef.toBuf, cast_eq]) <;> rfl

set_option maxRecDepth 8192 in
set_option maxHeartbeats 1000000 in
/-- The fourth stage's fold at the result's buffer: the clip of the input added to the normalise, scale and shift lines
    over the product of the second activation with the last weight, its column means and its variance function. -/
theorem v79_eq (W : Valuation τ sig (Elt F)) :
    after (ops4 (F := F)) W (main_v79 : DevRef τ sig)
      = reluF512 (addf (bnF512 (Host.dotGeneral d3 none (W (main_v57 : DevRef τ sig)) (W (main_arg9 : DevRef τ sig)))
            (meanF512 (Host.dotGeneral d3 none (W (main_v57 : DevRef τ sig)) (W (main_arg9 : DevRef τ sig))))
            (varF512 (Host.dotGeneral d3 none (W (main_v57 : DevRef τ sig)) (W (main_arg9 : DevRef τ sig))) (constantI S_ 32 0#32))
            (W (main_arg10 : DevRef τ sig)) (W (main_arg11 : DevRef τ sig)))
          (W (main_arg0 : DevRef τ sig))) := by
  after_results_simp <;> (try simp only [TRef.ofBuf, TRef.toBuf, cast_eq]) <;> rfl

/-- The buffers the third stage's lines write, in order. -/
def wr3 : List (Ref sig .tc) :=
  [main_cst_5, main_v38, main_cst_6, main_v39, main_v40, main_c_7, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v42, main_v43, main_v44, main_cst_8, main_v45, main_v46, main_v47, main_v48, main_v49, main_v50, main_v51, main_v52, main_v53, main_v54, main_v55, main_v56, main_call3.cst.ref, main_call3.v0.ref, main_call3.v1.ref]
/-- The buffers the fourth stage's lines write, in order. -/
def wr4 : List (Ref sig .tc) :=
  [main_v58, main_cst_9, main_v59, main_cst_10, main_v60, main_v61, main_c_11, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v63, main_v64, main_v65, main_cst_12, main_v66, main_v67, main_v68, main_v69, main_v70, main_v71, main_v72, main_v73, main_v74, main_v75, main_v76, main_v77, main_v78, main_call5.cst.ref, main_call5.v0.ref, main_call5.v1.ref]

set_option maxRecDepth 8192 in
/-- Each line of the third stage writes one buffer of that list. -/
theorem writes3 : (ops3 (F := F)).Forall fun op => op.writes ⊆ (wr3.map (Proc.devRef (τ := τ) .tc)).toFinset := by
  simp only [ops3, List.Forall, nullary_writes, unary_writes, binary_writes, ternary_writes, reshape_writes,
    Finset.singleton_subset_iff, List.mem_toFinset]
  repeat' apply And.intro
  all_goals exact List.mem_map_of_mem (by decide)

set_option maxRecDepth 8192 in
/-- Each line of the fourth stage writes one buffer of that list. -/
theorem writes4 : (ops4 (F := F)).Forall fun op => op.writes ⊆ (wr4.map (Proc.devRef (τ := τ) .tc)).toFinset := by
  simp only [ops4, List.Forall, nullary_writes, unary_writes, binary_writes, ternary_writes, reshape_writes,
    Finset.singleton_subset_iff, List.mem_toFinset]
  repeat' apply And.intro
  all_goals exact List.mem_map_of_mem (by decide)

end AnyFloat

/-! ## The stages at the extended reals -/

/-- The third stage: the second activation is the clip of the normalised, scaled and shifted second pre-activation over
    its direct column statistics. -/
theorem s3 (W : Valuation τ sig (Elt Ideal)) :
    after (ops3 (F := Ideal)) W (main_v57 : DevRef τ sig)
      = arr2 (relu (bn (cur2 (W (main_v37 : DevRef τ sig))) (meanR (cur2 (W (main_v37 : DevRef τ sig))))
          (varR (cur2 (W (main_v37 : DevRef τ sig)))) (cur1 (W (main_arg7 : DevRef τ sig))) (cur1 (W (main_arg8 : DevRef τ sig))))) :=
  (v57_eq W).trans (stage128 _ _ _)

/-- The fourth stage: the result is the clip of the input added to the normalised, scaled and shifted product of the
    second activation with the last weight, over the product's direct column statistics. -/
theorem s4 (W : Valuation τ sig (Elt Ideal)) :
    after (ops4 (F := Ideal)) W (main_v79 : DevRef τ sig)
      = arr2 (relu (add (bn (mm (cur2 (W (main_v57 : DevRef τ sig))) (cur2 (W (main_arg9 : DevRef τ sig))))
            (meanR (mm (cur2 (W (main_v57 : DevRef τ sig))) (cur2 (W (main_arg9 : DevRef τ sig)))))
            (varR (mm (cur2 (W (main_v57 : DevRef τ sig))) (cur2 (W (main_arg9 : DevRef τ sig)))))
            (cur1 (W (main_arg10 : DevRef τ sig))) (cur1 (W (main_arg11 : DevRef τ sig))))
          (cur2 (W (main_arg0 : DevRef τ sig))))) := by
  refine (v79_eq W).trans ?_
  rw [dot3_arr]
  exact stage512 _ _ _ _

/-! ## The arguments through the stages, for any float values -/

section Keep

variable {F : FTy → Type} [FloatOps F]

theorem keep3_arg0 (W : Valuation τ sig (Elt F)) : after (ops3 (F := F)) W (main_arg0 : DevRef τ sig) = W (main_arg0 : DevRef τ sig) :=
  after_of_writes_sub ops3 W writes3 (by decide)
theorem keep3_arg1 (W : Valuation τ sig (Elt F)) : after (ops3 (F := F)) W (main_arg1 : DevRef τ sig) = W (main_arg1 : DevRef τ sig) :=
  after_of_writes_sub ops3 W writes3 (by decide)
theorem keep3_arg2 (W : Valuation τ sig (Elt F)) : after (ops3 (F := F)) W (main_arg2 : DevRef τ sig) = W (main_arg2 : DevRef τ sig) :=
  after_of_writes_sub ops3 W writes3 (by decide)
theorem keep3_arg3 (W : Valuation τ sig (Elt F)) : after (ops3 (F := F)) W (main_arg3 : DevRef τ sig) = W (main_arg3 : DevRef τ sig) :=
  after_of_writes_sub ops3 W writes3 (by decide)
theorem keep3_arg4 (W : Valuation τ sig (Elt F)) : after (ops3 (F := F)) W (main_arg4 : DevRef τ sig) = W (main_arg4 : DevRef τ sig) :=
  after_of_writes_sub ops3 W writes3 (by decide)
theorem keep3_arg5 (W : Valuation τ sig (Elt F)) : after (ops3 (F := F)) W (main_arg5 : DevRef τ sig) = W (main_arg5 : DevRef τ sig) :=
  after_of_writes_sub ops3 W writes3 (by decide)
theorem keep3_arg6 (W : Valuation τ sig (Elt F)) : after (ops3 (F := F)) W (main_arg6 : DevRef τ sig) = W (main_arg6 : DevRef τ sig) :=
  after_of_writes_sub ops3 W writes3 (by decide)
theorem keep3_arg7 (W : Valuation τ sig (Elt F)) : after (ops3 (F := F)) W (main_arg7 : DevRef τ sig) = W (main_arg7 : DevRef τ sig) :=
  after_of_writes_sub ops3 W writes3 (by decide)
theorem keep3_arg8 (W : Valuation τ sig (Elt F)) : after (ops3 (F := F)) W (main_arg8 : DevRef τ sig) = W (main_arg8 : DevRef τ sig) :=
  after_of_writes_sub ops3 W writes3 (by decide)
theorem keep3_arg9 (W : Valuation τ sig (Elt F)) : after (ops3 (F := F)) W (main_arg9 : DevRef τ sig) = W (main_arg9 : DevRef τ sig) :=
  after_of_writes_sub ops3 W writes3 (by decide)
theorem keep3_arg10 (W : Valuation τ sig (Elt F)) : after (ops3 (F := F)) W (main_arg10 : DevRef τ sig) = W (main_arg10 : DevRef τ sig) :=
  after_of_writes_sub ops3 W writes3 (by decide)
theorem keep3_arg11 (W : Valuation τ sig (Elt F)) : after (ops3 (F := F)) W (main_arg11 : DevRef τ sig) = W (main_arg11 : DevRef τ sig) :=
  after_of_writes_sub ops3 W writes3 (by decide)

theorem keep4_arg0 (W : Valuation τ sig (Elt F)) : after (ops4 (F := F)) W (main_arg0 : DevRef τ sig) = W (main_arg0 : DevRef τ sig) :=
  after_of_writes_sub ops4 W writes4 (by decide)
theorem keep4_arg1 (W : Valuation τ sig (Elt F)) : after (ops4 (F := F)) W (main_arg1 : DevRef τ sig) = W (main_arg1 : DevRef τ sig) :=
  after_of_writes_sub ops4 W writes4 (by decide)
theorem keep4_arg2 (W : Valuation τ sig (Elt F)) : after (ops4 (F := F)) W (main_arg2 : DevRef τ sig) = W (main_arg2 : DevRef τ sig) :=
  after_of_writes_sub ops4 W writes4 (by decide)
theorem keep4_arg3 (W : Valuation τ sig (Elt F)) : after (ops4 (F := F)) W (main_arg3 : DevRef τ sig) = W (main_arg3 : DevRef τ sig) :=
  after_of_writes_sub ops4 W writes4 (by decide)
theorem keep4_arg4 (W : Valuation τ sig (Elt F)) : after (ops4 (F := F)) W (main_arg4 : DevRef τ sig) = W (main_arg4 : DevRef τ sig) :=
  after_of_writes_sub ops4 W writes4 (by decide)
theorem keep4_arg5 (W : Valuation τ sig (Elt F)) : after (ops4 (F := F)) W (main_arg5 : DevRef τ sig) = W (main_arg5 : DevRef τ sig) :=
  after_of_writes_sub ops4 W writes4 (by decide)
theorem keep4_arg6 (W : Valuation τ sig (Elt F)) : after (ops4 (F := F)) W (main_arg6 : DevRef τ sig) = W (main_arg6 : DevRef τ sig) :=
  after_of_writes_sub ops4 W writes4 (by decide)
theorem keep4_arg7 (W : Valuation τ sig (Elt F)) : after (ops4 (F := F)) W (main_arg7 : DevRef τ sig) = W (main_arg7 : DevRef τ sig) :=
  after_of_writes_sub ops4 W writes4 (by decide)
theorem keep4_arg8 (W : Valuation τ sig (Elt F)) : after (ops4 (F := F)) W (main_arg8 : DevRef τ sig) = W (main_arg8 : DevRef τ sig) :=
  after_of_writes_sub ops4 W writes4 (by decide)
theorem keep4_arg9 (W : Valuation τ sig (Elt F)) : after (ops4 (F := F)) W (main_arg9 : DevRef τ sig) = W (main_arg9 : DevRef τ sig) :=
  after_of_writes_sub ops4 W writes4 (by decide)
theorem keep4_arg10 (W : Valuation τ sig (Elt F)) : after (ops4 (F := F)) W (main_arg10 : DevRef τ sig) = W (main_arg10 : DevRef τ sig) :=
  after_of_writes_sub ops4 W writes4 (by decide)
theorem keep4_arg11 (W : Valuation τ sig (Elt F)) : after (ops4 (F := F)) W (main_arg11 : DevRef τ sig) = W (main_arg11 : DevRef τ sig) :=
  after_of_writes_sub ops4 W writes4 (by decide)

end Keep

end Cert.ReferenceIdeal.Read

end
-- ==== Proof.RefHand.lean ====
/-
  The idealized reference's run with its result read: every weakly fair execution of the host program terminates, the
  result array holds the block over the direct column statistics with the plain edge aggregation, as a function of the
  launch memory, and the arguments are as launched.
-/
import proofs.«421418_j84782654423196_3_alg».proof.ReferenceIdeal
import proofs.«421418_j84782654423196_3_alg».proof.Proof.Gen.ReferenceIdeal
import proofs.«421418_j84782654423196_3_alg».proof.Proof.Spec
import proofs.«421418_j84782654423196_3_alg».proof.Proof.Edge
import Idealize.ShloMosaic.Lib.StableHlo.Run
import proofs.«421418_j84782654423196_3_alg».proof.Proof.RefRun
import proofs.«421418_j84782654423196_3_alg».proof.Proof.RefHand_Stages
import proofs.«421418_j84782654423196_3_alg».proof.Proof.RefRead12
import proofs.«421418_j84782654423196_3_alg».proof.Proof.RefRead34

noncomputable section

namespace Cert.ReferenceIdeal.Hand

open Idealize.ShloMosaic Idealize.ShloMosaic.ValueIdx Idealize.SL.Sem
open Cert.ReferenceIdeal Cert.Spec
open Idealize.ShloMosaic.TcCoe Idealize.ShloMosaic.StableHlo

variable (m : (ℓ : Loc nD τ sig) → Buf (Elt Ideal) ℓ) (ρ : Dev nD → PrngReg)

/-- The reference's result as a function of the launch memory. -/
def res (c : Dev nD) : M 50000 512 :=
  outR (Cert.Edge.ER0 (m ((c.tc : Thread nD τ).loc main_arg1)))
    (cur2 (m ((c.tc : Thread nD τ).loc main_arg0))) (cur2 (m ((c.tc : Thread nD τ).loc main_arg2)))
    (cur1 (m ((c.tc : Thread nD τ).loc main_arg3))) (cur1 (m ((c.tc : Thread nD τ).loc main_arg4)))
    (cur2 (m ((c.tc : Thread nD τ).loc main_arg5))) (cur2 (m ((c.tc : Thread nD τ).loc main_arg6)))
    (cur1 (m ((c.tc : Thread nD τ).loc main_arg7))) (cur1 (m ((c.tc : Thread nD τ).loc main_arg8)))
    (cur2 (m ((c.tc : Thread nD τ).loc main_arg9)))
    (cur1 (m ((c.tc : Thread nD τ).loc main_arg10))) (cur1 (m ((c.tc : Thread nD τ).loc main_arg11)))

/-- The line's last buffer, from any starting contents: the four stages in order, each stage's arguments as they were at
    the start, give the block over the direct column statistics with the plain edge aggregation. -/
theorem out_eq (V : Valuation τ sig (Elt Ideal)) :
    after (Run.ops (F := Ideal)) V (main_v79 : DevRef τ sig) = Cert.Edge.arr2 (outR (Cert.Edge.ER0 (V main_arg1))
      (cur2 (V main_arg0)) (cur2 (V main_arg2)) (cur1 (V main_arg3)) (cur1 (V main_arg4)) (cur2 (V main_arg5)) (cur2 (V main_arg6))
      (cur1 (V main_arg7)) (cur1 (V main_arg8)) (cur2 (V main_arg9)) (cur1 (V main_arg10)) (cur1 (V main_arg11))) := by
  rw [Run.ops_split, Run.after_append, Run.after_append, Run.after_append]
  rw [Read.s4, Read.s3, Read.keep3_arg9, Read.keep3_arg10, Read.keep3_arg11, Read.keep3_arg0]
  rw [Read.s2, Read.keep2_arg7, Read.keep2_arg8, Read.keep2_arg9, Read.keep2_arg10, Read.keep2_arg11, Read.keep2_arg0]
  rw [Read.s1, Read.keep1_arg5, Read.keep1_arg6, Read.keep1_arg1, Read.keep1_arg7, Read.keep1_arg8, Read.keep1_arg9,
    Read.keep1_arg10, Read.keep1_arg11, Read.keep1_arg0]
  rfl

/-- No line writes argument 0. -/
theorem arg0_eq (V : Valuation τ sig (Elt Ideal)) :
    after (Run.ops (F := Ideal)) V (main_arg0 : DevRef τ sig) = V main_arg0 := by
  rw [Run.ops_split, Run.after_append, Run.after_append, Run.after_append, Read.keep4_arg0, Read.keep3_arg0,
    Read.keep2_arg0, Read.keep1_arg0]

/-- No line writes argument 1. -/
theorem arg1_eq (V : Valuation τ sig (Elt Ideal)) :
    after (Run.ops (F := Ideal)) V (main_arg1 : DevRef τ sig) = V main_arg1 := by
  rw [Run.ops_split, Run.after_append, Run.after_append, Run.after_append, Read.keep4_arg1, Read.keep3_arg1,
    Read.keep2_arg1, Read.keep1_arg1]

/-- No line writes argument 2. -/
theorem arg2_eq (V : Valuation τ sig (Elt Ideal)) :
    after (Run.ops (F := Ideal)) V (main_arg2 : DevRef τ sig) = V main_arg2 := by
  rw [Run.ops_split, Run.after_append, Run.after_append, Run.after_append, Read.keep4_arg2, Read.keep3_arg2,
    Read.keep2_arg2, Read.keep1_arg2]

/-- No line writes argument 3. -/
theorem arg3_eq (V : Valuation τ sig (Elt Ideal)) :
    after (Run.ops (F := Ideal)) V (main_arg3 : DevRef τ sig) = V main_arg3 := by
  rw [Run.ops_split, Run.after_append, Run.after_append, Run.after_append, Read.keep4_arg3, Read.keep3_arg3,
    Read.keep2_arg3, Read.keep1_arg3]

/-- No line writes argument 4. -/
theorem arg4_eq (V : Valuation τ sig (Elt Ideal)) :
    after (Run.ops (F := Ideal)) V (main_arg4 : DevRef τ sig) = V main_arg4 := by
  rw [Run.ops_split, Run.after_append, Run.after_append, Run.after_append, Read.keep4_arg4, Read.keep3_arg4,
    Read.keep2_arg4, Read.keep1_arg4]

/-- No line writes argument 5. -/
theorem arg5_eq (V : Valuation τ sig (Elt Ideal)) :
    after (Run.ops (F := Ideal)) V (main_arg5 : DevRef τ sig) = V main_arg5 := by
  rw [Run.ops_split, Run.after_append, Run.after_append, Run.after_append, Read.keep4_arg5, Read.keep3_arg5,
    Read.keep2_arg5, Read.keep1_arg5]

/-- No line writes argument 6. -/
theorem arg6_eq (V : Valuation τ sig (Elt Ideal)) :
    after (Run.ops (F := Ideal)) V (main_arg6 : DevRef τ sig) = V main_arg6 := by
  rw [Run.ops_split, Run.after_append, Run.after_append, Run.after_append, Read.keep4_arg6, Read.keep3_arg6,
    Read.keep2_arg6, Read.keep1_arg6]

/-- No line writes argument 7. -/
theorem arg7_eq (V : Valuation τ sig (Elt Ideal)) :
    after (Run.ops (F := Ideal)) V (main_arg7 : DevRef τ sig) = V main_arg7 := by
  rw [Run.ops_split, Run.after_append, Run.after_append, Run.after_append, Read.keep4_arg7, Read.keep3_arg7,
    Read.keep2_arg7, Read.keep1_arg7]

/-- No line writes argument 8. -/
theorem arg8_eq (V : Valuation τ sig (Elt Ideal)) :
    after (Run.ops (F := Ideal)) V (main_arg8 : DevRef τ sig) = V main_arg8 := by
  rw [Run.ops_split, Run.after_append, Run.after_append, Run.after_append, Read.keep4_arg8, Read.keep3_arg8,
    Read.keep2_arg8, Read.keep1_arg8]

/-- No line writes argument 9. -/
theorem arg9_eq (V : Valuation τ sig (Elt Ideal)) :
    after (Run.ops (F := Ideal)) V (main_arg9 : DevRef τ sig) = V main_arg9 := by
  rw [Run.ops_split, Run.after_append, Run.after_append, Run.after_append, Read.keep4_arg9, Read.keep3_arg9,
    Read.keep2_arg9, Read.keep1_arg9]

/-- No line writes argument 10. -/
theorem arg10_eq (V : Valuation τ sig (Elt Ideal)) :
    after (Run.ops (F := Ideal)) V (main_arg10 : DevRef τ sig) = V main_arg10 := by
  rw [Run.ops_split, Run.after_append, Run.after_append, Run.after_append, Read.keep4_arg10, Read.keep3_arg10,
    Read.keep2_arg10, Read.keep1_arg10]

/-- No line writes argument 11. -/
theorem arg11_eq (V : Valuation τ sig (Elt Ideal)) :
    after (Run.ops (F := Ideal)) V (main_arg11 : DevRef τ sig) = V main_arg11 := by
  rw [Run.ops_split, Run.after_append, Run.after_append, Run.after_append, Read.keep4_arg11, Read.keep3_arg11,
    Read.keep2_arg11, Read.keep1_arg11]

theorem run : θ_run (defs (F := Ideal)) (onTc (τ := τ) (main (F := Ideal))) ⟨m, fun _ => 0, ρ⟩ (fun r => ∀ c : Dev nD,
      r.2.mem ((c.tc : Thread nD τ).loc main_v79) = Cert.Edge.arr2 (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c =>
    ⟨(h c main_v79).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩) (Run.run_main m ρ)

end Cert.ReferenceIdeal.Hand

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Algebra.lean ====
/-
  The block over the tiled column statistics is the block over the direct ones, on real inputs.

  The column sum over 50000 rows is the sum of the 25 tiles' sums, with no condition (a finite sum regrouped). The
  variance needs the entries real: for reals y₁ … y_N with mean μ = (Σ yᵢ)/N, the mean of the squares minus μ² is the
  mean of the squared deviations, (Σ yᵢ²)/N − μ² = (Σ (yᵢ − μ)²)/N, because Σ (yᵢ − μ)² = Σ yᵢ² − 2μ Σ yᵢ + N μ² and
  Σ yᵢ = N μ; the count N = 50000 must be the divisor's value, which its single-precision pattern denotes exactly. On the
  extended reals the identity fails at an infinite entry, so realness is carried through the block: a product of real
  matrices is real; the direct variance of a real matrix is a nonnegative real, so variance plus the positive ε is a
  positive real and its reciprocal square root is real; the normalised, scaled, shifted and clipped matrix is then real;
  and the edge aggregation is assumed to keep matrices real.
-/
import proofs.«421418_j84782654423196_3_alg».proof.Proof.Spec
import proofs.«421418_j84782654423196_3_alg».proof.Proof.LibReal
import proofs.«421418_j84782654423196_3_alg».proof.Proof.LibSumSplit
import Mathlib.Tactic.Ring
import Mathlib.Tactic.FieldSimp
import Mathlib.Tactic.Linarith
import Mathlib.Tactic.Positivity
import Mathlib.Tactic.NormNum

noncomputable section

open scoped BigOperators

namespace Cert.Algebra

open Idealize.ShloMosaic Cert.Spec Cert.LibReal

/-! ### The two constants -/

/-- The count's pattern denotes the real 50000 = (2^23 + 4411392) · 2^(142 − 127 − 23). -/
theorem cnt_eq : cnt = ((50000 : ℝ) : EReal) := by
  unfold cnt
  simp [Ideal.ofBits, Ideal.ieee, -EReal.coe_mul]; norm_num

/-- The ε's pattern denotes a positive real, (2^23 + 2606508) · 2^(110 − 127 − 23). -/
theorem eps_pos : ∃ r : ℝ, 0 < r ∧ eps = (r : EReal) := by
  unfold eps
  simp [Ideal.ofBits, Ideal.ieee, -EReal.coe_mul]

/-- Division by the count is the product with the real 1/50000. -/
theorem div_cnt (x : EReal) : Ideal.div x cnt = x * (((1 / 50000 : ℝ)) : EReal) := by
  rw [cnt_eq]
  exact Ideal.div_coe (by norm_num) x

/-! ### Realness is kept by the arithmetic -/

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max_zero {x : EReal} (hx : IsReal x) : IsReal (max x 0) := by
  rcases max_choice x 0 with h | h
  · rw [h]; exact hx
  · rw [h]; exact isReal_zero

/-- A finite sum of reals is a real. -/
theorem isReal_sum {ι : Type*} (s : Finset ι) (f : ι → EReal) (hf : ∀ i, IsReal (f i)) : IsReal (∑ i ∈ s, f i) := by
  choose r hr using hf
  refine ⟨∑ i ∈ s, r i, ?_⟩
  rw [coe_sum]
  exact Finset.sum_congr rfl (fun i _ => hr i)

/-- A product of real matrices is real. -/
theorem mm_real {n k p : Nat} {a : M n k} {b : M k p} (ha : ∀ i j, IsReal (a i j)) (hb : ∀ i j, IsReal (b i j)) :
    ∀ i j, IsReal (mm a b i j) := fun i j =>
  isReal_sum _ _ (fun l => isReal_mul (ha i l) (hb l j))

theorem relu_real {n p : Nat} {y : M n p} (hy : ∀ i j, IsReal (y i j)) : ∀ i j, IsReal (relu y i j) := fun i j =>
  isReal_max_zero (hy i j)

theorem add_real {n p : Nat} {y z : M n p} (hy : ∀ i j, IsReal (y i j)) (hz : ∀ i j, IsReal (z i j)) :
    ∀ i j, IsReal (add y z i j) := fun i j => isReal_add (hy i j) (hz i j)

/-- The reciprocal square root of a positive real is a real. -/
theorem rsqrt_real {r : ℝ} (h : 0 < r) : IsReal (Ideal.rsqrt (r : EReal)) := by
  rw [Ideal.rsqrt_coe, if_neg (not_lt.mpr h.le), if_neg h.ne']
  exact isReal_coe _

/-! ### The column sum regrouped by tiles -/

/-- The sum of the 25 tiles' sums is the column's sum: row 2000 · t + q runs over all 50000 rows once. -/
theorem sum_tiles {p : Nat} (y : M 50000 p) (j : Fin p) : ∑ t : Fin 25, tileSum y t j = ∑ i : Fin 50000, y i j := by
  rw [Cert.SumSplit.sum_split 25 2000 50000 (by norm_num) (fun i => y i j)]
  rfl

/-- The tiled mean is the direct mean, with no condition on the entries. -/
theorem meanK_eq {p : Nat} (y : M 50000 p) : meanK y = meanR y := by
  funext j
  unfold meanK meanR
  rw [sum_tiles]

/-! ### The variance identity on reals -/

/-- For N = 50000 reals with sum S and μ = S/N: (Σ rᵢ²)/N − μ² = (Σ (rᵢ − μ)²)/N, since
    Σ (rᵢ − μ)² = Σ rᵢ² − 2 μ S + N μ² and S = N μ. -/
theorem real_var (r : Fin 50000 → ℝ) :
    (∑ i, r i * r i) * (1 / 50000) - ((∑ i, r i) * (1 / 50000)) * ((∑ i, r i) * (1 / 50000))
      = (∑ i, (r i - (∑ i, r i) * (1 / 50000)) * (r i - (∑ i, r i) * (1 / 50000))) * (1 / 50000) := by
  generalize hS : (∑ i, r i) = S
  generalize hm : S * (1 / 50000) = m
  have h1 : ∑ i, (r i - m) * (r i - m) = (∑ i, r i * r i) - 2 * m * S + 50000 * (m * m) := by
    have e : ∀ i, (r i - m) * (r i - m) = r i * r i - 2 * m * r i + m * m := fun i => by ring
    rw [Finset.sum_congr rfl (fun i _ => e i), Finset.sum_add_distrib, Finset.sum_sub_distrib, ← Finset.mul_sum, hS,
      Finset.sum_const, Finset.card_univ, Fintype.card_fin, nsmul_eq_mul]
    norm_num
  rw [h1, ← hm]
  ring

/-- The direct mean of a real column is the real (Σ r)/N. -/
theorem meanR_coe {p : Nat} (y : M 50000 p) (j : Fin p) (r : Fin 50000 → ℝ) (hr : ∀ i, y i j = (r i : EReal)) :
    meanR y j = (((∑ i, r i) * (1 / 50000) : ℝ) : EReal) := by
  unfold meanR
  rw [div_cnt, Finset.sum_congr rfl (fun i _ => hr i), ← coe_sum, ← EReal.coe_mul]

/-- The direct variance of a real column is the real (Σ (r − μ)²)/N. -/
theorem varR_coe {p : Nat} (y : M 50000 p) (j : Fin p) (r : Fin 50000 → ℝ) (hr : ∀ i, y i j = (r i : EReal)) :
    varR y j = (((∑ i, (r i - (∑ i, r i) * (1 / 50000)) * (r i - (∑ i, r i) * (1 / 50000))) * (1 / 50000) : ℝ) : EReal) := by
  unfold varR
  rw [div_cnt, meanR_coe y j r hr]
  have e : ∀ i, (y i j - (((∑ i, r i) * (1 / 50000) : ℝ) : EReal)) * (y i j - (((∑ i, r i) * (1 / 50000) : ℝ) : EReal))
      = (((r i - (∑ i, r i) * (1 / 50000)) * (r i - (∑ i, r i) * (1 / 50000)) : ℝ) : EReal) := fun i => by
    rw [hr i, ← EReal.coe_sub, ← EReal.coe_mul]
  rw [Finset.sum_congr rfl (fun i _ => e i), ← coe_sum, ← EReal.coe_mul]

/-- The tiled variance of a real column is the real (Σ r²)/N − μ². -/
theorem varK_coe {p : Nat} (y : M 50000 p) (j : Fin p) (r : Fin 50000 → ℝ) (hr : ∀ i, y i j = (r i : EReal)) :
    varK y j = (((∑ i, r i * r i) * (1 / 50000) - ((∑ i, r i) * (1 / 50000)) * ((∑ i, r i) * (1 / 50000)) : ℝ) : EReal) := by
  unfold varK
  rw [meanK_eq, sum_tiles, div_cnt, meanR_coe y j r hr]
  have e : ∀ i, Cert.Spec.sq y i j = ((r i * r i : ℝ) : EReal) := fun i => by
    unfold Cert.Spec.sq
    rw [hr i, ← EReal.coe_mul]
  rw [Finset.sum_congr rfl (fun i _ => e i), ← coe_sum, ← EReal.coe_mul, ← EReal.coe_mul, ← EReal.coe_sub]

/-- On a real matrix the tiled variance is the direct variance. -/
theorem varK_eq {p : Nat} (y : M 50000 p) (hy : ∀ i j, IsReal (y i j)) : varK y = varR y := by
  funext j
  choose r hr using fun i => hy i j
  rw [varK_coe y j r hr, varR_coe y j r hr, real_var r]

/-- The direct mean of a real matrix is real. -/
theorem meanR_real {p : Nat} (y : M 50000 p) (hy : ∀ i j, IsReal (y i j)) : ∀ j, IsReal (meanR y j) := fun j => by
  choose r hr using fun i => hy i j
  rw [meanR_coe y j r hr]
  exact isReal_coe _

/-- The direct variance of a real matrix is a nonnegative real: a sum of squares over a positive count. -/
theorem varR_nonneg {p : Nat} (y : M 50000 p) (hy : ∀ i j, IsReal (y i j)) (j : Fin p) :
    ∃ v : ℝ, 0 ≤ v ∧ varR y j = (v : EReal) := by
  choose r hr using fun i => hy i j
  refine ⟨_, ?_, varR_coe y j r hr⟩
  refine mul_nonneg (Finset.sum_nonneg (fun i _ => mul_self_nonneg _)) (by norm_num)

/-- Normalising a real matrix with a real mean, a nonnegative real variance and real scale and shift gives a real
    matrix: variance plus ε is a positive real. -/
theorem bn_real {n p : Nat} {y : M n p} {mu var g b : Vc p} (hy : ∀ i j, IsReal (y i j)) (hmu : ∀ j, IsReal (mu j))
    (hvar : ∀ j, ∃ v : ℝ, 0 ≤ v ∧ var j = (v : EReal)) (hg : ∀ j, IsReal (g j)) (hb : ∀ j, IsReal (b j)) :
    ∀ i j, IsReal (bn y mu var g b i j) := fun i j => by
  unfold bn
  obtain ⟨v, hv, ev⟩ := hvar j
  obtain ⟨e, he, ee⟩ := eps_pos
  have hr : IsReal (Ideal.rsqrt (var j + eps)) := by
    rw [ev, ee, ← EReal.coe_add]
    exact rsqrt_real (by linarith)
  exact isReal_add (isReal_mul (isReal_mul (isReal_sub (hy i j) (hmu j)) hr) (hg j)) (hb j)

/-- One stage on the direct statistics keeps a real matrix real. -/
theorem stage_real {p : Nat} {y : M 50000 p} {g b : Vc p} (hy : ∀ i j, IsReal (y i j)) (hg : ∀ j, IsReal (g j))
    (hb : ∀ j, IsReal (b j)) : ∀ i j, IsReal (relu (bn y (meanR y) (varR y) g b) i j) :=
  relu_real (bn_real hy (meanR_real y hy) (varR_nonneg y hy) hg hb)

/-! ### The block -/

/-- The tiled block is the direct block when every input entry the statistics depend on is real and the edge aggregation
    keeps real matrices real. -/
theorem outK_eq_outR (E : M 50000 128 → M 50000 128)
    (hE : ∀ y : M 50000 128, (∀ i j, IsReal (y i j)) → ∀ i j, IsReal (E y i j))
    (x : M 50000 512) (w1 : M 512 128) (g1 b1 : Vc 128) (ws wn : M 128 128) (g2 b2 : Vc 128) (w3 : M 128 512)
    (g3 b3 : Vc 512)
    (hx : ∀ i j, IsReal (x i j)) (hw1 : ∀ i j, IsReal (w1 i j)) (hg1 : ∀ j, IsReal (g1 j)) (hb1 : ∀ j, IsReal (b1 j))
    (hws : ∀ i j, IsReal (ws i j)) (hwn : ∀ i j, IsReal (wn i j)) (hg2 : ∀ j, IsReal (g2 j)) (hb2 : ∀ j, IsReal (b2 j))
    (hw3 : ∀ i j, IsReal (w3 i j)) :
    outK E x w1 g1 b1 ws wn g2 b2 w3 g3 b3 = outR E x w1 g1 b1 ws wn g2 b2 w3 g3 b3 := by
  -- first stage: the product x · w1 is real
  have hy1 := mm_real hx hw1
  have hh := stage_real hy1 hg1 hb1
  -- second stage: h · ws plus the aggregation of h · wn is real
  have hy2 := add_real (mm_real hh hws) (hE _ (mm_real hh hwn))
  have hh2 := stage_real hy2 hg2 hb2
  -- third stage: h2 · w3 is real
  have hy3 := mm_real hh2 hw3
  unfold outK outR
  dsimp only
  rw [meanK_eq (mm x w1), varK_eq _ hy1]
  rw [meanK_eq (add _ _), varK_eq _ hy2]
  rw [meanK_eq (mm _ w3), varK_eq _ hy3]

end Cert.Algebra

end
-- ==== Proof.PreRead.lean ====
/-
  What the precondition says of the launch memory, read back: every entry of the float arguments the column
  statistics depend on is a real number, and every word of row 0 of the edge list, read signed, lies in 0 … 49999.
-/
import proofs.«421418_j84782654423196_3_alg».proof.Defs
import proofs.«421418_j84782654423196_3_alg».proof.Proof.Gen.KernelIdeal
import proofs.«421418_j84782654423196_3_alg».proof.Proof.Gen.Pre_finite_inputs
import proofs.«421418_j84782654423196_3_alg».proof.Proof.KVals
import proofs.«421418_j84782654423196_3_alg».proof.Proof.LibReal
import Idealize.ShloMosaic.Lib.ReduceAll
import Idealize.ShloMosaic.Lib.StableHlo.Predicate

noncomputable section

/-! ## The precondition's function, part by part

The function is a conjunction of twelve bits: one per float argument (the and-reduce of |a| < +∞ over the whole array)
and one for the edge list (the and-reduce over the edges of 0 ≤ src ∧ src < 50000). It is given in four nested
parts; each lemma below reads one part over arbitrary inputs. -/

namespace Cert.PreRead.Parts

open Idealize.ShloMosaic Idealize.ShloMosaic.ValueIdx Cert.LibReal
open Cert.Pre_finite_inputs Cert.Pre_finite_inputs.Facts

variable [Cert.Pre_finite_inputs.Facts]

/-- A conjunction of two one-bit arrays that is 1 at an index has both conjuncts 1 there. -/
theorem andi_at {s : Shape} {a b : IVec s 1} {i : s.Idx} (h : andi a b i = 1#1) : a i = 1#1 ∧ b i = 1#1 :=
  IntOp.andi_eq_one.1 h

/-- A scalar constant word broadcast to any shape reads the word everywhere. -/
theorem bcast_const_read {s : Shape} (hb : S_.BroadcastsInDim s ![]) (w : Nat) (b : BitVec w) (i : s.Idx) :
    broadcastInDim s ![] hb (constantI S_ w b) i = b :=
  broadcastInDim_apply ![] hb _ i ix0 (fun a => a.elim0)

/-- Row 0 of the edge list, reshaped to a vector, read at edge e: the reshape keeps the row-major position and the
    slice starts at (0, 0), so it is the list's entry (0, e). -/
theorem src_read (a1 : IVec S2x800000 32) (e : Fin 800000) :
    shapeCast S800000 (extractStridedSlice S1x800000 ![0, 0] a1 slices_S2x800000_S1x800000_0_0)
      shapeCasts_S1x800000_S800000 (ix1 e) = a1 (ix2 0 e) := by
  refine (shapeCast_apply _ _ (ix1 e) (ix2 0 e) ?_).trans ?_
  · rw [Shape.rowMajor_val_two, Shape.rowMajor_val_one]
    show 0 * 800000 + e.val = e.val
    omega
  · exact extractStridedSlice_apply _ _ _ (ix2 0 e) (ix2 0 e) (fun a => match a with
      | ⟨0, _⟩ => by show 0 = 0 + 0; omega
      | ⟨1, _⟩ => by show e.val = 0 + e.val; omega)

theorem toInt_zero32 : (0#32).toInt = 0 := by decide
theorem toInt_fifty32 : (50000#32).toInt = 50000 := by decide

/-- The last part: the incoming bit, the bit of the last float argument, and the edge list's bit. -/
theorem part3 (a1 : IVec S2x800000 32) (v48 : IVec S_ 1) (v49 v50 : FVec Ideal S512 .f32)
    (h : fn_part3 (F := Ideal) a1 v48 v49 v50 ix0 = 1#1) :
    v48 ix0 = 1#1
    ∧ Host.reduce IntOp.andi (cmpf .olt v49 v50) (constantI S_ 1 1#1) reducesTo_S512_S_d0 h_S_ ix0 = 1#1
    ∧ ∀ e : Fin 800000, 0 ≤ (a1 (ix2 0 e)).toInt ∧ (a1 (ix2 0 e)).toInt < 50000 := by
  dsimp only [fn_part3] at h
  obtain ⟨h53, h63⟩ := andi_at h
  obtain ⟨h48, h52⟩ := andi_at h53
  refine ⟨h48, h52, fun e => ?_⟩
  -- the reduce over all edges came out 1, so the test is 1 at edge e
  have hall := Host.reduce_andi_all _ _ _ _ ix0 h63 (ix1 e)
  obtain ⟨hge, hlt⟩ := andi_at hall
  have hge' := IntOp.cmpi_sge.1 hge
  have hlt' := IntOp.cmpi_slt.1 hlt
  rw [src_read, bcast_const_read] at hge' hlt'
  rw [toInt_zero32] at hge'
  rw [toInt_fifty32] at hlt'
  exact ⟨hge', hlt'⟩

/-- The middle part: the incoming bit, the bits of the last four float arguments, and the edge list's bit. -/
theorem part2 (a1 : IVec S2x800000 32) (a8 : FVec Ideal S128 .f32) (a9 : FVec Ideal S128x512 .f32)
    (a10 a11 : FVec Ideal S512 .f32) (v33 : IVec S_ 1)
    (h : fn_part2 (F := Ideal) a1 a8 a9 a10 a11 v33 ix0 = 1#1) :
    v33 ix0 = 1#1 ∧ (∀ i, IsReal (a8 i)) ∧ (∀ i, IsReal (a9 i)) ∧ (∀ i, IsReal (a10 i)) ∧ (∀ i, IsReal (a11 i))
    ∧ ∀ e : Fin 800000, 0 ≤ (a1 (ix2 0 e)).toInt ∧ (a1 (ix2 0 e)).toInt < 50000 := by
  dsimp only [fn_part2] at h
  obtain ⟨h48, h52, hr⟩ := part3 _ _ _ _ h
  obtain ⟨h43, h47⟩ := andi_at h48
  obtain ⟨h38, h42⟩ := andi_at h43
  obtain ⟨h33, h37⟩ := andi_at h38
  exact ⟨h33, isReal_of_all a8 _ _ _ h37, isReal_of_all a9 _ _ _ h42, isReal_of_all a10 _ _ _ h47,
    isReal_of_all a11 _ _ _ h52, hr⟩

/-- The first cut: the incoming bit, the incoming test array's reduce, the bits of three more float arguments, and
    all that the later parts give. -/
theorem part1 (a1 : IVec S2x800000 32) (a5 a6 : FVec Ideal S128x128 .f32) (a7 a8 : FVec Ideal S128 .f32)
    (a9 : FVec Ideal S128x512 .f32) (a10 a11 : FVec Ideal S512 .f32) (v13 : IVec S_ 1) (v16 : IVec S128 1)
    (h : fn_part1 (F := Ideal) a1 a5 a6 a7 a8 a9 a10 a11 v13 v16 ix0 = 1#1) :
    v13 ix0 = 1#1
    ∧ Host.reduce IntOp.andi v16 (constantI S_ 1 1#1) reducesTo_S128_S_d0 h_S_ ix0 = 1#1
    ∧ (∀ i, IsReal (a5 i)) ∧ (∀ i, IsReal (a6 i)) ∧ (∀ i, IsReal (a7 i)) ∧ (∀ i, IsReal (a8 i))
    ∧ (∀ i, IsReal (a9 i)) ∧ (∀ i, IsReal (a10 i)) ∧ (∀ i, IsReal (a11 i))
    ∧ ∀ e : Fin 800000, 0 ≤ (a1 (ix2 0 e)).toInt ∧ (a1 (ix2 0 e)).toInt < 50000 := by
  dsimp only [fn_part1] at h
  obtain ⟨h33, r8, r9, r10, r11, hr⟩ := part2 _ _ _ _ _ _ h
  obtain ⟨h28, h32⟩ := andi_at h33
  obtain ⟨h23, h27⟩ := andi_at h28
  obtain ⟨h18, h22⟩ := andi_at h23
  obtain ⟨h13, h17⟩ := andi_at h18
  exact ⟨h13, h17, isReal_of_all a5 _ _ _ h22, isReal_of_all a6 _ _ _ h27, isReal_of_all a7 _ _ _ h32,
    r8, r9, r10, r11, hr⟩

/-- The whole function: where it is 1, every float argument is real entry by entry and every source word of the
    edge list is in 0 … 49999. -/
theorem whole (a0 : FVec Ideal S50000x512 .f32) (a1 : IVec S2x800000 32) (a2 : FVec Ideal S512x128 .f32)
    (a3 a4 : FVec Ideal S128 .f32) (a5 a6 : FVec Ideal S128x128 .f32) (a7 a8 : FVec Ideal S128 .f32)
    (a9 : FVec Ideal S128x512 .f32) (a10 a11 : FVec Ideal S512 .f32)
    (h : fn (F := Ideal) a0 a1 a2 a3 a4 a5 a6 a7 a8 a9 a10 a11 ix0 = 1#1) :
    (∀ i, IsReal (a0 i)) ∧ (∀ i, IsReal (a2 i)) ∧ (∀ i, IsReal (a3 i)) ∧ (∀ i, IsReal (a4 i))
    ∧ (∀ i, IsReal (a5 i)) ∧ (∀ i, IsReal (a6 i)) ∧ (∀ i, IsReal (a7 i)) ∧ (∀ i, IsReal (a8 i))
    ∧ (∀ i, IsReal (a9 i)) ∧ (∀ i, IsReal (a10 i)) ∧ (∀ i, IsReal (a11 i))
    ∧ ∀ e : Fin 800000, 0 ≤ (a1 (ix2 0 e)).toInt ∧ (a1 (ix2 0 e)).toInt < 50000 := by
  dsimp only [fn] at h
  obtain ⟨h13, h17, r5, r6, r7, r8, r9, r10, r11, hr⟩ := part1 _ _ _ _ _ _ _ _ _ _ h
  obtain ⟨h8, h12⟩ := andi_at h13
  obtain ⟨h3, h7⟩ := andi_at h8
  exact ⟨isReal_of_all a0 _ _ _ h3, isReal_of_all a2 _ _ _ h7, isReal_of_all a3 _ _ _ h12,
    isReal_of_all a4 _ _ _ h17, r5, r6, r7, r8, r9, r10, r11, hr⟩

end Cert.PreRead.Parts

namespace Cert.PreRead

open Idealize.ShloMosaic Idealize.ShloMosaic.ValueIdx Idealize.SL.Sem
open Cert.KernelIdeal Cert.KernelIdeal.KVals Cert.LibReal

variable (m : (ℓ : Loc nD τ sig) → Buf (Elt Ideal) ℓ)

/-- Under the precondition the float arguments are real, entry by entry. -/
theorem reals (hpre : Cert.Pre_KernelIdeal m) (c : Dev nD) :
    (∀ i j, IsReal (x m c i j)) ∧ (∀ i j, IsReal (w1 m c i j)) ∧ (∀ j, IsReal (g1 m c j)) ∧ (∀ j, IsReal (b1 m c j))
    ∧ (∀ i j, IsReal (ws m c i j)) ∧ (∀ i j, IsReal (wn m c i j)) ∧ (∀ j, IsReal (g2 m c j)) ∧ (∀ j, IsReal (b2 m c j))
    ∧ (∀ i j, IsReal (w3 m c i j)) := by
  -- the precondition's function at this device, read at its one index
  have h0 := congrFun (hpre c) ix0
  obtain ⟨r0, r2, r3, r4, r5, r6, r7, r8, r9, _, _, _⟩ := Parts.whole _ _ _ _ _ _ _ _ _ _ _ _ h0
  -- a matrix entry (i, j) is the array's entry at the index (i, j); a vector entry j the array's at (j)
  exact ⟨fun i j => r0 (ix2 i j), fun i j => r2 (ix2 i j), fun j => r3 (ix1 j), fun j => r4 (ix1 j),
    fun i j => r5 (ix2 i j), fun i j => r6 (ix2 i j), fun j => r7 (ix1 j), fun j => r8 (ix1 j),
    fun i j => r9 (ix2 i j)⟩

/-- Under the precondition every source word of the edge list is in 0 … 49999, read signed. -/
theorem src_range (hpre : Cert.Pre_KernelIdeal m) (c : Dev nD) : ∀ e : Fin 800000, 0 ≤ (ei m c (ix2 0 e)).toInt ∧ (ei m c (ix2 0 e)).toInt < 50000 := by
  have h0 := congrFun (hpre c) ix0
  exact (Parts.whole _ _ _ _ _ _ _ _ _ _ _ _ h0).2.2.2.2.2.2.2.2.2.2.2

end Cert.PreRead

end
-- ==== Proof.lean ====
/-
  A bottleneck block of a graph network on 50000 nodes and 800000 edges: a 512 → 128 linear map, column
  normalisation over the nodes, scale, shift and clip at zero; a graph convolution (a root transform plus the sum, over
  the edges into each node, of the neighbour transform of the edge's source), normalised, scaled, shifted and clipped
  again; a 128 → 512 linear map, normalised, scaled and shifted, with the input added and a last clip.

  The kernel's program computes it in five tiled passes over 25 tiles of 2000 nodes, with the column statistics from
  per-tile partial sums (the mean of the squares minus the square of the mean for the variance) and the edge messages
  gathered with a range guard; the reference computes it directly, with the variance as the mean of the squared
  deviations and a plain gather. Over the extended reals the two are the same function of the arguments when the float
  arguments are real and the source node of every edge lies in 0 … 49999: regrouping a finite sum changes nothing, the two
  variance formulas agree on real columns, and the guard passes on every edge. The frames are the generated ones for the
  two kernel programs and the hand-written run for the reference; nothing was rewritten by the idealization, so
  `preserves` is trivial.
-/
import proofs.«421418_j84782654423196_3_alg».proof.Defs
import proofs.«421418_j84782654423196_3_alg».proof.Proof.Gen.Kernel
import proofs.«421418_j84782654423196_3_alg».proof.Proof.Gen.Kernel.Frame
import proofs.«421418_j84782654423196_3_alg».proof.Proof.Gen.KernelIdeal
import proofs.«421418_j84782654423196_3_alg».proof.Proof.Gen.KernelIdeal.Frame
import proofs.«421418_j84782654423196_3_alg».proof.Proof.Gen.ReferenceIdeal
import proofs.«421418_j84782654423196_3_alg».proof.Proof.Gen.Pre_finite_inputs
import proofs.«421418_j84782654423196_3_alg».proof.Proof.Spec
import proofs.«421418_j84782654423196_3_alg».proof.Proof.Edge
import proofs.«421418_j84782654423196_3_alg».proof.Proof.KVals
import proofs.«421418_j84782654423196_3_alg».proof.Proof.KRun
import proofs.«421418_j84782654423196_3_alg».proof.Proof.KChainD
import proofs.«421418_j84782654423196_3_alg».proof.Proof.RefHand
import proofs.«421418_j84782654423196_3_alg».proof.Proof.Algebra
import proofs.«421418_j84782654423196_3_alg».proof.Proof.PreRead
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The tiled block over the kernel program's launch memory is the direct block over the same arrays: the guarded edge
    aggregation is the plain one because every source word is in range, the plain one keeps real matrices real, and
    the float arguments are real. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KVals.out m c
      = Cert.Spec.outR (Cert.Edge.ER0 (Cert.KernelIdeal.KVals.ei m c)) (Cert.KernelIdeal.KVals.x m c)
          (Cert.KernelIdeal.KVals.w1 m c) (Cert.KernelIdeal.KVals.g1 m c) (Cert.KernelIdeal.KVals.b1 m c)
          (Cert.KernelIdeal.KVals.ws m c) (Cert.KernelIdeal.KVals.wn m c) (Cert.KernelIdeal.KVals.g2 m c)
          (Cert.KernelIdeal.KVals.b2 m c) (Cert.KernelIdeal.KVals.w3 m c) (Cert.KernelIdeal.KVals.g3 m c)
          (Cert.KernelIdeal.KVals.b3 m c) := by
  obtain ⟨hx, hw1, hg1, hb1, hws, hwn, hg2, hb2, hw3⟩ := Cert.PreRead.reals m hpre c
  rw [Cert.KernelIdeal.KVals.out_eq]
  unfold Cert.KernelIdeal.KVals.E
  rw [Cert.Edge.EK0_eq_ER0 _ (Cert.PreRead.src_range m hpre c)]
  exact Cert.Algebra.outK_eq_outR _ (Cert.Edge.ER0_real _) _ _ _ _ _ _ _ _ _ _ _ hx hw1 hg1 hb1 hws hwn hg2 hb2 hw3

theorem algebraic : Cert.algebraic_KernelIdeal_ReferenceIdeal := by
  intro m ρ m' ρ' hpre hagree
  refine ⟨fun c => Cert.Edge.arr2 (Cert.KernelIdeal.KVals.out m c), ?_, ?_⟩
  · refine (θ_run Cert.KernelIdeal.defs _ _).mono (fun r h c => ⟨(h c).1.trans ?_, (h c).2⟩)
      (Cert.KernelIdeal.Gen.run_value (F := Ideal) m ρ)
    funext idx
    obtain ⟨i, j, rfl⟩ : ∃ (i : Fin 50000) (j : Fin 512), idx = ix2 i j := ⟨idx 0, idx 1, eq_ix2 idx⟩
    exact Cert.KernelIdeal.Chain.w12_out m ρ c i j
  · refine (θ_run Cert.ReferenceIdeal.defs _ _).mono (fun r h c => ⟨(h c).1.trans ?_, (h c).2⟩)
      (Cert.ReferenceIdeal.Hand.run m' ρ')
    refine congrArg Cert.Edge.arr2 ?_
    obtain ⟨e0, e1, e2, e3, e4, e5, e6, e7, e8, e9, e10, e11⟩ := hagree c
    unfold Cert.ReferenceIdeal.Hand.res
    rw [e0, e1, e2, e3, e4, e5, e6, e7, e8, e9, e10, e11]
    exact (value_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
